-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S_ : Shape := ⟨0, ![]⟩
abbrev S1x1600000 : Shape := ⟨2, ![1, 1600000]⟩
abbrev S1600000 : Shape := ⟨1, ![1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S2x1600000 32) (main_v33 : IVec S_ 1) : IVec S_ 1 :=
  let main_v34 : IVec S1x1600000 32 := (extractStridedSlice S1x1600000 ![0, 0] · slices_S2x1600000_S1x1600000_0_0) main_arg1
  let main_v35 : IVec S1600000 32 := shapeCast S1600000 main_v34 shapeCasts_S1x1600000_S1600000
  let main_c_12 : IVec S_ 32 := constantI S_ 32 0#32
  let main_v36 : IVec S1600000 32 := broadcastInDim S1600000 ![] bcast_S_S1600000 main_c_12
  let main_v37 : IVec S1600000 1 := cmpi .sge main_v35 main_v36
  let main_c_13 : IVec S_ 32 := constantI S_ 32 100000#32
  let main_v38 : IVec S1600000 32 := broadcastInDim S1600000 ![] bcast_S_S1600000 main_c_13
  let main_v39 : IVec S1600000 1 := cmpi .slt main_v35 main_v38
  let main_v40 : IVec S1600000 1 := andi main_v37 main_v39
  let main_c_14 : IVec S_ 1 := constantI S_ 1 1#1
  let main_v41 : IVec S_ 1 := (fun x v => Host.reduce IntOp.andi x v reducesTo_S1600000_S_d0 h_S_) main_v40 main_c_14
  let main_v42 : IVec S_ 1 := andi main_v33 main_v41
  main_v42

def fn_part1 {F : FTy → Type} [FloatOps F] (main_arg1 : IVec S2x1600000 32) (main_arg5 : FVec F S64 .f32) (main_arg6 : FVec F S64x2 .f32) (main_arg7 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg6
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  fn_part2 (F := F) main_arg1 main_v33

def fn {F : FTy → Type} [FloatOps F] (main_arg0 : FVec F S100000x128 .f32) (main_arg1 : IVec S2x1600000 32) (main_arg2 : FVec F S128x64 .f32) (main_arg3 : FVec F S64 .f32) (main_arg4 : FVec F S64x64 .f32) (main_arg5 : FVec F S64 .f32) (main_arg6 : FVec F S64x2 .f32) (main_arg7 : FVec F S2 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg1 main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x64 : Shape := ⟨2, ![100000, 64]⟩
abbrev S5000x128 : Shape := ⟨2, ![5000, 128]⟩
abbrev S5000x1 : Shape := ⟨2, ![5000, 1]⟩
abbrev S5000x64 : Shape := ⟨2, ![5000, 64]⟩
abbrev S1 : Shape := ⟨1, ![1]⟩
abbrev S1x1 : Shape := ⟨2, ![1, 1]⟩
abbrev S1600000x64 : Shape := ⟨2, ![1600000, 64]⟩
abbrev S1x64 : Shape := ⟨2, ![1, 64]⟩
abbrev S64x16 : Shape := ⟨2, ![64, 16]⟩
abbrev S100000x16 : Shape := ⟨2, ![100000, 16]⟩
abbrev S5000x16 : Shape := ⟨2, ![5000, 16]⟩
abbrev S1600000x16 : Shape := ⟨2, ![1600000, 16]⟩
abbrev S100000x2 : Shape := ⟨2, ![100000, 2]⟩
abbrev S5000x2 : Shape := ⟨2, ![5000, 2]⟩
abbrev S1x2 : Shape := ⟨2, ![1, 2]⟩
abbrev S5000 : Shape := ⟨1, ![5000]⟩

abbrev nBuf : Space → Nat
  | .hbm => 113
  | .vmem => 36
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x2, .f32⟩
  | .hbm, ⟨7, _⟩ => ⟨S2, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .f32⟩
  | .hbm, ⟨13, _⟩ => ⟨S1600000, .f32⟩
  | .hbm, ⟨14, _⟩ => ⟨S_, .f32⟩
  | .hbm, ⟨15, _⟩ => ⟨S100000, .f32⟩
  | .hbm, ⟨16, _⟩ => ⟨S1600000x1, .i32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S100000, .f32⟩
  | .hbm, ⟨22, _⟩ => ⟨S100000x1, .f32⟩
  | .hbm, ⟨23, _⟩ => ⟨S100000x64, .f32⟩
  | .hbm, ⟨24, _⟩ => ⟨S_, .i32⟩
  | .hbm, ⟨25, _⟩ => ⟨S1600000, .i32⟩
  | .hbm, ⟨26, _⟩ => ⟨S1600000, .i1⟩
  | .hbm, ⟨27, _⟩ => ⟨S_, .i32⟩
  | .hbm, ⟨28, _⟩ => ⟨S1600000, .i32⟩
  | .hbm, ⟨29, _⟩ => ⟨S1600000, .i32⟩
  | .hbm, ⟨30, _⟩ => ⟨S1600000, .i32⟩
  | .hbm, ⟨31, _⟩ => ⟨S1600000x1, .i32⟩
  | .hbm, ⟨32, _⟩ => ⟨S1, .i32⟩
  | .hbm, ⟨33, _⟩ => ⟨S_, .i32⟩
  | .hbm, ⟨34, _⟩ => ⟨S1600000x1, .i32⟩
  | .hbm, ⟨35, _⟩ => ⟨S1600000x1, .i1⟩
  | .hbm, ⟨36, _⟩ => ⟨S1x1, .i32⟩
  | .hbm, ⟨37, _⟩ => ⟨S1600000x1, .i32⟩
  | .hbm, ⟨38, _⟩ => ⟨S1600000x1, .i1⟩
  | .hbm, ⟨39, _⟩ => ⟨S1600000x1, .i1⟩
  | .hbm, ⟨40, _⟩ => ⟨S_, .i1⟩
  | .hbm, ⟨41, _⟩ => ⟨S1600000, .i1⟩
  | .hbm, ⟨42, _⟩ => ⟨S1600000x64, .f32⟩
  | .hbm, ⟨43, _⟩ => ⟨S1600000x64, .i1⟩
  | .hbm, ⟨44, _⟩ => ⟨S_, .f32⟩
  | .hbm, ⟨45, _⟩ => ⟨S1600000x64, .f32⟩
  | .hbm, ⟨46, _⟩ => ⟨S1600000x64, .f32⟩
  | .hbm, ⟨47, _⟩ => ⟨S_, .f32⟩
  | .hbm, ⟨48, _⟩ => ⟨S100000x64, .f32⟩
  | .hbm, ⟨49, _⟩ => ⟨S1600000x1, .i32⟩
  | .hbm, ⟨50, _⟩ => ⟨S100000x64, .f32⟩
  | .hbm, ⟨51, _⟩ => ⟨S100000x64, .f32⟩
  | .hbm, ⟨52, _⟩ => ⟨S_, .i32⟩
  | .hbm, ⟨53, _⟩ => ⟨S1600000, .i32⟩
  | .hbm, ⟨54, _⟩ => ⟨S1600000, .i1⟩
  | .hbm, ⟨55, _⟩ => ⟨S_, .i32⟩
  | .hbm, ⟨56, _⟩ => ⟨S1600000, .i32⟩
  | .hbm, ⟨57, _⟩ => ⟨S1600000, .i32⟩
  | .hbm, ⟨58, _⟩ => ⟨S1600000, .i32⟩
  | .hbm, ⟨59, _⟩ => ⟨S1600000x1, .i32⟩
  | .hbm, ⟨60, _⟩ => ⟨S1, .i32⟩
  | .hbm, ⟨61, _⟩ => ⟨S_, .i32⟩
  | .hbm, ⟨62, _⟩ => ⟨S1600000x1, .i32⟩
  | .hbm, ⟨63, _⟩ => ⟨S1600000x1, .i1⟩
  | .hbm, ⟨64, _⟩ => ⟨S1x1, .i32⟩
  | .hbm, ⟨65, _⟩ => ⟨S1600000x1, .i32⟩
  | .hbm, ⟨66, _⟩ => ⟨S1600000x1, .i1⟩
  | .hbm, ⟨67, _⟩ => ⟨S1600000x1, .i1⟩
  | .hbm, ⟨68, _⟩ => ⟨S_, .i1⟩
  | .hbm, ⟨69, _⟩ => ⟨S1600000, .i1⟩
  | .hbm, ⟨70, _⟩ => ⟨S1600000x64, .f32⟩
  | .hbm, ⟨71, _⟩ => ⟨S1600000x64, .i1⟩
  | .hbm, ⟨72, _⟩ => ⟨S_, .f32⟩
  | .hbm, ⟨73, _⟩ => ⟨S1600000x64, .f32⟩
  | .hbm, ⟨74, _⟩ => ⟨S1600000x64, .f32⟩
  | .hbm, ⟨75, _⟩ => ⟨S_, .f32⟩
  | .hbm, ⟨76, _⟩ => ⟨S100000x64, .f32⟩
  | .hbm, ⟨77, _⟩ => ⟨S1600000x1, .i32⟩
  | .hbm, ⟨78, _⟩ => ⟨S100000x64, .f32⟩
  | .hbm, ⟨79, _⟩ => ⟨S_, .f32⟩
  | .hbm, ⟨80, _⟩ => ⟨S64x16, .f32⟩
  | .hbm, ⟨81, _⟩ => ⟨S_, .i32⟩
  | .hbm, ⟨82, _⟩ => ⟨S1, .i32⟩
  | .hbm, ⟨83, _⟩ => ⟨S64x16, .f32⟩
  | .hbm, ⟨84, _⟩ => ⟨S100000x16, .f32⟩
  | .hbm, ⟨85, _⟩ => ⟨S_, .i32⟩
  | .hbm, ⟨86, _⟩ => ⟨S1600000, .i32⟩
  | .hbm, ⟨87, _⟩ => ⟨S1600000, .i1⟩
  | .hbm, ⟨88, _⟩ => ⟨S_, .i32⟩
  | .hbm, ⟨89, _⟩ => ⟨S1600000, .i32⟩
  | .hbm, ⟨90, _⟩ => ⟨S1600000, .i32⟩
  | .hbm, ⟨91, _⟩ => ⟨S1600000, .i32⟩
  | .hbm, ⟨92, _⟩ => ⟨S1600000x1, .i32⟩
  | .hbm, ⟨93, _⟩ => ⟨S1, .i32⟩
  | .hbm, ⟨94, _⟩ => ⟨S_, .i32⟩
  | .hbm, ⟨95, _⟩ => ⟨S1600000x1, .i32⟩
  | .hbm, ⟨96, _⟩ => ⟨S1600000x1, .i1⟩
  | .hbm, ⟨97, _⟩ => ⟨S1x1, .i32⟩
  | .hbm, ⟨98, _⟩ => ⟨S1600000x1, .i32⟩
  | .hbm, ⟨99, _⟩ => ⟨S1600000x1, .i1⟩
  | .hbm, ⟨100, _⟩ => ⟨S1600000x1, .i1⟩
  | .hbm, ⟨101, _⟩ => ⟨S_, .i1⟩
  | .hbm, ⟨102, _⟩ => ⟨S1600000, .i1⟩
  | .hbm, ⟨103, _⟩ => ⟨S1600000x16, .f32⟩
  | .hbm, ⟨104, _⟩ => ⟨S1600000x16, .i1⟩
  | .hbm, ⟨105, _⟩ => ⟨S_, .f32⟩
  | .hbm, ⟨106, _⟩ => ⟨S1600000x16, .f32⟩
  | .hbm, ⟨107, _⟩ => ⟨S1600000x16, .f32⟩
  | .hbm, ⟨108, _⟩ => ⟨S_, .f32⟩
  | .hbm, ⟨109, _⟩ => ⟨S100000x16, .f32⟩
  | .hbm, ⟨110, _⟩ => ⟨S1600000x1, .i32⟩
  | .hbm, ⟨111, _⟩ => ⟨S100000x16, .f32⟩
  | .hbm, ⟨112, _⟩ => ⟨S100000x2, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S64, .f32⟩
  | .local _ .vmem, ⟨14, _⟩ => ⟨S64x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x1, .f32⟩
  | .local _ .vmem, ⟨22, _⟩ => ⟨S5000x1, .f32⟩
  | .local _ .vmem, ⟨23, _⟩ => ⟨S64, .f32⟩
  | .local _ .vmem, ⟨24, _⟩ => ⟨S64x16, .f32⟩
  | .local _ .vmem, ⟨25, _⟩ => ⟨S5000x16, .f32⟩
  | .local _ .vmem, ⟨26, _⟩ => ⟨S5000x16, .f32⟩
  | .local _ .vmem, ⟨27, _⟩ => ⟨S5000x16, .f32⟩
  | .local _ .vmem, ⟨28, _⟩ => ⟨S5000x16, .f32⟩
  | .local _ .vmem, ⟨29, _⟩ => ⟨S5000x16, .f32⟩
  | .local _ .vmem, ⟨30, _⟩ => ⟨S5000x16, .f32⟩
  | .local _ .vmem, ⟨31, _⟩ => ⟨S5000x1, .f32⟩
  | .local _ .vmem, ⟨32, _⟩ => ⟨S5000x1, .f32⟩
  | .local _ .vmem, ⟨33, _⟩ => ⟨S2, .f32⟩
  | .local _ .vmem, ⟨34, _⟩ => ⟨S5000x2, .f32⟩
  | .local _ .vmem, ⟨35, _⟩ => ⟨S5000x2, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_call0_c : Ref sig .tc := ⟨.hbm, 24, rfl⟩
abbrev main_call0_v0 : Ref sig .tc := ⟨.hbm, 25, rfl⟩
abbrev main_call0_v1 : Ref sig .tc := ⟨.hbm, 26, rfl⟩
abbrev main_call0_c_0 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_c_1 : Ref sig .tc := ⟨.hbm, 32, rfl⟩
abbrev main_call0_c_2 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_v9 : Ref sig .tc := ⟨.hbm, 37, rfl⟩
abbrev main_call0_v10 : Ref sig .tc := ⟨.hbm, 38, rfl⟩
abbrev main_call0_v11 : Ref sig .tc := ⟨.hbm, 39, rfl⟩
abbrev main_call0_c_3 : Ref sig .tc := ⟨.hbm, 40, rfl⟩
abbrev main_call0_v12 : Ref sig .tc := ⟨.hbm, 41, rfl⟩
abbrev main_call0_v13 : Ref sig .tc := ⟨.hbm, 42, rfl⟩
abbrev main_call0_v14 : Ref sig .tc := ⟨.hbm, 43, rfl⟩
abbrev main_call0_cst : Ref sig .tc := ⟨.hbm, 44, rfl⟩
abbrev main_call0_v15 : Ref sig .tc := ⟨.hbm, 45, rfl⟩
abbrev main_v13 : Ref sig .tc := ⟨.hbm, 46, rfl⟩
abbrev main_cst_2 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_call1_c : Ref sig .tc := ⟨.hbm, 52, rfl⟩
abbrev main_call1_v0 : Ref sig .tc := ⟨.hbm, 53, rfl⟩
abbrev main_call1_v1 : Ref sig .tc := ⟨.hbm, 54, rfl⟩
abbrev main_call1_c_0 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_call1_v5 : Ref sig .tc := ⟨.hbm, 59, rfl⟩
abbrev main_call1_c_1 : Ref sig .tc := ⟨.hbm, 60, rfl⟩
abbrev main_call1_c_2 : Ref sig .tc := ⟨.hbm, 61, rfl⟩
abbrev main_call1_v6 : Ref sig .tc := ⟨.hbm, 62, rfl⟩
abbrev main_call1_v7 : Ref sig .tc := ⟨.hbm, 63, rfl⟩
abbrev main_call1_v8 : Ref sig .tc := ⟨.hbm, 64, rfl⟩
abbrev main_call1_v9 : Ref sig .tc := ⟨.hbm, 65, rfl⟩
abbrev main_call1_v10 : Ref sig .tc := ⟨.hbm, 66, rfl⟩
abbrev main_call1_v11 : Ref sig .tc := ⟨.hbm, 67, rfl⟩
abbrev main_call1_c_3 : Ref sig .tc := ⟨.hbm, 68, rfl⟩
abbrev main_call1_v12 : Ref sig .tc := ⟨.hbm, 69, rfl⟩
abbrev main_call1_v13 : Ref sig .tc := ⟨.hbm, 70, rfl⟩
abbrev main_call1_v14 : Ref sig .tc := ⟨.hbm, 71, rfl⟩
abbrev main_call1_cst : Ref sig .tc := ⟨.hbm, 72, rfl⟩
abbrev main_call1_v15 : Ref sig .tc := ⟨.hbm, 73, rfl⟩
abbrev main_v18 : Ref sig .tc := ⟨.hbm, 74, rfl⟩
abbrev main_cst_3 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_cst_4 : Ref sig .tc := ⟨.hbm, 79, rfl⟩
abbrev main_v22 : Ref sig .tc := ⟨.hbm, 80, rfl⟩
abbrev main_c : Ref sig .tc := ⟨.hbm, 81, rfl⟩
abbrev main_v23 : Ref sig .tc := ⟨.hbm, 82, rfl⟩
abbrev main_v24 : Ref sig .tc := ⟨.hbm, 83, rfl⟩
abbrev main_v25 : Ref sig .tc := ⟨.hbm, 84, rfl⟩
abbrev main_call2_c : Ref sig .tc := ⟨.hbm, 85, rfl⟩
abbrev main_call2_v0 : Ref sig .tc := ⟨.hbm, 86, rfl⟩
abbrev main_call2_v1 : Ref sig .tc := ⟨.hbm, 87, rfl⟩
abbrev main_call2_c_0 : Ref sig .tc := ⟨.hbm, 88, rfl⟩
abbrev main_call2_v2 : Ref sig .tc := ⟨.hbm, 89, rfl⟩
abbrev main_call2_v3 : Ref sig .tc := ⟨.hbm, 90, rfl⟩
abbrev main_call2_v4 : Ref sig .tc := ⟨.hbm, 91, rfl⟩
abbrev main_call2_v5 : Ref sig .tc := ⟨.hbm, 92, rfl⟩
abbrev main_call2_c_1 : Ref sig .tc := ⟨.hbm, 93, rfl⟩
abbrev main_call2_c_2 : Ref sig .tc := ⟨.hbm, 94, rfl⟩
abbrev main_call2_v6 : Ref sig .tc := ⟨.hbm, 95, rfl⟩
abbrev main_call2_v7 : Ref sig .tc := ⟨.hbm, 96, rfl⟩
abbrev main_call2_v8 : Ref sig .tc := ⟨.hbm, 97, rfl⟩
abbrev main_call2_v9 : Ref sig .tc := ⟨.hbm, 98, rfl⟩
abbrev main_call2_v10 : Ref sig .tc := ⟨.hbm, 99, rfl⟩
abbrev main_call2_v11 : Ref sig .tc := ⟨.hbm, 100, rfl⟩
abbrev main_call2_c_3 : Ref sig .tc := ⟨.hbm, 101, rfl⟩
abbrev main_call2_v12 : Ref sig .tc := ⟨.hbm, 102, rfl⟩
abbrev main_call2_v13 : Ref sig .tc := ⟨.hbm, 103, rfl⟩
abbrev main_call2_v14 : Ref sig .tc := ⟨.hbm, 104, rfl⟩
abbrev main_call2_cst : Ref sig .tc := ⟨.hbm, 105, rfl⟩
abbrev main_call2_v15 : Ref sig .tc := ⟨.hbm, 106, rfl⟩
abbrev main_v26 : Ref sig .tc := ⟨.hbm, 107, rfl⟩
abbrev main_cst_5 : Ref sig .tc := ⟨.hbm, 108, rfl⟩
abbrev main_v27 : Ref sig .tc := ⟨.hbm, 109, rfl⟩
abbrev main_v28 : Ref sig .tc := ⟨.hbm, 110, rfl⟩
abbrev main_v29 : Ref sig .tc := ⟨.hbm, 111, rfl⟩
abbrev main_v30 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem4_0 : DmaSem sig := 24
abbrev cc2_sem5_0 : DmaSem sig := 25
abbrev cc2_sem5_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x16 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x16 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x2 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S5000x128_S5000x128_0_0 : ∀ a, (![0, 0] : Fin 2 → Nat) a + S5000x128.size a ≤ S5000x128.size a
  h_S5000x128 : 0 < S5000x128.numel
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  bcast_S_S100000x64 : S_.BroadcastsInDim S100000x64 (![] : Fin 0 → Fin S100000x64.rank)
  shapeCasts_S5000x64_S5000x64 : S5000x64.ShapeCasts S5000x64
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  bcast_S_S64x16 : S_.BroadcastsInDim S64x16 (![] : Fin 0 → Fin S64x16.rank)
  bcast_S_S1 : S_.BroadcastsInDim S1 (![] : Fin 0 → Fin S1.rank)
  inb_S64x16_S64x16_0_0 : ∀ a, (![0, 0] : Fin 2 → Nat) a + S64x16.size a ≤ S64x16.size a
  h_S64x16 : 0 < S64x16.numel
  shapeCasts_S64x16_S64x16 : S64x16.ShapeCasts S64x16
  broadcasts_S5000x1_S5000x16 : S5000x1.Broadcasts S5000x16
  inb_S5000x16_S5000x16_0_0 : ∀ a, (![0, 0] : Fin 2 → Nat) a + S5000x16.size a ≤ S5000x16.size a
  h_S5000x16 : 0 < S5000x16.numel
  bcast_S1600000_S1600000x16_0 : S1600000.BroadcastsInDim S1600000x16 (![0] : Fin 1 → Fin S1600000x16.rank)
  bcast_S_S1600000x16 : S_.BroadcastsInDim S1600000x16 (![] : Fin 0 → Fin S1600000x16.rank)
  bcast_S_S100000x16 : S_.BroadcastsInDim S100000x16 (![] : Fin 0 → Fin S100000x16.rank)
  shapeCasts_S5000x16_S5000x16 : S5000x16.ShapeCasts S5000x16
  slices_S5000x16_o0_0_S5000x2 : S5000x16.Slices ![0, 0] S5000x2
  inb_S2_S2_0 : ∀ a, (![0] : Fin 1 → Nat) a + S2.size a ≤ S2.size a
  h_S2 : 0 < S2.numel
  shapeCasts_S2_S1x2 : S2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  inb_S5000x2_S5000x2_0_0 : ∀ a, (![0, 0] : Fin 2 → Nat) a + S5000x2.size a ≤ S5000x2.size a
  h_S5000x2 : 0 < S5000x2.numel
  scatter_S100000_S1600000x1_S1600000_n_0_0_1_wf : ScatterDims.WF S100000 S1600000x1 S1600000 [] [0] [0] 1
  dot_S5000x128_S128x64_S5000x64_1_0_0_1_n_n_wf : DotDims.WF S5000x128 S128x64 S5000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  scatter_S64x16_S1_S64x2_01_n_1_0_wf : ScatterDims.WF S64x16 S1 S64x2 [0, 1] [] [1] 0
  dot_S5000x64_S64x16_S5000x16_1_0_0_1_n_n_wf : DotDims.WF S5000x64 S64x16 S5000x16 [1] [0] [0] [1] [] []
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S100000x64.size a
  hwx0_3 : ∀ i : grid0.Coords, EltTy.bits .f32 = 32 ∨ (Rect.block (s := S100000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S100000x64.size a
  hwx2_1 : ∀ i : grid2.Coords, EltTy.bits .f32 = 32 ∨ (Rect.block (s := S100000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x1.size a ≤ S100000x1.size a
  hwx2_2 : ∀ i : grid2.Coords, EltTy.bits .f32 = 32 ∨ (Rect.block (s := S100000x1) S5000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64.size a ≤ S64.size a
  hwx2_3 : ∀ i : grid2.Coords, EltTy.bits .f32 = 32 ∨ (Rect.block (s := S64) S64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x16.size a ≤ S64x16.size a
  hwx2_4 : ∀ i : grid2.Coords, EltTy.bits .f32 = 32 ∨ (Rect.block (s := S64x16) S64x16.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x16.size a ≤ S100000x16.size a
  hwx2_5 : ∀ i : grid2.Coords, EltTy.bits .f32 = 32 ∨ (Rect.block (s := S100000x16) S5000x16.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S2.size a ≤ S2.size a
  hwx3_3 : ∀ i : grid3.Coords, EltTy.bits .f32 = 32 ∨ (Rect.block (s := S2) S2.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x2.size a ≤ S100000x2.size a
  hwx3_4 : ∀ i : grid3.Coords, EltTy.bits .f32 = 32 ∨ (Rect.block (s := S100000x2) S5000x2.size (cc3_transform_4 i) (hinb3_4 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S64x16_S1_S64x2_01_n_1_0 : ScatterDims S64x16 S1 S64x2 where
  updateWindowDims := [0, 1]
  insertedWindowDims := []
  scatterDimsToOperandDims := [1]
  indexVectorDim := 0
  wf := scatter_S64x16_S1_S64x2_01_n_1_0_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v16) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v21) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v17) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S5000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg5) S64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v24) S64x16.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v25) S5000x16.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v29) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v25) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v11) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg7) S2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v30) S5000x2.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x64 : Shape := ⟨2, ![64, 64]⟩
abbrev S64x2 : Shape := ⟨2, ![64, 2]⟩
abbrev S2 : Shape := ⟨1, ![2]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S100000x2 : Shape := ⟨2, ![100000, 2]⟩
abbrev S1700000x2 : Shape := ⟨2, ![1700000, 2]⟩
abbrev S1x2 : Shape := ⟨2, ![1, 2]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x64, .f32⟩
  | 5 => ⟨S64, .f32⟩
  | 6 => ⟨S64x2, .f32⟩
  | 7 => ⟨S2, .f32⟩
  | 8 => ⟨S1x1600000, .i32⟩
  | 9 => ⟨S1600000, .i32⟩
  | 10 => ⟨S1x1600000, .i32⟩
  | 11 => ⟨S1600000, .i32⟩
  | 12 => ⟨S100000, .i32⟩
  | 13 => ⟨S1700000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000x64, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000x64, .f32⟩
  | 81 => ⟨S1700000x1, .f32⟩
  | 82 => ⟨S1700000x64, .f32⟩
  | 83 => ⟨S1700000x64, .f32⟩
  | 84 => ⟨S_, .f32⟩
  | 85 => ⟨S100000x64, .f32⟩
  | 86 => ⟨S1700000x1, .i32⟩
  | 87 => ⟨S100000x64, .f32⟩
  | 88 => ⟨S1x64, .f32⟩
  | 89 => ⟨S100000x64, .f32⟩
  | 90 => ⟨S100000x64, .f32⟩
  | 91 => ⟨S_, .f32⟩
  | 92 => ⟨S100000x64, .f32⟩
  | 93 => ⟨S100000x64, .f32⟩
  | 94 => ⟨S100000x2, .f32⟩
  | 95 => ⟨S_, .i32⟩
  | 96 => ⟨S1700000, .i32⟩
  | 97 => ⟨S1700000, .i1⟩
  | 98 => ⟨S_, .i32⟩
  | 99 => ⟨S1700000, .i32⟩
  | 100 => ⟨S1700000, .i32⟩
  | 101 => ⟨S1700000, .i32⟩
  | 102 => ⟨S1700000x1, .i32⟩
  | 103 => ⟨S1700000x2, .f32⟩
  | 104 => ⟨S1700000x1, .f32⟩
  | 105 => ⟨S1700000x2, .f32⟩
  | 106 => ⟨S1700000x2, .f32⟩
  | 107 => ⟨S_, .f32⟩
  | 108 => ⟨S100000x2, .f32⟩
  | 109 => ⟨S1700000x1, .i32⟩
  | 110 => ⟨S100000x2, .f32⟩
  | 111 => ⟨S1x2, .f32⟩
  | 112 => ⟨S100000x2, .f32⟩
  | 113 => ⟨S100000x2, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x2, .f32⟩
  | 121 => ⟨S100000x2, .f32⟩
  | 122 => ⟨S100000x2, .f32⟩
  | 123 => ⟨S_, .f32⟩
  | 124 => ⟨S100000, .f32⟩
  | 125 => ⟨S100000x1, .f32⟩
  | 126 => ⟨S100000x1, .f32⟩
  | 127 => ⟨S100000x2, .f32⟩
  | _ => ⟨S100000x128, .f32⟩

abbrev hbmTy0_1 (i : Nat) : BufTy := match i % 128 with
  | 0 => ⟨S100000x2, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x2_0_1 : S1700000x1.BroadcastsInDim S1700000x2 (![0, 1] : Fin 2 → Fin S1700000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  dot_S100000x64_S64x2_S100000x2_1_0_0_1_n_n_wf : DotDims.WF S100000x64 S64x2 S100000x2 [1] [0] [0] [1] [] []
  gather_S100000x2_S1700000x1_S1700000x2_1_0_n_n_0_1_12_wf : GatherDims.WF S100000x2 S1700000x1 S1700000x2 [1] [0] [] [0] [] 1 ![1, 2]
  scatter_S100000x2_S1700000x1_S1700000x2_1_0_0_1_wf : ScatterDims.WF S100000x2 S1700000x1 S1700000x2 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x2_S100000x2_1_0_0_1_n_n : DotDims S100000x64 S64x2 S100000x2 where
  lhsContracting := [1]
  rhsContracting := [0]
  lhsNonContracting := [0]
  rhsNonContracting := [1]
  lhsBatch := []
  rhsBatch := []
  wf := dot_S100000x64_S64x2_S100000x2_1_0_0_1_n_n_wf
def gather_S100000x2_S1700000x1_S1700000x2_1_0_n_n_0_1_12 : GatherDims S100000x2 S1700000x1 S1700000x2 where
  offsetDims := [1]
  collapsedSliceDims := [0]
  operandBatchingDims := []
  startIndicesBatchingDims := []
  startIndexMap := [0]
  indexVectorDim := 1
  sliceSizes := ![1, 2]
  wf := gather_S100000x2_S1700000x1_S1700000x2_1_0_n_n_0_1_12_wf
def scatter_S100000x2_S1700000x1_S1700000x2_1_0_0_1 : ScatterDims S100000x2 S1700000x1 S1700000x2 where
  updateWindowDims := [1]
  insertedWindowDims := [0]
  scatterDimsToOperandDims := [0]
  indexVectorDim := 1
  wf := scatter_S100000x2_S1700000x1_S1700000x2_1_0_0_1_wf

class Facts : Prop extends Facts₀ where

variable [Facts]
-- ==== Proof.Spec.lean ====
/-
  A three-layer graph convolution with a row log-softmax, index by index over the extended reals, in the two
  arrangements that are compared.

  Nodes are `Fin 100000`, edges `Fin 1600000`; an edge is a pair of 32-bit words (source, destination). A destination
  word names node `i` when it reads `i` as a signed integer (a word outside the node range names no node and its edge
  contributes nothing); a source word selects the row it reads as a signed integer, clamped into the node range.
  With `c(i)` the number of edges into `i`, both arrangements use the factor `d(i) = (c(i) + 1)^(-1/2)`.

  FIRST ARRANGEMENT (`outK`): a layer scales the dense transform by the row's factor, `hp(i,j) = (∑ₖ a(i,k)·W(k,j))·d(i)`,
  sums the scaled rows over the edges into `i`, adds the node's own scaled row, and scales once more:
  `z(i,j) = (∑_{e into i} hp(src e, j) + hp(i,j))·d(i) + b(j)`.
  SECOND ARRANGEMENT (`outR`): the edge list is extended by one loop `i → i` per node (1700000 entries), every entry
  carries the weight `d(src)·d(dst)`, and `z(i,j) = ∑_{e' into i} (∑ₖ a(src e',k)·W(k,j))·(d(src e')·d(dst e')) + b(j)`.
  Between layers both take `max(·, 0)`; the last layer has two columns (in the first arrangement it is computed sixteen
  columns wide, the weight matrix filled with zero columns, and the first two are kept) and is followed by the row
  log-softmax `z − m − log ∑ exp(z − m)`, `m` the row's maximum.
-/
import Idealize.ShloMosaic.PureOps.Ideal
import Idealize.ShloMosaic.Lib.ValueIdx

noncomputable section

open scoped BigOperators

namespace Cert.Gcn

open Idealize.ShloMosaic

/-- The number of nodes, of edges, and of entries of the edge list extended by one loop per node. -/
abbrev NN : Nat := 100000
abbrev NE : Nat := 1600000
abbrev NF : Nat := 1700000

/-- The row a start-index word selects in a gather of node rows: the word read signed, clamped into the node range. -/
def rowOf (w : BitVec 32) : Fin NN := ⟨min w.toInt.toNat 99999, by show min w.toInt.toNat 99999 < 100000; omega⟩

/-- A negative index counted from the end: `w + 100000` when `w` reads negative, else `w`. -/
def wrapW (w : BitVec 32) : BitVec 32 := Scalar.select (IntOp.cmpi .slt w 0#32) (IntOp.addi w 100000#32) w

/-- The row log-softmax of a two-column table. -/
def lsm (z : Fin NN → Fin 2 → EReal) (i : Fin NN) (j : Fin 2) : EReal :=
  (z i j - max (z i 0) (z i 1)) - Ideal.log (∑ j' : Fin 2, Ideal.exp (z i j' - max (z i 0) (z i 1)))

/-- A dense transform: row `i` of `a` against column `j` of `W`. -/
def lin {K C : Nat} (a : Fin NN → Fin K → EReal) (W : Fin K → Fin C → EReal) (i : Fin NN) (j : Fin C) : EReal :=
  ∑ k : Fin K, a i k * W k j

/-- A dense transform scaled by the row's factor. -/
def linScale {K C : Nat} (a : Fin NN → Fin K → EReal) (W : Fin K → Fin C → EReal) (d : Fin NN → EReal)
    (i : Fin NN) (j : Fin C) : EReal :=
  lin a W i j * d i

section FirstArrangement

variable (x : Fin NN → Fin 128 → EReal) (src dst : Fin NE → BitVec 32)
  (W1 : Fin 128 → Fin 64 → EReal) (b1 : Fin 64 → EReal) (W2 : Fin 64 → Fin 64 → EReal) (b2 : Fin 64 → EReal)
  (W3 : Fin 64 → Fin 2 → EReal) (b3 : Fin 2 → EReal)

/-- The edges into node `i`. -/
def into (i : Fin NN) : Finset (Fin NE) := Finset.univ.filter fun e => (dst e).toInt = (i.val : ℤ)

/-- One more than the number of edges into `i`. -/
def degK (i : Fin NN) : EReal := (∑ _e ∈ into dst i, (1 : EReal)) + 1

/-- The factor `(c(i) + 1)^(-1/2)`. -/
def dK (i : Fin NN) : EReal := Ideal.rsqrt (degK dst i)

/-- The scaled rows summed over the edges into `i`. -/
def aggK {C : Nat} (hp : Fin NN → Fin C → EReal) (i : Fin NN) (j : Fin C) : EReal :=
  ∑ e ∈ into dst i, hp (rowOf (src e)) j

/-- A layer's activation: the aggregate and the node's own scaled row, scaled by the row's factor `d`, biased, clipped
    below at zero. -/
def actK (d : Fin NN → EReal) (conv hp : Fin NN → Fin 64 → EReal) (b : Fin 64 → EReal) (i : Fin NN) (k : Fin 64) : EReal :=
  max ((conv i k + hp i k) * d i + b k) 0

/-- The last layer before the log-softmax: of the sixteen columns the first two, scaled by the row's factor, biased. -/
def zFin (d : Fin NN → EReal) (conv hp : Fin NN → Fin 16 → EReal) (b : Fin 2 → EReal) (i : Fin NN) (j : Fin 2) : EReal :=
  (conv i ⟨j.val, by omega⟩ + hp i ⟨j.val, by omega⟩) * d i + b j

/-- The last weight matrix filled to sixteen columns with zeros. -/
def W3p (k : Fin 64) (j : Fin 16) : EReal := if h : j.val < 2 then W3 k ⟨j.val, h⟩ else 0

def hp1 : Fin NN → Fin 64 → EReal := linScale x W1 (dK dst)
def conv1 : Fin NN → Fin 64 → EReal := aggK src dst (hp1 x dst W1)
def hp2 : Fin NN → Fin 64 → EReal := linScale (actK (dK dst) (conv1 x src dst W1) (hp1 x dst W1) b1) W2 (dK dst)
def conv2 : Fin NN → Fin 64 → EReal := aggK src dst (hp2 x src dst W1 b1 W2)
def hp3 : Fin NN → Fin 16 → EReal :=
  linScale (actK (dK dst) (conv2 x src dst W1 b1 W2) (hp2 x src dst W1 b1 W2) b2) (W3p W3) (dK dst)
def conv3 : Fin NN → Fin 16 → EReal := aggK src dst (hp3 x src dst W1 b1 W2 b2 W3)

/-- The last layer's two kept columns before the log-softmax. -/
def zK : Fin NN → Fin 2 → EReal :=
  zFin (dK dst) (conv3 x src dst W1 b1 W2 b2 W3) (hp3 x src dst W1 b1 W2 b2 W3) b3

/-- The first arrangement's result. -/
def outK : Fin NN → Fin 2 → EReal := lsm (zK x src dst W1 b1 W2 b2 W3 b3)

end FirstArrangement

section SecondArrangement

variable (x : Fin NN → Fin 128 → EReal) (src dst : Fin NE → BitVec 32)
  (W1 : Fin 128 → Fin 64 → EReal) (b1 : Fin 64 → EReal) (W2 : Fin 64 → Fin 64 → EReal) (b2 : Fin 64 → EReal)
  (W3 : Fin 64 → Fin 2 → EReal) (b3 : Fin 2 → EReal)

/-- A word list followed by the node numbers `0, 1, …, 99999`: the list extended by one loop per node. -/
def ext (ws : Fin NE → BitVec 32) (e' : Fin NF) : BitVec 32 :=
  if h : e'.val < NE then ws ⟨e'.val, h⟩ else BitVec.ofNat 32 (e'.val - NE)

/-- The entries of the extended list into node `i`. -/
def intoF (i : Fin NN) : Finset (Fin NF) := Finset.univ.filter fun e' => (ext dst e').toInt = (i.val : ℤ)

/-- The number of entries into `i`. -/
def degR (i : Fin NN) : EReal := ∑ _e' ∈ intoF dst i, (1 : EReal)

/-- The factor, guarded where the count is not positive. -/
def dR (i : Fin NN) : EReal := if 0 < degR dst i then Ideal.rsqrt (degR dst i) else 0

/-- An entry's weight: the factor at its source row times the factor at its destination row (each word wrapped
    and clamped as a gather's start index). -/
def normR (e' : Fin NF) : EReal := dR dst (rowOf (wrapW (ext src e'))) * dR dst (rowOf (wrapW (ext dst e')))

/-- A layer before its clip: the weighted transformed rows summed over the entries into `i`, plus the bias. -/
def convR {K C : Nat} (a : Fin NN → Fin K → EReal) (W : Fin K → Fin C → EReal) (b : Fin C → EReal)
    (i : Fin NN) (j : Fin C) : EReal :=
  (∑ e' ∈ intoF dst i, lin a W (rowOf (wrapW (ext src e'))) j * normR src dst e') + b j

/-- The clip below at zero. -/
def relu {K : Nat} (a : Fin NN → Fin K → EReal) (i : Fin NN) (k : Fin K) : EReal := max (a i k) 0

def h1 : Fin NN → Fin 64 → EReal := convR src dst x W1 b1
def h2 : Fin NN → Fin 64 → EReal := convR src dst (relu (h1 x src dst W1 b1)) W2 b2
def h3 : Fin NN → Fin 2 → EReal := convR src dst (relu (h2 x src dst W1 b1 W2 b2)) W3 b3

/-- The second arrangement's result. -/
def outR : Fin NN → Fin 2 → EReal := lsm (h3 x src dst W1 b1 W2 b2 W3 b3)

end SecondArrangement

end Cert.Gcn

end
-- ==== Proof.ReadBack.lean ====
/-
  Which segment of the run writes which buffer: the contents of an intermediate buffer, or of an argument's buffer, at
  one boundary of the run equal its contents at an earlier boundary, because no segment in between writes it.

  The run is a fold from the launch memory: a stretch of host operations rewrites exactly the result buffers of its
  operations; a region rewrites exactly its output windows' arrays, reads its input windows' arrays (which it leaves as
  entered) and passes by every other buffer. The buffers followed here are the two edge-word vectors (the source words
  `main_v1`, the destination words `main_v3`), the column of row factors `main_v11`, the three scaled transforms
  `main_v12`, `main_v17`, `main_v25` (the outputs of regions 0, 1, 2), and the arguments.
-/
import proofs.«425015_j48112223650296_3_alg».proof.Proof.Gen.KernelIdeal.Frame

set_option maxRecDepth 16384

noncomputable section

namespace Cert.KernelIdeal.ReadBack

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg) (c : Dev nD)

/-- A stretch of host operations leaves a buffer as it was when the buffer is none of the stretch's results: each
    operation writes the singleton of its result, and the buffer is told apart from every result as a reference. -/
macro "host_keeps " ops:ident : tactic => `(tactic|
  exact StableHlo.after_of_forall_not_mem _ _ (List.forall_iff_forall_mem.mp (by
    simp only [$ops:ident, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes,
      StableHlo.binaryIndexed_writes, Finset.mem_singleton]
    repeat' apply And.intro
    all_goals exact StableHlo.devRef_ne_of_ne (by decide))))

/-! ## The source words `main_v1` and the destination words `main_v3`

Both are results of the first host stretch (the two rows of the edge list, each reshaped to a vector). After it no host
operation writes them (the later stretches only read them) and no region has either among its windows. -/

theorem v1_W2 : W2 m ρ c (Proc.devRef .tc main_v1) = W1 m ρ c (Proc.devRef .tc main_v1) :=
  W2_of_ne m ρ c main_v1 (by decide)

theorem v1_W5 : W5 m ρ c (Proc.devRef .tc main_v1) = W1 m ρ c (Proc.devRef .tc main_v1) :=
  calc W5 m ρ c (Proc.devRef .tc main_v1)
    _ = W4 m ρ c (Proc.devRef .tc main_v1) := W5_of_ne m ρ c main_v1 (by decide)
    _ = W3 m ρ c (Proc.devRef .tc main_v1) := by host_keeps hostOps1_1
    _ = W2 m ρ c (Proc.devRef .tc main_v1) := by host_keeps hostOps1
    _ = W1 m ρ c (Proc.devRef .tc main_v1) := v1_W2 m ρ c

theorem v1_W8 : W8 m ρ c (Proc.devRef .tc main_v1) = W1 m ρ c (Proc.devRef .tc main_v1) :=
  calc W8 m ρ c (Proc.devRef .tc main_v1)
    _ = W7 m ρ c (Proc.devRef .tc main_v1) := W8_of_ne m ρ c main_v1 (by decide)
    _ = W6 m ρ c (Proc.devRef .tc main_v1) := by host_keeps hostOps2_1
    _ = W5 m ρ c (Proc.devRef .tc main_v1) := by host_keeps hostOps2
    _ = W1 m ρ c (Proc.devRef .tc main_v1) := v1_W5 m ρ c

theorem v3_W2 : W2 m ρ c (Proc.devRef .tc main_v3) = W1 m ρ c (Proc.devRef .tc main_v3) :=
  W2_of_ne m ρ c main_v3 (by decide)

theorem v3_W5 : W5 m ρ c (Proc.devRef .tc main_v3) = W1 m ρ c (Proc.devRef .tc main_v3) :=
  calc W5 m ρ c (Proc.devRef .tc main_v3)
    _ = W4 m ρ c (Proc.devRef .tc main_v3) := W5_of_ne m ρ c main_v3 (by decide)
    _ = W3 m ρ c (Proc.devRef .tc main_v3) := by host_keeps hostOps1_1
    _ = W2 m ρ c (Proc.devRef .tc main_v3) := by host_keeps hostOps1
    _ = W1 m ρ c (Proc.devRef .tc main_v3) := v3_W2 m ρ c

theorem v3_W8 : W8 m ρ c (Proc.devRef .tc main_v3) = W1 m ρ c (Proc.devRef .tc main_v3) :=
  calc W8 m ρ c (Proc.devRef .tc main_v3)
    _ = W7 m ρ c (Proc.devRef .tc main_v3) := W8_of_ne m ρ c main_v3 (by decide)
    _ = W6 m ρ c (Proc.devRef .tc main_v3) := by host_keeps hostOps2_1
    _ = W5 m ρ c (Proc.devRef .tc main_v3) := by host_keeps hostOps2
    _ = W1 m ρ c (Proc.devRef .tc main_v3) := v3_W5 m ρ c

/-! ## The column of row factors `main_v11`

The last result of the first host stretch. Regions 0, 1 and 2 each read it through their input window 2 (an input
window's array leaves the region as it entered), and no later host operation writes it. -/

theorem v11_W4 : W4 m ρ c (Proc.devRef .tc main_v11) = W1 m ρ c (Proc.devRef .tc main_v11) :=
  calc W4 m ρ c (Proc.devRef .tc main_v11)
    _ = W3 m ρ c (Proc.devRef .tc main_v11) := by host_keeps hostOps1_1
    _ = W2 m ρ c (Proc.devRef .tc main_v11) := by host_keeps hostOps1
    _ = W1 m ρ c (Proc.devRef .tc main_v11) :=
        (W2_arr m ρ c 2).trans (((dat0 (V1 m ρ) c).arrAt_in 2 rfl _).trans (A_eq0 (V1 m ρ) c 2))

theorem v11_W7 : W7 m ρ c (Proc.devRef .tc main_v11) = W1 m ρ c (Proc.devRef .tc main_v11) :=
  calc W7 m ρ c (Proc.devRef .tc main_v11)
    _ = W6 m ρ c (Proc.devRef .tc main_v11) := by host_keeps hostOps2_1
    _ = W5 m ρ c (Proc.devRef .tc main_v11) := by host_keeps hostOps2
    _ = W4 m ρ c (Proc.devRef .tc main_v11) :=
        (W5_arr m ρ c 2).trans (((dat1 (V4 m ρ) c).arrAt_in 2 rfl _).trans (A_eq1 (V4 m ρ) c 2))
    _ = W1 m ρ c (Proc.devRef .tc main_v11) := v11_W4 m ρ c

theorem v11_W10 : W10 m ρ c (Proc.devRef .tc main_v11) = W1 m ρ c (Proc.devRef .tc main_v11) :=
  calc W10 m ρ c (Proc.devRef .tc main_v11)
    _ = W9 m ρ c (Proc.devRef .tc main_v11) := by host_keeps hostOps3_1
    _ = W8 m ρ c (Proc.devRef .tc main_v11) := by host_keeps hostOps3
    _ = W7 m ρ c (Proc.devRef .tc main_v11) :=
        (W8_arr m ρ c 2).trans (((dat2 (V7 m ρ) c).arrAt_in 2 rfl _).trans (A_eq2 (V7 m ρ) c 2))
    _ = W1 m ρ c (Proc.devRef .tc main_v11) := v11_W7 m ρ c

/-! ## The scaled transforms `main_v12`, `main_v17`, `main_v25`

Each is the output of a region (0, 1, 2); the two host stretches that follow the region read it (the gather of its
rows at the source words) and write other buffers only. -/

theorem v12_W4 : W4 m ρ c (Proc.devRef .tc main_v12) = W2 m ρ c (Proc.devRef .tc main_v12) :=
  calc W4 m ρ c (Proc.devRef .tc main_v12)
    _ = W3 m ρ c (Proc.devRef .tc main_v12) := by host_keeps hostOps1_1
    _ = W2 m ρ c (Proc.devRef .tc main_v12) := by host_keeps hostOps1

theorem v17_W7 : W7 m ρ c (Proc.devRef .tc main_v17) = W5 m ρ c (Proc.devRef .tc main_v17) :=
  calc W7 m ρ c (Proc.devRef .tc main_v17)
    _ = W6 m ρ c (Proc.devRef .tc main_v17) := by host_keeps hostOps2_1
    _ = W5 m ρ c (Proc.devRef .tc main_v17) := by host_keeps hostOps2

theorem v25_W10 : W10 m ρ c (Proc.devRef .tc main_v25) = W8 m ρ c (Proc.devRef .tc main_v25) :=
  calc W10 m ρ c (Proc.devRef .tc main_v25)
    _ = W9 m ρ c (Proc.devRef .tc main_v25) := by host_keeps hostOps3_1
    _ = W8 m ρ c (Proc.devRef .tc main_v25) := by host_keeps hostOps3

/-! ## The arguments at the boundaries where they are read

No host operation has an argument as its result, and a region has an argument at most among its input windows, so an
argument's buffer holds the launch memory's contents at every boundary. Each is followed only as far as the boundary
at which the run reads it: the edge list `main_arg1` at the launch; the features `main_arg0` and the first weight
matrix `main_arg2` at region 0's entry; the first bias `main_arg3` and the second weight matrix `main_arg4` at
region 1's entry; the third weight matrix `main_arg6` at region 1's exit (the host stretch before region 2 fills it to
sixteen columns); the second bias `main_arg5` at region 2's entry; the third bias `main_arg7` at region 3's entry. -/

theorem arg1_W0 : W0 m ρ c (Proc.devRef .tc main_arg1) = m ((c : Thread nD τ).loc main_arg1) := rfl

theorem arg0_W1 : W1 m ρ c (Proc.devRef .tc main_arg0) = m ((c : Thread nD τ).loc main_arg0) :=
  calc W1 m ρ c (Proc.devRef .tc main_arg0)
    _ = W0 m ρ c (Proc.devRef .tc main_arg0) := by host_keeps hostOps0
    _ = m ((c : Thread nD τ).loc main_arg0) := rfl

theorem arg2_W1 : W1 m ρ c (Proc.devRef .tc main_arg2) = m ((c : Thread nD τ).loc main_arg2) :=
  calc W1 m ρ c (Proc.devRef .tc main_arg2)
    _ = W0 m ρ c (Proc.devRef .tc main_arg2) := by host_keeps hostOps0
    _ = m ((c : Thread nD τ).loc main_arg2) := rfl

theorem arg3_W4 : W4 m ρ c (Proc.devRef .tc main_arg3) = m ((c : Thread nD τ).loc main_arg3) :=
  calc W4 m ρ c (Proc.devRef .tc main_arg3)
    _ = W3 m ρ c (Proc.devRef .tc main_arg3) := by host_keeps hostOps1_1
    _ = W2 m ρ c (Proc.devRef .tc main_arg3) := by host_keeps hostOps1
    _ = W1 m ρ c (Proc.devRef .tc main_arg3) := W2_of_ne m ρ c main_arg3 (by decide)
    _ = W0 m ρ c (Proc.devRef .tc main_arg3) := by host_keeps hostOps0
    _ = m ((c : Thread nD τ).loc main_arg3) := rfl

theorem arg4_W4 : W4 m ρ c (Proc.devRef .tc main_arg4) = m ((c : Thread nD τ).loc main_arg4) :=
  calc W4 m ρ c (Proc.devRef .tc main_arg4)
    _ = W3 m ρ c (Proc.devRef .tc main_arg4) := by host_keeps hostOps1_1
    _ = W2 m ρ c (Proc.devRef .tc main_arg4) := by host_keeps hostOps1
    _ = W1 m ρ c (Proc.devRef .tc main_arg4) := W2_of_ne m ρ c main_arg4 (by decide)
    _ = W0 m ρ c (Proc.devRef .tc main_arg4) := by host_keeps hostOps0
    _ = m ((c : Thread nD τ).loc main_arg4) := rfl

theorem arg6_W5 : W5 m ρ c (Proc.devRef .tc main_arg6) = m ((c : Thread nD τ).loc main_arg6) :=
  calc W5 m ρ c (Proc.devRef .tc main_arg6)
    _ = W4 m ρ c (Proc.devRef .tc main_arg6) := W5_of_ne m ρ c main_arg6 (by decide)
    _ = W3 m ρ c (Proc.devRef .tc main_arg6) := by host_keeps hostOps1_1
    _ = W2 m ρ c (Proc.devRef .tc main_arg6) := by host_keeps hostOps1
    _ = W1 m ρ c (Proc.devRef .tc main_arg6) := W2_of_ne m ρ c main_arg6 (by decide)
    _ = W0 m ρ c (Proc.devRef .tc main_arg6) := by host_keeps hostOps0
    _ = m ((c : Thread nD τ).loc main_arg6) := rfl

theorem arg5_W7 : W7 m ρ c (Proc.devRef .tc main_arg5) = m ((c : Thread nD τ).loc main_arg5) :=
  calc W7 m ρ c (Proc.devRef .tc main_arg5)
    _ = W6 m ρ c (Proc.devRef .tc main_arg5) := by host_keeps hostOps2_1
    _ = W5 m ρ c (Proc.devRef .tc main_arg5) := by host_keeps hostOps2
    _ = W4 m ρ c (Proc.devRef .tc main_arg5) := W5_of_ne m ρ c main_arg5 (by decide)
    _ = W3 m ρ c (Proc.devRef .tc main_arg5) := by host_keeps hostOps1_1
    _ = W2 m ρ c (Proc.devRef .tc main_arg5) := by host_keeps hostOps1
    _ = W1 m ρ c (Proc.devRef .tc main_arg5) := W2_of_ne m ρ c main_arg5 (by decide)
    _ = W0 m ρ c (Proc.devRef .tc main_arg5) := by host_keeps hostOps0
    _ = m ((c : Thread nD τ).loc main_arg5) := rfl

theorem arg7_W10 : W10 m ρ c (Proc.devRef .tc main_arg7) = m ((c : Thread nD τ).loc main_arg7) :=
  calc W10 m ρ c (Proc.devRef .tc main_arg7)
    _ = W9 m ρ c (Proc.devRef .tc main_arg7) := by host_keeps hostOps3_1
    _ = W8 m ρ c (Proc.devRef .tc main_arg7) := by host_keeps hostOps3
    _ = W7 m ρ c (Proc.devRef .tc main_arg7) := W8_of_ne m ρ c main_arg7 (by decide)
    _ = W6 m ρ c (Proc.devRef .tc main_arg7) := by host_keeps hostOps2_1
    _ = W5 m ρ c (Proc.devRef .tc main_arg7) := by host_keeps hostOps2
    _ = W4 m ρ c (Proc.devRef .tc main_arg7) := W5_of_ne m ρ c main_arg7 (by decide)
    _ = W3 m ρ c (Proc.devRef .tc main_arg7) := by host_keeps hostOps1_1
    _ = W2 m ρ c (Proc.devRef .tc main_arg7) := by host_keeps hostOps1
    _ = W1 m ρ c (Proc.devRef .tc main_arg7) := W2_of_ne m ρ c main_arg7 (by decide)
    _ = W0 m ρ c (Proc.devRef .tc main_arg7) := by host_keeps hostOps0
    _ = m ((c : Thread nD τ).loc main_arg7) := rfl

end Cert.KernelIdeal.ReadBack

end
-- ==== Proof.LibScatterRows.lean ====
/-
  AN ACCUMULATING ROW SCATTER READ AT AN INDEX, at the ideal instance. `stablehlo.scatter` with an `add` body of updates
  `upd : [E, C]` into an operand `x : [N, C]` at a column of scatter indices `idx : [E, 1]` with update_window_dims `[1]`,
  inserted_window_dims `[0]`, scatter_dims_to_operand_dims `[0]` and index_vector_dim `1` — what `x.at[idx].add(upd)` of
  a table of rows lowers to. Update element `(e, j')` lands on operand element `(idx[e, 0], j')`, the scatter index read
  as a SIGNED integer and NOT clamped: an update whose row is outside `[0, N)` is dropped. Over the extended reals the
  result at `(n, j)` is therefore `x (n, j)` plus the sum of `upd (e, j)` over the update rows `e` whose index is `n`.
  The same for a flat operand `[N]` and updates `[E]` (no window axis). General in the sizes.
-/
import Idealize.ShloMosaic.Lib.ValueIdx

noncomputable section

open scoped BigOperators

namespace Idealize.ShloMosaic.ValueIdx

open Idealize.ShloMosaic

/-! ## Where an update lands, in general -/

section General
variable {s si u : Shape}

/-- An axis is kept exactly when it is not among the removed ones. -/
theorem mem_kept_iff (axes : List (Fin s.rank)) (a : Fin s.rank) : a ∈ s.kept axes ↔ a ∉ axes := by
  simp [Shape.kept, List.mem_filter, List.mem_finRange]

/-- Update index `j` lands at operand index `i` exactly when on every axis the (signed, unclamped) start plus the
    window coordinate is `i`'s coordinate. -/
theorem resultIdx?_eq_some_iff (d : ScatterDims s si u) {w : Nat} (j : u.Idx) (idx : IVec si w) (i : s.Idx) :
    d.resultIdx? j idx = some i ↔ ∀ a, d.start j idx a + (d.window j a : ℤ) = ((i a).val : ℤ) := by
  unfold ScatterDims.resultIdx?
  constructor
  · intro h a
    split at h
    · rename_i hc
      have hf := Option.some.inj h
      have ha : (d.start j idx a + (d.window j a : ℤ)).toNat = (i a).val := congrArg (fun f => (f a).val) hf
      have := (hc a).1
      omega
    · exact absurd h (by simp)
  · intro h
    have hc : ∀ a, 0 ≤ d.start j idx a + (d.window j a : ℤ) ∧ d.start j idx a + (d.window j a : ℤ) < (s.size a : ℤ) := by
      intro a
      have := (i a).isLt
      rw [h a]
      omega
    rw [dif_pos hc]
    congr 1
    funext a
    refine Fin.ext ?_
    show (d.start j idx a + (d.window j a : ℤ)).toNat = (i a).val
    rw [h a]
    exact Int.toNat_natCast _

end General

/-! ## Rows: operand `[N, C]`, scatter indices `[E, 1]`, updates `[E, C]` -/

section RowsScatter

/-- The dimension numbers of an accumulating scatter of whole rows: the updates' axis 1 is the window axis (it runs
    over a row), the operand's axis 0 is the inserted one and the one a scatter index addresses, and the index vector
    lies along the scatter indices' axis 1. The conditions `wf` are decided (or assumed) on a program's literal
    shapes. -/
abbrev rowsScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (j' : Fin C)

/-- On the row axis the start of update `(e, j')` is the scatter index `idx[e, 0]`, read signed. -/
theorem rowsScatter_start_row :
    (rowsScatterDims N E C wf).start (ix2 e j') idx 0 = (idx (ix2 e (0 : Fin 1))).toInt := by
  unfold ScatterDims.start
  rw [dif_pos (show (0 : Fin 2) ∈ (rowsScatterDims N E C wf).scatterDimsToOperandDims from List.mem_singleton.mpr rfl)]
  have hsi : (rowsScatterDims N E C wf).siIdx (ix2 e j')
      ⟨List.idxOf (0 : Fin 2) (rowsScatterDims N E C wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the column axis, which no scatter index addresses, the start is `0`. -/
theorem rowsScatter_start_col : (rowsScatterDims N E C wf).start (ix2 e j') idx 1 = 0 := by
  unfold ScatterDims.start
  rw [dif_neg (show (1 : Fin 2) ∉ (rowsScatterDims N E C wf).scatterDimsToOperandDims from
    fun h => Nat.one_ne_zero (congrArg Fin.val (List.mem_singleton.mp h)))]

/-- The row axis is inserted: no window coordinate there. -/
theorem rowsScatter_window_row : (rowsScatterDims N E C wf).window (ix2 e j') 0 = 0 := by
  unfold ScatterDims.window
  rw [dif_neg (show (0 : Fin 2) ∉ (rowsScatterDims N E C wf).sKept from
    fun h => (mem_kept_iff _ _).mp h (List.mem_singleton.mpr rfl))]

/-- On the column axis the window coordinate of update `(e, j')` is `j'`. -/
theorem rowsScatter_window_col : (rowsScatterDims N E C wf).window (ix2 e j') 1 = j'.val := by
  unfold ScatterDims.window
  rw [dif_pos (show (1 : Fin 2) ∈ (rowsScatterDims N E C wf).sKept from
    (mem_kept_iff _ _).mpr fun h => Nat.one_ne_zero (congrArg Fin.val (List.mem_singleton.mp h)))]
  rfl

/-- WHERE A ROW UPDATE LANDS: update `(e, j')` lands on operand element `(n, j)` exactly when the scatter index
    `idx[e, 0]`, read signed, is `n`, and the columns agree. -/
theorem rowsScatter_resultIdx?_eq_some (n : Fin N) (j : Fin C) :
    (rowsScatterDims N E C wf).resultIdx? (ix2 e j') idx = some (ix2 n j)
      ↔ (idx (ix2 e (0 : Fin 1))).toInt = (n.val : ℤ) ∧ j' = j := by
  rw [resultIdx?_eq_some_iff]
  constructor
  · intro h
    have h0 := h 0
    have h1 := h 1
    rw [rowsScatter_start_row, rowsScatter_window_row] at h0
    rw [rowsScatter_start_col, rowsScatter_window_col] at h1
    have h0' : (idx (ix2 e (0 : Fin 1))).toInt + ((0 : Nat) : ℤ) = (n.val : ℤ) := h0
    have h1' : (0 : ℤ) + (j'.val : ℤ) = (j.val : ℤ) := h1
    exact ⟨by omega, Fin.ext (by omega)⟩
  · rintro ⟨h0, rfl⟩ a
    match a with
    | ⟨0, _⟩ =>
      show (rowsScatterDims N E C wf).start (ix2 e j') idx 0 + ((rowsScatterDims N E C wf).window (ix2 e j') 0 : ℤ) = (n.val : ℤ)
      rw [rowsScatter_start_row, rowsScatter_window_row, h0]
      simp
    | ⟨1, _⟩ =>
      show (rowsScatterDims N E C wf).start (ix2 e j') idx 1 + ((rowsScatterDims N E C wf).window (ix2 e j') 1 : ℤ) = (j'.val : ℤ)
      rw [rowsScatter_start_col, rowsScatter_window_col]
      simp

end RowsScatter

section RowsScatterRead

/-- THE ACCUMULATING ROW SCATTER READ AT `(n, j)`, over the extended reals: the operand's element plus the sum, over
    the update rows `e` whose scatter index `idx[e, 0]` (read signed) is `n`, of the update's element `(e, j)`. -/
theorem scatterAdd_rows_apply {N E C w : Nat} {φ : FTy}
    (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ)
    (n : Fin N) (j : Fin C) :
    Host.scatterAdd (F := Ideal) (rowsScatterDims N E C wf) x idx upd (ix2 n j)
      = x (ix2 n j)
        + ∑ e ∈ Finset.univ.filter (fun e : Fin E => (idx (ix2 e (0 : Fin 1))).toInt = (n.val : ℤ)), upd (ix2 e j) := by
  show x (ix2 n j) + ∑ v ∈ Finset.univ.filter
      (fun v => (rowsScatterDims N E C wf).resultIdx? v idx = some (ix2 n j)), upd v = _
  congr 1
  rw [Finset.sum_filter, sum_idx2, Finset.sum_filter]
  refine Finset.sum_congr rfl fun e _ => ?_
  simp only [rowsScatter_resultIdx?_eq_some]
  by_cases ht : (idx (ix2 e (0 : Fin 1))).toInt = (n.val : ℤ)
  · simp only [ht, true_and, if_true]
    exact Finset.sum_ite_eq' Finset.univ j (fun c => upd (ix2 e c)) |>.trans (if_pos (Finset.mem_univ j))
  · simp only [ht, false_and, if_false, Finset.sum_const_zero]

end RowsScatterRead

/-! ## Flat: operand `[N]`, scatter indices `[E, 1]`, updates `[E]` -/

section FlatScatter

/-- A rank-1 index is its one coordinate … -/
def idxEquiv1 {n : Nat} : (⟨1, ![n]⟩ : Shape).Idx ≃ Fin n where
  toFun i := i 0
  invFun a := ix1 a
  left_inv i := (eq_ix1 i).symm
  right_inv _ := rfl
/-- … so a sum over the rank-1 index set is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulating scatter of scalars into a flat operand: the updates have no window
    axis, the operand's one axis is inserted and is the one a scatter index addresses, and the index vector lies along
    the scatter indices' axis 1. -/
abbrev flatScatterDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)
  (idx : IVec ⟨2, ![E, 1]⟩ w) (e : Fin E)

/-- The start of update `e` is the scatter index `idx[e, 0]`, read signed. -/
theorem flatScatter_start :
    (flatScatterDims N E wf).start (ix1 e) idx 0 = (idx (ix2 e (0 : Fin 1))).toInt := by
  unfold ScatterDims.start
  rw [dif_pos (show (0 : Fin 1) ∈ (flatScatterDims N E wf).scatterDimsToOperandDims from List.mem_singleton.mpr rfl)]
  have hsi : (flatScatterDims N E wf).siIdx (ix1 e)
      ⟨List.idxOf (0 : Fin 1) (flatScatterDims N E wf).scatterDimsToOperandDims,
        List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem flatScatter_window : (flatScatterDims N E wf).window (ix1 e) 0 = 0 := by
  unfold ScatterDims.window
  rw [dif_neg (show (0 : Fin 1) ∉ (flatScatterDims N E wf).sKept from
    fun h => (mem_kept_iff _ _).mp h (List.mem_singleton.mpr rfl))]

/-- WHERE A FLAT UPDATE LANDS: update `e` lands on operand element `n` exactly when the scatter index `idx[e, 0]`,
    read signed, is `n`. -/
theorem flatScatter_resultIdx?_eq_some (n : Fin N) :
    (flatScatterDims N E wf).resultIdx? (ix1 e) idx = some (ix1 n)
      ↔ (idx (ix2 e (0 : Fin 1))).toInt = (n.val : ℤ) := by
  rw [resultIdx?_eq_some_iff]
  constructor
  · intro h
    have h0 := h 0
    rw [flatScatter_start, flatScatter_window] at h0
    have h0' : (idx (ix2 e (0 : Fin 1))).toInt + ((0 : Nat) : ℤ) = (n.val : ℤ) := h0
    omega
  · intro h0 a
    match a with
    | ⟨0, _⟩ =>
      show (flatScatterDims N E wf).start (ix1 e) idx 0 + ((flatScatterDims N E wf).window (ix1 e) 0 : ℤ) = (n.val : ℤ)
      rw [flatScatter_start, flatScatter_window, h0]
      simp

end FlatScatter

section FlatScatterRead

/-- THE ACCUMULATING FLAT SCATTER READ AT `n`, over the extended reals: the operand's element plus the sum, over the
    updates `e` whose scatter index `idx[e, 0]` (read signed) is `n`, of the update `e`. -/
theorem scatterAdd_flat_apply {N E w : Nat} {φ : FTy}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (F := Ideal) (flatScatterDims N E wf) x idx upd (ix1 n)
      = x (ix1 n)
        + ∑ e ∈ Finset.univ.filter (fun e : Fin E => (idx (ix2 e (0 : Fin 1))).toInt = (n.val : ℤ)), upd (ix1 e) := by
  show x (ix1 n) + ∑ v ∈ Finset.univ.filter
      (fun v => (flatScatterDims N E wf).resultIdx? v idx = some (ix1 n)), upd v = _
  congr 1
  rw [Finset.sum_filter, sum_idx1, Finset.sum_filter]
  refine Finset.sum_congr rfl fun e _ => ?_
  simp only [flatScatter_resultIdx?_eq_some]

end FlatScatterRead

end Idealize.ShloMosaic.ValueIdx

end
-- ==== Proof.KHost0.lean ====
/-
  The host operations before the first layer, read index by index. From the edge table (two rows of 1600000 words:
  sources, destinations) they cut the two rows out as flat lists, and they make the column of factors
  `d(i) = (c(i) + 1)^(-1/2)`: `c(i)`, the number of edges into node `i`, is counted by adding a one into a list of
  100000 zeros at each edge's destination word (a word outside the node range adds nowhere), one is added, and the
  reciprocal square root is taken.
-/
import proofs.«425015_j48112223650296_3_alg».proof.Proof.Gen.KernelIdeal.Launch
import proofs.«425015_j48112223650296_3_alg».proof.Proof.Spec
import proofs.«425015_j48112223650296_3_alg».proof.Proof.LibScatterRows
import Idealize.ShloMosaic.Lib.StableHlo.Run
import Idealize.ShloMosaic.Lib.Pipeline.Value
import Idealize.ShloMosaic.Lib.IdealHost

noncomputable section

open scoped BigOperators

namespace Cert.KernelIdeal.KHost0

open Cert.KernelIdeal Cert.KernelIdeal.Gen Idealize.ShloMosaic Idealize.ShloMosaic.ValueIdx

/-! ## Layout steps read at an index -/

/-- One row of a two-row table, cut out as a one-row table and laid flat, reads at `e` the table at `(r, e)`. -/
theorem row_flat_apply {α : Type} {E : Nat} (x : (⟨2, ![2, E]⟩ : Shape).Idx → α) (r : Fin 2) (off : Fin 2 → Nat)
    (h0 : off 0 = r.val) (h1 : off 1 = 0)
    (h : (⟨2, ![2, E]⟩ : Shape).Slices off ⟨2, ![1, E]⟩) (hc : (⟨2, ![1, E]⟩ : Shape).ShapeCasts ⟨1, ![E]⟩) (e : Fin E) :
    shapeCast ⟨1, ![E]⟩ (extractStridedSlice ⟨2, ![1, E]⟩ off x h) hc (ix1 e) = x (ix2 r e) := by
  refine (shapeCast_apply _ hc (ix1 e) (ix2 (0 : Fin 1) e) ?_).trans ?_
  · rw [Shape.rowMajor_val_two, Shape.rowMajor_val_one]
    show (0 : Nat) * E + e.val = e.val
    omega
  · refine extractStridedSlice_apply off x h (ix2 (0 : Fin 1) e) (ix2 r e) fun a => ?_
    match a with
    | ⟨0, _⟩ => show r.val = off 0 + 0; omega
    | ⟨1, _⟩ => show e.val = off 1 + e.val; omega

/-- A flat list stood up as a one-column table reads at `(e, 0)` the list at `e`. -/
theorem col_apply {α : Type} {E : Nat} (hE : E ≠ 1)
    (h : (⟨1, ![E]⟩ : Shape).BroadcastsInDim ⟨2, ![E, 1]⟩ ![0]) (v : (⟨1, ![E]⟩ : Shape).Idx → α) (e : Fin E) :
    broadcastInDim ⟨2, ![E, 1]⟩ ![0] h v (ix2 e (0 : Fin 1)) = v (ix1 e) := by
  refine broadcastInDim_apply _ h v (ix2 e (0 : Fin 1)) (ix1 e) fun a => ?_
  match a with
  | ⟨0, _⟩ =>
    show e.val = if E = 1 then 0 else e.val
    rw [if_neg hE]

/-- A flat list laid as a one-column table (a reshape) reads at `(i, 0)` the list at `i`. -/
theorem flat_col_apply {α : Type} {N : Nat} (v : (⟨1, ![N]⟩ : Shape).Idx → α)
    (h : (⟨1, ![N]⟩ : Shape).ShapeCasts ⟨2, ![N, 1]⟩) (i : Fin N) :
    shapeCast ⟨2, ![N, 1]⟩ v h (ix2 i (0 : Fin 1)) = v (ix1 i) := by
  refine shapeCast_apply v h (ix2 i (0 : Fin 1)) (ix1 i) ?_
  rw [Shape.rowMajor_val_two, Shape.rowMajor_val_one]
  show i.val = i.val * 1 + 0
  omega

/-- A constant spread over any shape reads, everywhere, the extended real its word denotes. -/
theorem splat_apply {T : Shape} (h : S_.BroadcastsInDim T ![]) (b : BitVec FTy.f32.bits) (j : T.Idx) :
    broadcastInDim T ![] h (constant (F := Ideal) S_ .f32 b) j = Ideal.ofBits .f32 b := by
  rw [broadcastInDim_scalar_apply]
  rfl

/-- The host's reciprocal square root at an index is the extended reals' `Ideal.rsqrt` of the element. -/
theorem hostRsqrt_apply {s : Shape} {φ : FTy} (x : FVec Ideal s φ) (j : s.Idx) :
    Host.rsqrt (F := Ideal) x j = Ideal.rsqrt (x j) := rfl

variable (W : Valuation τ sig (Elt Ideal))

/-! ## What the fifteen operations leave, as composed terms -/

/-- The source words: row 0 of the edge table, cut out and laid flat. -/
theorem v1_term :
    (StableHlo.after hostOps0 W (Proc.devRef .tc main_v1) : S1600000.Idx → BitVec 32)
      = shapeCast S1600000 (extractStridedSlice S1x1600000 ![0, 0]
          (W (Proc.devRef .tc main_arg1) : S2x1600000.Idx → BitVec 32) slices_S2x1600000_S1x1600000_0_0)
          shapeCasts_S1x1600000_S1600000 := by
  after_results; rfl

/-- The destination words: row 1 of the edge table, cut out and laid flat. -/
theorem v3_term :
    (StableHlo.after hostOps0 W (Proc.devRef .tc main_v3) : S1600000.Idx → BitVec 32)
      = shapeCast S1600000 (extractStridedSlice S1x1600000 ![1, 0]
          (W (Proc.devRef .tc main_arg1) : S2x1600000.Idx → BitVec 32) slices_S2x1600000_S1x1600000_1_0)
          shapeCasts_S1x1600000_S1600000 := by
  after_results; rfl

/-- The factor column: ones accumulated into a zero list at the destination words, one added, the reciprocal square
    root taken, the list laid as a column. -/
theorem v11_term :
    (StableHlo.after hostOps0 W (Proc.devRef .tc main_v11) : S100000x1.Idx → EReal)
      = shapeCast S100000x1
          (Host.rsqrt (F := Ideal)
            (addf
              (Host.scatterAdd (F := Ideal) scatter_S100000_S1600000x1_S1600000_n_0_0_1
                (broadcastInDim S100000 ![] bcast_S_S100000 (constant (F := Ideal) S_ .f32 0x00000000#32))
                (broadcastInDim S1600000x1 ![0] bcast_S1600000_S1600000x1_0
                  (shapeCast S1600000 (extractStridedSlice S1x1600000 ![1, 0]
                    (W (Proc.devRef .tc main_arg1) : S2x1600000.Idx → BitVec 32) slices_S2x1600000_S1x1600000_1_0)
                    shapeCasts_S1x1600000_S1600000))
                (broadcastInDim S1600000 ![] bcast_S_S1600000 (constant (F := Ideal) S_ .f32 0x3F800000#32)))
              (broadcastInDim S100000 ![] bcast_S_S100000 (constant (F := Ideal) S_ .f32 0x3F800000#32))))
          shapeCasts_S100000_S100000x1 := by
  after_results; rfl

/-! ## The three buffers read at an index -/

/-- The source word of edge `e` is the edge table's entry `(0, e)`. -/
theorem host0_src (e : Fin 1600000) :
    (StableHlo.after hostOps0 W (Proc.devRef .tc main_v1) : S1600000.Idx → BitVec 32) (ix1 e)
      = (W (Proc.devRef .tc main_arg1) : S2x1600000.Idx → BitVec 32) (ix2 (0 : Fin 2) e) := by
  rw [v1_term]
  exact row_flat_apply _ (0 : Fin 2) ![0, 0] rfl rfl _ _ e

/-- The destination word of edge `e` is the edge table's entry `(1, e)`. -/
theorem host0_dst (e : Fin 1600000) :
    (StableHlo.after hostOps0 W (Proc.devRef .tc main_v3) : S1600000.Idx → BitVec 32) (ix1 e)
      = (W (Proc.devRef .tc main_arg1) : S2x1600000.Idx → BitVec 32) (ix2 (1 : Fin 2) e) := by
  rw [v3_term]
  exact row_flat_apply _ (1 : Fin 2) ![1, 0] rfl rfl _ _ e

/-- The printed dimension numbers of the count's scatter are those of an accumulating scatter of scalars into a flat
    list. -/
theorem scatter_eq_flat :
    scatter_S100000_S1600000x1_S1600000_n_0_0_1
      = flatScatterDims 100000 1600000 scatter_S100000_S1600000x1_S1600000_n_0_0_1_wf := rfl

/-- Row `i` of the factor column is `(c(i) + 1)^(-1/2)`, `c(i)` the number of edges whose destination word names
    `i`: the scatter adds a one for each such edge to zero, and `0 + c = c`. -/
theorem host0_dinv (i : Fin 100000) :
    (StableHlo.after hostOps0 W (Proc.devRef .tc main_v11) : S100000x1.Idx → EReal) (ix2 i (0 : Fin 1))
      = Cert.Gcn.dK (fun e => (W (Proc.devRef .tc main_arg1) : S2x1600000.Idx → BitVec 32) (ix2 (1 : Fin 2) e)) i := by
  rw [v11_term, flat_col_apply, hostRsqrt_apply, addf_apply, scatter_eq_flat, scatterAdd_flat_apply, splat_apply,
    splat_apply, Ideal.ofBits_zero_f32, Ideal.ofBits_one_f32, zero_add]
  unfold Cert.Gcn.dK Cert.Gcn.degK Cert.Gcn.into
  refine congrArg (fun s : EReal => Ideal.rsqrt (s + 1)) ?_
  refine Finset.sum_congr (Finset.filter_congr fun e _ => ?_) fun e _ => ?_
  · rw [col_apply (by omega), row_flat_apply _ (1 : Fin 2) ![1, 0] rfl rfl]
  · rw [splat_apply, Ideal.ofBits_one_f32]

end Cert.KernelIdeal.KHost0

end
-- ==== Proof.LibGatherRows.lean ====
/-
  A ROW GATHER READ AT AN INDEX. `stablehlo.gather` of a rank-2 operand `x : [N, C]` at a column of start indices
  `idx : [E, 1]` with offset_dims `[1]`, collapsed_slice_dims `[0]`, start_index_map `[0]`, index_vector_dim `1` and
  slice_sizes `[1, C]` — what `x[idx]` of a table of rows lowers to — has result `[E, C]`; its element `(e, j)` is the
  operand's element `(r, j)` where the row `r` is the start index `idx[e, 0]` read as a signed integer and clamped
  into `[0, N − 1]` (StableHLO clamps every start index so that the slice fits: here the slice is one whole row).
  General in the three sizes and in the element type.
-/
import Idealize.ShloMosaic.Lib.ValueIdx

noncomputable section

open scoped BigOperators

namespace Idealize.ShloMosaic.ValueIdx

open Idealize.ShloMosaic

section RowsGather
variable {α : Type}

/-- The dimension numbers of a gather of whole rows: operand `[N, C]`, start indices `[E, 1]`, result `[E, C]`;
    the result's axis 1 is the offset axis (it runs over a row), the operand's axis 0 is collapsed and is the one
    the start index addresses, the index vector lies along the start indices' axis 1, and a slice is `1 × C`.
    The conditions `wf` are decided (or assumed) on a program's literal shapes. -/
abbrev rowsDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: the operand at row `idx[e, 0]` — read signed, clamped into `[0, N − 1]` — and
    column `j`. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsDims N E C wf) x idx (ix2 e j)
      = x (ix2 ⟨min (idx (ix2 e (0 : Fin 1))).toInt.toNat (N - 1), by omega⟩ j) := by
  unfold Host.gather
  congr 1
  funext a
  refine Fin.ext ?_
  match a with
  | ⟨0, _⟩ =>
    -- the row: the clamped start; no batching coordinate, and no offset coordinate on a collapsed axis
    show (rowsDims N E C wf).start (ix2 e j) idx 0 + (rowsDims N E C wf).batchCoord (ix2 e j) 0
        + (rowsDims N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N E C wf).startIndexMap from List.mem_singleton.mpr rfl)]
    have hsi : (rowsDims N E C wf).siIdx (ix2 e j) ⟨List.idxOf (0 : Fin 2) (rowsDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- the column: the start index map does not name this axis, so the start is 0; the offset coordinate is `j`
    show (rowsDims N E C wf).start (ix2 e j) idx 1 + (rowsDims N E C wf).batchCoord (ix2 e j) 1
        + (rowsDims N E C wf).offCoord (ix2 e j) 1 = j.val
    have h1 : (1 : Fin 2) ∉ (rowsDims N E C wf).startIndexMap := by
      intro h; exact Nat.one_ne_zero (congrArg Fin.val (List.mem_singleton.mp h))
    have hk : (1 : Fin 2) ∈ (rowsDims N E C wf).sKept :=
      (GatherDims.mem_sKept _ _).mpr
        ⟨fun h => Nat.one_ne_zero (congrArg Fin.val (List.mem_singleton.mp h)), List.not_mem_nil⟩
    rw [GatherDims.batchCoord_eq_zero _ _ _ List.not_mem_nil]
    unfold GatherDims.start GatherDims.offCoord
    rw [dif_neg h1, dif_pos hk]
    simp only [Nat.add_zero, Nat.zero_add]
    rfl

end RowsGather

end Idealize.ShloMosaic.ValueIdx

end
-- ==== Proof.KHost1.lean ====
/-
  THE MESSAGE AGGREGATION BETWEEN TWO REGIONS, READ AT AN INDEX. Between two regions the host program takes, for every
  edge, the row of a node table that the edge's source word selects, and adds the taken rows into a table of zeros at
  the rows the destination words name.

  The take is in fill mode: a source word `w` that reads negative is first counted from the end (`w + 100000`); the
  start index `w'` is tested for `0 ≤ w' ≤ 99999` (the two comparisons joined by `and`, then reduced by `and` over the unit
  axis of the `[E, 1]` column); the rows are gathered at `w'`, clamped into the table; and a row whose test failed is
  replaced by NaN. When every source word reads inside `[0, 100000)` the wrap is the identity, the test holds at
  every edge and no row is replaced, so row `e` of the taken table is row `min (toNat w) 99999` of the node table.

  The accumulating scatter of the taken rows `[E, C]` into zeros `[N, C]` at the column of destination words reads, at
  `(i, j)`, `0 + ∑` over the edges whose destination word reads `i` of the taken entry `(e, j)`. Together:
  `∑_{e into i} hp (row (src e)) j`. The same three times, for the tables of 64, 64 and 16 columns.
-/
import proofs.«425015_j48112223650296_3_alg».proof.Proof.Gen.KernelIdeal.Launch
import proofs.«425015_j48112223650296_3_alg».proof.Proof.Spec
import proofs.«425015_j48112223650296_3_alg».proof.Proof.LibScatterRows
import proofs.«425015_j48112223650296_3_alg».proof.Proof.LibGatherRows
import Idealize.ShloMosaic.Lib.StableHlo.Run
import Idealize.ShloMosaic.Lib.Affine
import Idealize.ShloMosaic.Lib.ValueIdx
import Idealize.ShloMosaic.PureOps.Ideal.Laws

noncomputable section

open scoped BigOperators

namespace Cert.KernelIdeal.KHost1

open Cert.KernelIdeal Cert.KernelIdeal.Gen Idealize.ShloMosaic Idealize.ShloMosaic.ValueIdx

/-! ## Layout steps and word facts, read at an index -/

/-- A vector laid along the first axis of an `[n, m]` rectangle (constant along each row) reads, at `(p, q)`, the
    vector at `p`. -/
theorem bcast_rows_apply {α : Type} {n m : Nat} (h : (⟨1, ![n]⟩ : Shape).BroadcastsInDim ⟨2, ![n, m]⟩ ![0])
    (v : (⟨1, ![n]⟩ : Shape).Idx → α) (p : Fin n) (q : Fin m) :
    broadcastInDim ⟨2, ![n, m]⟩ ![0] h v (ix2 p q) = v (ix1 p) := by
  simp only [broadcastInDim]
  congr 1
  funext a
  match a with
  | ⟨0, _⟩ =>
    apply Fin.ext
    have hp := p.isLt
    split
    · next h1 => change n = 1 at h1; show (0 : Nat) = p.val; omega
    · rfl

/-- A word that reads nonnegative is not counted from the end. -/
theorem wrapW_of_nonneg (w : BitVec 32) (h : 0 ≤ w.toInt) : Cert.Gcn.wrapW w = w := by
  unfold Cert.Gcn.wrapW
  have hc : ¬ IntOp.cmpi .slt w 0#32 = 1#1 := by
    rw [IntOp.cmpi_slt]
    have h0 : (0#32 : BitVec 32).toInt = 0 := by decide
    rw [h0]; omega
  exact if_neg hc

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    have h11 : IntOp.andi 1#1 1#1 = 1#1 := by decide
    rw [List.foldl_cons, hf a, h11]
    exact foldl_andi_ones f hf l

/-- A reduction by `and` from 1 of an array of 1s is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hi : init (Shape.Idx.first hu) = 1#1) (j : t.Idx) :
    Host.reduce IntOp.andi x init h hu j = 1#1 := by
  unfold Host.reduce
  rw [hi]
  exact foldl_andi_ones (fun n => x (s.rowMajor.symm n)) (fun n => hx _) _

/-! ## Typed references: contents moved to a buffer's own type and back -/

/-- Moving contents to a typed reference's buffer type and back is the identity. -/
theorem ofBuf_toBuf {Val : EltTy → Type} {T : BufTy} (x : StableHlo.TRef sig T) (v : T.Contents Val) :
    x.ofBuf (x.toBuf v) = v := by
  obtain ⟨r, h, h2, h3⟩ := x
  subst h
  rfl

/-! ## The row `take` in fill mode, as one function of the table and the source words -/

/-- The start-index column: each source word, a negative one counted from the end (`w + 100000`), laid out as an
    `[E, 1]` column. -/
def idxCol (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The range test of the start indices: `0 ≤ w'` and `w' ≤ 99999`, reduced by `and` over the unit axis. -/
def inRange (s : IVec S1600000 32) : IVec S1600000 1 :=
  Host.reduce IntOp.andi
    (andi (cmpi .sge (idxCol s) (broadcastInDim S1600000x1 ![] bcast_S_S1600000x1 (constantI S_ 32 0#32)))
      (cmpi .sle (idxCol s) (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The rows of `x` gathered at the start indices, a row whose index fails the range test filled with NaN. -/
def takeFill {F : FTy → Type} [FloatOps F] {C : Nat} (hb : S1600000.BroadcastsInDim ⟨2, ![1600000, C]⟩ ![0])
    (hz : S_.BroadcastsInDim ⟨2, ![1600000, C]⟩ ![]) (d : GatherDims ⟨2, ![100000, C]⟩ S1600000x1 ⟨2, ![1600000, C]⟩)
    (x : FVec F ⟨2, ![100000, C]⟩ .f32) (s : IVec S1600000 32) : FVec F ⟨2, ![1600000, C]⟩ .f32 :=
  select (broadcastInDim ⟨2, ![1600000, C]⟩ ![0] hb (inRange s)) (Host.gather d x (idxCol s))
    (broadcastInDim ⟨2, ![1600000, C]⟩ ![] hz (constant (F := F) S_ .f32 0x7FC00000#32))

/-! ## The fill-mode `take` at an index, every source word in range -/

/-- The start index of edge `e` is its source word, wrapped. -/
theorem idxCol_apply (s : IVec S1600000 32) (e : Fin 1600000) (u : Fin 1) :
    idxCol s (ix2 e u) = Cert.Gcn.wrapW (s (ix1 e)) := by
  unfold idxCol
  refine (bcast_rows_apply _ _ e u).trans ?_
  rfl

/-- With every source word in the node range the range test holds at every edge. -/
theorem inRange_apply (s : IVec S1600000 32)
    (hs : ∀ e : Fin 1600000, 0 ≤ (s (ix1 e)).toInt ∧ (s (ix1 e)).toInt < 100000) (e : Fin 1600000) :
    inRange s (ix1 e) = 1#1 := by
  unfold inRange
  refine reduce_andi_ones _ _ _ _ (fun i => ?_) rfl _
  obtain ⟨p, q, rfl⟩ : ∃ (p : Fin 1600000) (q : Fin 1), i = ix2 p q := ⟨i 0, i 1, eq_ix2 i⟩
  show IntOp.andi (IntOp.cmpi .sge (idxCol s (ix2 p q)) 0#32) (IntOp.cmpi .sle (idxCol s (ix2 p q)) 99999#32) = 1#1
  rw [idxCol_apply, wrapW_of_nonneg _ (hs p).1]
  refine IntOp.andi_eq_one.2 ⟨IntOp.cmpi_sge.2 ?_, IntOp.cmpi_sle.2 ?_⟩
  · have h0 : (0#32 : BitVec 32).toInt = 0 := by decide
    rw [h0]; exact (hs p).1
  · have h1 : (99999#32 : BitVec 32).toInt = 99999 := by decide
    rw [h1]; have := (hs p).2; omega

/-- With every source word in the node range the fill is never taken: row `e` of the result is the table's row
    selected by the source word of `e`. -/
theorem takeFill_apply {C : Nat} (hb : S1600000.BroadcastsInDim ⟨2, ![1600000, C]⟩ ![0]) (hz : S_.BroadcastsInDim ⟨2, ![1600000, C]⟩ ![])
    (wf : GatherDims.WF ⟨2, ![100000, C]⟩ ⟨2, ![1600000, 1]⟩ ⟨2, ![1600000, C]⟩ [1] [0] [] [0] [] 1 ![1, C])
    (x : FVec Ideal ⟨2, ![100000, C]⟩ .f32) (s : IVec S1600000 32)
    (hs : ∀ e : Fin 1600000, 0 ≤ (s (ix1 e)).toInt ∧ (s (ix1 e)).toInt < 100000) (e : Fin 1600000) (j : Fin C) :
    takeFill (F := Ideal) hb hz (rowsDims 100000 1600000 C wf) x s (ix2 e j) = x (ix2 (Cert.Gcn.rowOf (s (ix1 e))) j) := by
  unfold takeFill
  rw [select_apply, bcast_rows_apply, inRange_apply s hs e, select_one, gather_rows_apply (by decide)]
  refine congrArg x (congrArg (fun r => ix2 r j) (Fin.ext ?_))
  show min (idxCol s (ix2 e (0 : Fin 1))).toInt.toNat 99999 = min (s (ix1 e)).toInt.toNat 99999
  rw [idxCol_apply, wrapW_of_nonneg _ (hs e).1]

/-- THE AGGREGATION: the taken rows scatter-added into zeros at the destination words. At `(i, j)`: the sum, over the
    edges whose destination word reads `i`, of the table's entry `j` in the row the edge's source word selects. -/
theorem scatter_take_apply {C : Nat} (hb : S1600000.BroadcastsInDim ⟨2, ![1600000, C]⟩ ![0]) (hz : S_.BroadcastsInDim ⟨2, ![1600000, C]⟩ ![])
    (hz' : S_.BroadcastsInDim ⟨2, ![100000, C]⟩ ![])
    (wfG : GatherDims.WF ⟨2, ![100000, C]⟩ ⟨2, ![1600000, 1]⟩ ⟨2, ![1600000, C]⟩ [1] [0] [] [0] [] 1 ![1, C])
    (wfS : ScatterDims.WF ⟨2, ![100000, C]⟩ ⟨2, ![1600000, 1]⟩ ⟨2, ![1600000, C]⟩ [1] [0] [0] 1)
    (x : FVec Ideal ⟨2, ![100000, C]⟩ .f32) (s d : IVec S1600000 32)
    (hs : ∀ e : Fin 1600000, 0 ≤ (s (ix1 e)).toInt ∧ (s (ix1 e)).toInt < 100000) (i : Fin 100000) (j : Fin C) :
    Host.scatterAdd (F := Ideal) (rowsScatterDims 100000 1600000 C wfS)
        (broadcastInDim ⟨2, ![100000, C]⟩ ![] hz' (constant (F := Ideal) S_ .f32 0x00000000#32))
        (broadcastInDim S1600000x1 ![0] bcast_S1600000_S1600000x1_0 d)
        (takeFill (F := Ideal) hb hz (rowsDims 100000 1600000 C wfG) x s) (ix2 i j)
      = Cert.Gcn.aggK (fun e => s (ix1 e)) (fun e => d (ix1 e)) (fun i j => x (ix2 i j)) i j := by
  rw [scatterAdd_rows_apply]
  have h0 : broadcastInDim ⟨2, ![100000, C]⟩ ![] hz' (constant (F := Ideal) S_ .f32 0x00000000#32) (ix2 i j) = 0 :=
    Ideal.ofBits_zero_f32
  rw [h0, zero_add]
  unfold Cert.Gcn.aggK Cert.Gcn.into
  refine Finset.sum_congr (Finset.filter_congr fun e _ => by rw [bcast_rows_apply]) fun e _ => ?_
  exact takeFill_apply hb hz wfG x s hs e j

/-! ## The first aggregation: the table `main_v12` of 64 columns -/

/-- The printed dimension numbers are those of a gather of whole rows, and of an accumulating scatter of whole rows. -/
theorem gather64_eq : gather_S100000x64_S1600000x1_S1600000x64_1_0_n_n_0_1_164
    = rowsDims 100000 1600000 64 gather_S100000x64_S1600000x1_S1600000x64_1_0_n_n_0_1_164_wf := rfl
theorem scatter64_eq : scatter_S100000x64_S1600000x1_S1600000x64_1_0_0_1
    = rowsScatterDims 100000 1600000 64 scatter_S100000x64_S1600000x1_S1600000x64_1_0_0_1_wf := rfl

/-- Contents read at the source words' buffer, at their own type. -/
theorem ofBuf_main_v1 {F : FTy → Type} [FloatOps F] (h1 h2 h3) (v : (Proc.devRef (τ := τ) .tc main_v1).ty.Contents (Elt F)) :
    (StableHlo.TRef.of main_v1 h1 h2 h3 : StableHlo.TRef sig ⟨S1600000, .i32⟩).ofBuf v = (v : IVec S1600000 32) := rfl
theorem ofBuf_main_v12 {F : FTy → Type} [FloatOps F] (h1 h2 h3) (v : (Proc.devRef (τ := τ) .tc main_v12).ty.Contents (Elt F)) :
    (StableHlo.TRef.of main_v12 h1 h2 h3 : StableHlo.TRef sig ⟨S100000x64, .f32⟩).ofBuf v = (v : FVec F S100000x64 .f32) := rfl
theorem toBuf_main_v13 {F : FTy → Type} [FloatOps F] (h1 h2 h3) (v : FVec F S1600000x64 .f32) :
    (StableHlo.TRef.toBuf (Val := Elt F) (StableHlo.TRef.of main_v13 h1 h2 h3 : StableHlo.TRef sig ⟨S1600000x64, .f32⟩) v
      : FVec F S1600000x64 .f32) = v := rfl

/-- The take's 23 operations leave in `main_v13` the fill-mode take of the table `main_v12` at the words `main_v1`. -/
theorem take1_eq {F : FTy → Type} [FloatOps F] (W : Valuation τ sig (Elt F)) :
    (StableHlo.after hostOps1 W (Proc.devRef .tc main_v13) : FVec F S1600000x64 .f32)
      = takeFill bcast_S1600000_S1600000x64_0 bcast_S_S1600000x64 gather_S100000x64_S1600000x1_S1600000x64_1_0_n_n_0_1_164
          (W (Proc.devRef .tc main_v12) : FVec F S100000x64 .f32) (W (Proc.devRef .tc main_v1) : IVec S1600000 32) := by
  after_results_simp
  repeat rw [ofBuf_toBuf]
  rw [ofBuf_main_v1, ofBuf_main_v12]
  refine (toBuf_main_v13 _ _ _ _).trans ?_
  rfl

/-- They do not write the destination words. -/
theorem keep1_main_v3 {F : FTy → Type} [FloatOps F] (W : Valuation τ sig (Elt F)) :
    StableHlo.after hostOps1 W (Proc.devRef .tc main_v3) = W (Proc.devRef .tc main_v3) := by
  after_results_simp

/-- The four operations after them leave in `main_v16` the taken rows scatter-added into zeros at the destination words. -/
theorem scatter1_eq (V : Valuation τ sig (Elt Ideal)) :
    (StableHlo.after hostOps1_1 V (Proc.devRef .tc main_v16) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3) : S1600000.Idx → BitVec 32))
          (V (Proc.devRef .tc main_v13) : S1600000x64.Idx → EReal) := by
  after_results

theorem host1_conv (W : Valuation τ sig (Elt Ideal))
    (hsrc : ∀ e : Fin 1600000, 0 ≤ ((W (Proc.devRef .tc main_v1) : S1600000.Idx → BitVec 32) (ix1 e)).toInt ∧ ((W (Proc.devRef .tc main_v1) : S1600000.Idx → BitVec 32) (ix1 e)).toInt < 100000)
    (i : Fin 100000) (j : Fin 64) :
    (StableHlo.after hostOps1_1 (StableHlo.after hostOps1 W) (Proc.devRef .tc main_v16) : S100000x64.Idx → EReal) (ix2 i j)
      = Cert.Gcn.aggK (fun e => (W (Proc.devRef .tc main_v1) : S1600000.Idx → BitVec 32) (ix1 e))
          (fun e => (W (Proc.devRef .tc main_v3) : S1600000.Idx → BitVec 32) (ix1 e))
          (fun i j => (W (Proc.devRef .tc main_v12) : S100000x64.Idx → EReal) (ix2 i j)) i j := by
  rw [scatter1_eq (StableHlo.after hostOps1 W), take1_eq W, keep1_main_v3 W, scatter64_eq, gather64_eq]
  exact scatter_take_apply bcast_S1600000_S1600000x64_0 bcast_S_S1600000x64 bcast_S_S100000x64 _ _ _ _ _ hsrc i j

/-! ## The second aggregation: the table `main_v17` of 64 columns -/

theorem ofBuf_main_v17 {F : FTy → Type} [FloatOps F] (h1 h2 h3) (v : (Proc.devRef (τ := τ) .tc main_v17).ty.Contents (Elt F)) :
    (StableHlo.TRef.of main_v17 h1 h2 h3 : StableHlo.TRef sig ⟨S100000x64, .f32⟩).ofBuf v = (v : FVec F S100000x64 .f32) := rfl
theorem toBuf_main_v18 {F : FTy → Type} [FloatOps F] (h1 h2 h3) (v : FVec F S1600000x64 .f32) :
    (StableHlo.TRef.toBuf (Val := Elt F) (StableHlo.TRef.of main_v18 h1 h2 h3 : StableHlo.TRef sig ⟨S1600000x64, .f32⟩) v
      : FVec F S1600000x64 .f32) = v := rfl

/-- The take's 23 operations leave in `main_v18` the fill-mode take of the table `main_v17` at the words `main_v1`. -/
theorem take2_eq {F : FTy → Type} [FloatOps F] (W : Valuation τ sig (Elt F)) :
    (StableHlo.after hostOps2 W (Proc.devRef .tc main_v18) : FVec F S1600000x64 .f32)
      = takeFill bcast_S1600000_S1600000x64_0 bcast_S_S1600000x64 gather_S100000x64_S1600000x1_S1600000x64_1_0_n_n_0_1_164
          (W (Proc.devRef .tc main_v17) : FVec F S100000x64 .f32) (W (Proc.devRef .tc main_v1) : IVec S1600000 32) := by
  after_results_simp
  repeat rw [ofBuf_toBuf]
  rw [ofBuf_main_v1, ofBuf_main_v17]
  refine (toBuf_main_v18 _ _ _ _).trans ?_
  rfl

/-- They do not write the destination words. -/
theorem keep2_main_v3 {F : FTy → Type} [FloatOps F] (W : Valuation τ sig (Elt F)) :
    StableHlo.after hostOps2 W (Proc.devRef .tc main_v3) = W (Proc.devRef .tc main_v3) := by
  after_results_simp

/-- Of the nine operations after them the first four leave in `main_v21` the taken rows scatter-added into zeros at the
    destination words; the other five write other buffers. -/
theorem scatter2_eq (V : Valuation τ sig (Elt Ideal)) :
    (StableHlo.after hostOps2_1 V (Proc.devRef .tc main_v21) : S100000x64.Idx → EReal)
      = Host.scatterAdd (F := Ideal) scatter_S100000x64_S1600000x1_S1600000x64_1_0_0_1
          (broadcastInDim S100000x64 ![] bcast_S_S100000x64 (constant (F := Ideal) S_ .f32 0x00000000#32))
          (broadcastInDim S1600000x1 ![0] bcast_S1600000_S1600000x1_0 (V (Proc.devRef .tc main_v3) : S1600000.Idx → BitVec 32))
          (V (Proc.devRef .tc main_v18) : S1600000x64.Idx → EReal) := by
  after_results

theorem host2_conv (W : Valuation τ sig (Elt Ideal))
    (hsrc : ∀ e : Fin 1600000, 0 ≤ ((W (Proc.devRef .tc main_v1) : S1600000.Idx → BitVec 32) (ix1 e)).toInt ∧ ((W (Proc.devRef .tc main_v1) : S1600000.Idx → BitVec 32) (ix1 e)).toInt < 100000)
    (i : Fin 100000) (j : Fin 64) :
    (StableHlo.after hostOps2_1 (StableHlo.after hostOps2 W) (Proc.devRef .tc main_v21) : S100000x64.Idx → EReal) (ix2 i j)
      = Cert.Gcn.aggK (fun e => (W (Proc.devRef .tc main_v1) : S1600000.Idx → BitVec 32) (ix1 e))
          (fun e => (W (Proc.devRef .tc main_v3) : S1600000.Idx → BitVec 32) (ix1 e))
          (fun i j => (W (Proc.devRef .tc main_v17) : S100000x64.Idx → EReal) (ix2 i j)) i j := by
  rw [scatter2_eq (StableHlo.after hostOps2 W), take2_eq W, keep2_main_v3 W, scatter64_eq, gather64_eq]
  exact scatter_take_apply bcast_S1600000_S1600000x64_0 bcast_S_S1600000x64 bcast_S_S100000x64 _ _ _ _ _ hsrc i j

/-! ## The third aggregation: the table `main_v25` of 16 columns -/

theorem gather16_eq : gather_S100000x16_S1600000x1_S1600000x16_1_0_n_n_0_1_116
    = rowsDims 100000 1600000 16 gather_S100000x16_S1600000x1_S1600000x16_1_0_n_n_0_1_116_wf := rfl
theorem scatter16_eq : scatter_S100000x16_S1600000x1_S1600000x16_1_0_0_1
    = rowsScatterDims 100000 1600000 16 scatter_S100000x16_S1600000x1_S1600000x16_1_0_0_1_wf := rfl

theorem ofBuf_main_v25 {F : FTy → Type} [FloatOps F] (h1 h2 h3) (v : (Proc.devRef (τ := τ) .tc main_v25).ty.Contents (Elt F)) :
    (StableHlo.TRef.of main_v25 h1 h2 h3 : StableHlo.TRef sig ⟨S100000x16, .f32⟩).ofBuf v = (v : FVec F S100000x16 .f32) := rfl
theorem toBuf_main_v26 {F : FTy → Type} [FloatOps F] (h1 h2 h3) (v : FVec F S1600000x16 .f32) :
    (StableHlo.TRef.toBuf (Val := Elt F) (StableHlo.TRef.of main_v26 h1 h2 h3 : StableHlo.TRef sig ⟨S1600000x16, .f32⟩) v
      : FVec F S1600000x16 .f32) = v := rfl

/-- The take's 23 operations leave in `main_v26` the fill-mode take of the table `main_v25` at the words `main_v1`. -/
theorem take3_eq {F : FTy → Type} [FloatOps F] (W : Valuation τ sig (Elt F)) :
    (StableHlo.after hostOps3 W (Proc.devRef .tc main_v26) : FVec F S1600000x16 .f32)
      = takeFill bcast_S1600000_S1600000x16_0 bcast_S_S1600000x16 gather_S100000x16_S1600000x1_S1600000x16_1_0_n_n_0_1_116
          (W (Proc.devRef .tc main_v25) : FVec F S100000x16 .f32) (W (Proc.devRef .tc main_v1) : IVec S1600000 32) := by
  after_results_simp
  repeat rw [ofBuf_toBuf]
  rw [ofBuf_main_v1, ofBuf_main_v25]
  refine (toBuf_main_v26 _ _ _ _).trans ?_
  rfl

/-- They do not write the destination words. -/
theorem keep3_main_v3 {F : FTy → Type} [FloatOps F] (W : Valuation τ sig (Elt F)) :
    StableHlo.after hostOps3 W (Proc.devRef .tc main_v3) = W (Proc.devRef .tc main_v3) := by
  after_results_simp

/-- The four operations after them leave in `main_v29` the taken rows scatter-added into zeros at the destination words. -/
theorem scatter3_eq (V : Valuation τ sig (Elt Ideal)) :
    (StableHlo.after hostOps3_1 V (Proc.devRef .tc main_v29) : S100000x16.Idx → EReal)
      = Host.scatterAdd (F := Ideal) scatter_S100000x16_S1600000x1_S1600000x16_1_0_0_1
          (broadcastInDim S100000x16 ![] bcast_S_S100000x16 (constant (F := Ideal) S_ .f32 0x00000000#32))
          (broadcastInDim S1600000x1 ![0] bcast_S1600000_S1600000x1_0 (V (Proc.devRef .tc main_v3) : S1600000.Idx → BitVec 32))
          (V (Proc.devRef .tc main_v26) : S1600000x16.Idx → EReal) := by
  after_results

theorem host3_conv (W : Valuation τ sig (Elt Ideal))
    (hsrc : ∀ e : Fin 1600000, 0 ≤ ((W (Proc.devRef .tc main_v1) : S1600000.Idx → BitVec 32) (ix1 e)).toInt ∧ ((W (Proc.devRef .tc main_v1) : S1600000.Idx → BitVec 32) (ix1 e)).toInt < 100000)
    (i : Fin 100000) (j : Fin 16) :
    (StableHlo.after hostOps3_1 (StableHlo.after hostOps3 W) (Proc.devRef .tc main_v29) : S100000x16.Idx → EReal) (ix2 i j)
      = Cert.Gcn.aggK (fun e => (W (Proc.devRef .tc main_v1) : S1600000.Idx → BitVec 32) (ix1 e))
          (fun e => (W (Proc.devRef .tc main_v3) : S1600000.Idx → BitVec 32) (ix1 e))
          (fun i j => (W (Proc.devRef .tc main_v25) : S100000x16.Idx → EReal) (ix2 i j)) i j := by
  rw [scatter3_eq (StableHlo.after hostOps3 W), take3_eq W, keep3_main_v3 W, scatter16_eq, gather16_eq]
  exact scatter_take_apply bcast_S1600000_S1600000x16_0 bcast_S_S1600000x16 bcast_S_S100000x16 _ _ _ _ _ hsrc i j

end Cert.KernelIdeal.KHost1

end
-- ==== Proof.KHostW.lean ====
/-
  THE LAST WEIGHT MATRIX FILLED TO SIXTEEN COLUMNS. Before the third layer the [64, 2] weight matrix is written into a
  [64, 16] table of zeros by a REPLACING scatter with one scatter index, the column offset 0: the whole [64, 2] update
  is one window, its element (k', j') landing on the operand's element (k', 0 + j'). Read at (k, j) the result is the
  weight W3 (k, j) for j < 2 and 0 for the fourteen columns the window does not reach.

  A replacing scatter is a left fold, over the update elements in row-major order, of "overwrite the element this update
  lands on". When the landing indices are pairwise distinct the fold reads, at an operand element, the one update that
  lands there, and the operand where none does. This is proved for any dimension numbers and sizes; then the landing
  index of a column window at one offset word is computed from the dimension numbers.
-/
import proofs.«425015_j48112223650296_3_alg».proof.Proof.Gen.KernelIdeal.Launch
import proofs.«425015_j48112223650296_3_alg».proof.Proof.Spec
import proofs.«425015_j48112223650296_3_alg».proof.Proof.LibScatterRows
import Idealize.ShloMosaic.Lib.StableHlo.Predicate
import Idealize.ShloMosaic.PureOps.Ideal.Laws

noncomputable section

namespace Cert.KernelIdeal.KHostW

open Cert.KernelIdeal Cert.KernelIdeal.Gen Idealize.ShloMosaic Idealize.ShloMosaic.ValueIdx

/-! ## A replacing scatter read at an element, for any dimension numbers -/

section Replace
variable {α : Type} {s si u : Shape} {w : Nat}

/-- Folding the overwrite step over a list of updates none of which lands on `i` leaves element `i` as it was. -/
theorem foldl_replace_miss (d : ScatterDims s si u) (idx : IVec si w) (upd : u.Idx → α) (i : s.Idx) :
    ∀ (l : List (Fin u.numel)) (r : s.Idx → α), (∀ n ∈ l, d.resultIdx? (u.rowMajor.symm n) idx ≠ some i) →
      l.foldl (fun r n =>
        match d.resultIdx? (u.rowMajor.symm n) idx with
        | some i => fun i' => if i' = i then (fun _ b => b) (r i) (upd (u.rowMajor.symm n)) else r i'
        | none => r) r i = r i := by
  intro l
  induction l with
  | nil => intro r _; rfl
  | cons a t ih =>
    intro r h
    rw [List.foldl_cons, ih _ fun n hn => h n (List.mem_cons_of_mem _ hn)]
    have ha := h a List.mem_cons_self
    generalize d.resultIdx? (u.rowMajor.symm a) idx = o at ha
    cases o with
    | none => rfl
    | some i₀ =>
      show (if i = i₀ then upd (u.rowMajor.symm a) else r i) = r i
      rw [if_neg]
      intro e
      exact ha (by rw [e])

/-- An operand element no update lands on is kept by a replacing scatter. -/
theorem scatter_replace_miss (d : ScatterDims s si u) (x : s.Idx → α) (idx : IVec si w) (upd : u.Idx → α) (i : s.Idx)
    (h : ∀ v, d.resultIdx? v idx ≠ some i) :
    Host.scatter d (fun _ b => b) x idx upd i = x i :=
  foldl_replace_miss d idx upd i _ x fun n _ => h _

/-- An operand element exactly one update `v` lands on reads that update after a replacing scatter: in the fold over
    the update positions (each met once), the steps before `v`'s are overwritten by it and the steps after it land
    elsewhere. -/
theorem scatter_replace_hit (d : ScatterDims s si u) (x : s.Idx → α) (idx : IVec si w) (upd : u.Idx → α) (v : u.Idx) (i : s.Idx)
    (hv : d.resultIdx? v idx = some i) (huniq : ∀ v', d.resultIdx? v' idx = some i → v' = v) :
    Host.scatter d (fun _ b => b) x idx upd i = upd v := by
  have key : ∀ (l : List (Fin u.numel)), l.Nodup → u.rowMajor v ∈ l → ∀ r : s.Idx → α,
      l.foldl (fun r n =>
        match d.resultIdx? (u.rowMajor.symm n) idx with
        | some i => fun i' => if i' = i then (fun _ b => b) (r i) (upd (u.rowMajor.symm n)) else r i'
        | none => r) r i = upd v := by
    intro l
    induction l with
    | nil => intro _ hm; exact absurd hm (List.not_mem_nil)
    | cons a t ih =>
      intro hnd hm r
      rw [List.foldl_cons]
      by_cases hav : a = u.rowMajor v
      · subst hav
        have hmiss : ∀ n ∈ t, d.resultIdx? (u.rowMajor.symm n) idx ≠ some i := by
          intro n hn hres
          have := huniq _ hres
          have hn' : n = u.rowMajor v := by rw [← this, Equiv.apply_symm_apply]
          exact (List.nodup_cons.mp hnd).1 (hn' ▸ hn)
        rw [foldl_replace_miss d idx upd i t _ hmiss, Equiv.symm_apply_apply, hv]
        exact if_pos rfl
      · have hm' : u.rowMajor v ∈ t := by
          rcases List.mem_cons.mp hm with h | h
          · exact absurd h.symm hav
          · exact h
        exact ih (List.nodup_cons.mp hnd).2 hm' _
  exact key _ (List.nodup_finRange _) (List.mem_finRange _) x

end Replace

/-! ## A column window: operand `[R, C]`, one scatter index `[1]`, updates `[R, C']` -/

section ColumnWindow

/-- The dimension numbers of a scatter of ONE window that spans all rows: both axes of the updates are window axes,
    no operand axis is inserted, the one component of the scatter index addresses the operand's column axis, and the
    index vector lies along the scatter indices' only axis. -/
abbrev colWindowDims (R C C' : Nat)
    (wf : ScatterDims.WF ⟨2, ![R, C]⟩ ⟨1, ![1]⟩ ⟨2, ![R, C']⟩ [0, 1] [] [1] 0) :
    ScatterDims ⟨2, ![R, C]⟩ ⟨1, ![1]⟩ ⟨2, ![R, C']⟩ where
  updateWindowDims := [0, 1]
  insertedWindowDims := []
  scatterDimsToOperandDims := [1]
  indexVectorDim := 0
  wf := wf

variable {R C C' w : Nat} (wf : ScatterDims.WF ⟨2, ![R, C]⟩ ⟨1, ![1]⟩ ⟨2, ![R, C']⟩ [0, 1] [] [1] 0)
  (idx : IVec ⟨1, ![1]⟩ w) (k : Fin R) (j' : Fin C')

/-- On the row axis, which the scatter index does not address, the window starts at `0`. -/
theorem colWindow_start_row : (colWindowDims R C C' wf).start (ix2 k j') idx 0 = 0 := by
  unfold ScatterDims.start
  rw [dif_neg (show (0 : Fin 2) ∉ (colWindowDims R C C' wf).scatterDimsToOperandDims from
    fun h => Nat.zero_ne_one (congrArg Fin.val (List.mem_singleton.mp h)))]

/-- On the column axis the window starts at the one scatter index word, read signed. -/
theorem colWindow_start_col :
    (colWindowDims R C C' wf).start (ix2 k j') idx 1 = (idx (ix1 (0 : Fin 1))).toInt := by
  unfold ScatterDims.start
  rw [dif_pos (show (1 : Fin 2) ∈ (colWindowDims R C C' wf).scatterDimsToOperandDims from List.mem_singleton.mpr rfl)]
  have hsi : (colWindowDims R C C' wf).siIdx (ix2 k j')
      ⟨List.idxOf (1 : Fin 2) (colWindowDims R C C' wf).scatterDimsToOperandDims,
        List.idxOf_lt_length_iff.2 (List.mem_singleton.mpr rfl)⟩ = ix1 (0 : Fin 1) := by
    funext b; refine Fin.ext ?_
    match b with
    | ⟨0, _⟩ => rfl
  rw [hsi]

/-- The window coordinate of update `(k, j')` on the row axis is `k`. -/
theorem colWindow_window_row : (colWindowDims R C C' wf).window (ix2 k j') 0 = k.val := by
  unfold ScatterDims.window
  rw [dif_pos (show (0 : Fin 2) ∈ (colWindowDims R C C' wf).sKept from
    (mem_kept_iff _ _).mpr List.not_mem_nil)]
  rfl

/-- The window coordinate of update `(k, j')` on the column axis is `j'`. -/
theorem colWindow_window_col : (colWindowDims R C C' wf).window (ix2 k j') 1 = j'.val := by
  unfold ScatterDims.window
  rw [dif_pos (show (1 : Fin 2) ∈ (colWindowDims R C C' wf).sKept from
    (mem_kept_iff _ _).mpr List.not_mem_nil)]
  rfl

/-- WHERE A WINDOW ELEMENT LANDS at column offset `0`: update `(k, j')` lands on operand element `(n, j)` exactly when
    the rows agree and the columns agree. -/
theorem colWindow_resultIdx?_eq_some (h0 : (idx (ix1 (0 : Fin 1))).toInt = 0) (n : Fin R) (j : Fin C) :
    (colWindowDims R C C' wf).resultIdx? (ix2 k j') idx = some (ix2 n j) ↔ k = n ∧ j'.val = j.val := by
  rw [resultIdx?_eq_some_iff]
  constructor
  · intro h
    have hr := h 0
    have hc := h 1
    rw [colWindow_start_row, colWindow_window_row] at hr
    rw [colWindow_start_col, colWindow_window_col, h0] at hc
    have hr' : (0 : ℤ) + (k.val : ℤ) = (n.val : ℤ) := hr
    have hc' : (0 : ℤ) + (j'.val : ℤ) = (j.val : ℤ) := hc
    exact ⟨Fin.ext (by omega), by omega⟩
  · rintro ⟨rfl, hj⟩ a
    match a with
    | ⟨0, _⟩ =>
      show (colWindowDims R C C' wf).start (ix2 k j') idx 0 + ((colWindowDims R C C' wf).window (ix2 k j') 0 : ℤ) = (k.val : ℤ)
      rw [colWindow_start_row, colWindow_window_row]
      simp
    | ⟨1, _⟩ =>
      show (colWindowDims R C C' wf).start (ix2 k j') idx 1 + ((colWindowDims R C C' wf).window (ix2 k j') 1 : ℤ) = (j.val : ℤ)
      rw [colWindow_start_col, colWindow_window_col, h0, hj]
      simp

/-- THE REPLACING COLUMN-WINDOW SCATTER READ AT `(n, j)`, at column offset `0`: the update's element `(n, j)` on the
    columns the window covers, the operand's on the others. Distinct window elements land on distinct operand elements,
    so each operand element meets at most one update. -/
theorem scatter_colWindow_apply {α : Type} (x : (⟨2, ![R, C]⟩ : Shape).Idx → α) (upd : (⟨2, ![R, C']⟩ : Shape).Idx → α)
    (h0 : (idx (ix1 (0 : Fin 1))).toInt = 0) (n : Fin R) (j : Fin C) :
    Host.scatter (colWindowDims R C C' wf) (fun _ b => b) x idx upd (ix2 n j)
      = if h : j.val < C' then upd (ix2 n ⟨j.val, h⟩) else x (ix2 n j) := by
  split
  · rename_i h
    refine scatter_replace_hit _ x idx upd (ix2 n ⟨j.val, h⟩) (ix2 n j)
      ((colWindow_resultIdx?_eq_some wf idx n ⟨j.val, h⟩ h0 n j).mpr ⟨rfl, rfl⟩) fun v' hv' => ?_
    obtain ⟨p, q, rfl⟩ : ∃ (p : Fin R) (q : Fin C'), v' = ix2 p q := ⟨v' 0, v' 1, eq_ix2 v'⟩
    obtain ⟨rfl, hq⟩ := (colWindow_resultIdx?_eq_some wf idx p q h0 n j).mp hv'
    have : q = ⟨j.val, h⟩ := Fin.ext hq
    rw [this]
  · rename_i h
    refine scatter_replace_miss _ x idx upd (ix2 n j) fun v' hv' => ?_
    obtain ⟨p, q, rfl⟩ : ∃ (p : Fin R) (q : Fin C'), v' = ix2 p q := ⟨v' 0, v' 1, eq_ix2 v'⟩
    obtain ⟨-, hq⟩ := (colWindow_resultIdx?_eq_some wf idx p q h0 n j).mp hv'
    exact h (hq ▸ q.isLt)

end ColumnWindow

/-! ## The program's stretch -/

section Program

variable (W : Valuation τ sig (Elt Ideal))

/-- What the stretch leaves in the filled weight table: the replacing scatter of the [64, 2] weight matrix into the
    [64, 16] splat of the literal `0.0` at the one-element index vector splat from the literal `0`. -/
theorem hostOps2_1_v24 :
    (StableHlo.after hostOps2_1 (StableHlo.after hostOps2 W) (Proc.devRef .tc main_v24) : S64x16.Idx → EReal)
      = Host.scatter scatter_S64x16_S1_S64x2_01_n_1_0 (fun _ b => b)
          (broadcastInDim S64x16 ![] Facts₀.bcast_S_S64x16 (constant (F := Ideal) S_ .f32 0x00000000#32))
          (broadcastInDim S1 ![] Facts₀.bcast_S_S1 (constantI S_ 32 0#32))
          (StableHlo.after hostOps2 W (Proc.devRef .tc main_arg6) : S64x2.Idx → EReal) := by
  after_results

/-- The preceding stretch writes none of its results into the weight matrix's buffer. -/
theorem hostOps2_arg6 :
    StableHlo.after hostOps2 W (Proc.devRef .tc main_arg6) = W (Proc.devRef .tc main_arg6) :=
  StableHlo.after_of_forall_not_mem (b := Proc.devRef .tc main_arg6) _ _ (List.forall_iff_forall_mem.mp (by
    simp only [hostOps2, List.Forall, StableHlo.nullary_writes, StableHlo.unary_writes, StableHlo.binary_writes,
      StableHlo.ternary_writes, Finset.mem_singleton]
    repeat' apply And.intro
    all_goals exact StableHlo.devRef_ne_of_ne (by decide)))

/-- THE FILLED WEIGHT TABLE READ AT `(k, j)`: the last weight matrix on its two columns, zero on the other fourteen. -/
theorem host2_w3p (k : Fin 64) (j : Fin 16) :
    (StableHlo.after hostOps2_1 (StableHlo.after hostOps2 W) (Proc.devRef .tc main_v24) : S64x16.Idx → EReal) (ix2 k j)
      = Cert.Gcn.W3p (fun k j => (W (Proc.devRef .tc main_arg6) : S64x2.Idx → EReal) (ix2 k j)) k j := by
  -- the one scatter index word is the literal 0
  have h0 : ((broadcastInDim S1 ![] Facts₀.bcast_S_S1 (constantI S_ 32 0#32) : IVec S1 32) (ix1 (0 : Fin 1))).toInt = 0 := by
    rw [StableHlo.Predicate.bcast_scalar Facts₀.bcast_S_S1 Facts₀.h_S_]
    rfl
  -- the program's dimension numbers are a column window's at these sizes
  have hd : scatter_S64x16_S1_S64x2_01_n_1_0
      = colWindowDims 64 16 2 Facts₀.scatter_S64x16_S1_S64x2_01_n_1_0_wf := rfl
  rw [hostOps2_1_v24, hostOps2_arg6, hd, scatter_colWindow_apply _ _ _ _ h0]
  unfold Cert.Gcn.W3p
  split
  · rfl
  · -- outside the window the operand is read: the splat of the literal 0.0, which is the extended real 0
    rw [StableHlo.Predicate.bcast_scalar Facts₀.bcast_S_S64x16 Facts₀.h_S_, constant_apply]
    exact Ideal.ofBits_zero_f32

end Program

end Cert.KernelIdeal.KHostW

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.LibColumnForms.lean ====
/-
  The two layout steps of a `keepdims` reduction along the lanes, read at an index: a vector of `a` row results cast to
  the column `[a, 1]`, and that column broadcast along the lanes to `[a, b]`. Composed, every entry of row `p` of the
  result is the row's one reduced value.
-/
import Idealize.ShloMosaic.Lib.Pipeline.Value
import Idealize.ShloMosaic.Lib.ValueIdx

noncomputable section

open Idealize.ShloMosaic Idealize.ShloMosaic.ValueIdx

namespace Cert.LibColumnForms

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the lanes to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnForms

end
-- ==== Proof.Region0.lean ====
/-
  The first region of the kernel's program: the scaled dense transform of the node features.

  The region runs over twenty row blocks of 5000 rows. At block `t` it multiplies rows `5000·t … 5000·t + 4999` of the
  feature array [100000, 128] by the whole weight array [128, 64] (a product accumulated into zero, so a plain sum over
  the 128 contracted columns) and scales row `p` of the product by entry `5000·t + p` of the factor column [100000, 1],
  which is spread along the 64 lanes. Each block of the result is therefore the matching block of ONE function of the three
  arrays, `(∑ₖ a(i,k)·W(k,j))·d(i)`; the twenty blocks tile the result array (row `r` lies in block `r / 5000`), so after
  the region the result array is that function at every index.
-/
import proofs.«425015_j48112223650296_3_alg».proof.Proof.Gen.KernelIdeal.Frame
import proofs.«425015_j48112223650296_3_alg».proof.Proof.Spec
import proofs.«425015_j48112223650296_3_alg».proof.Proof.LibPlainMatmul
import proofs.«425015_j48112223650296_3_alg».proof.Proof.LibColumnForms
import Idealize.ShloMosaic.Lib.Pipeline.Value
import Idealize.ShloMosaic.Lib.ValueIdx
import Idealize.ShloMosaic.PureOps.Ideal.Laws

noncomputable section

open scoped BigOperators
open Cert.KernelIdeal Cert.KernelIdeal.Gen Idealize.ShloMosaic Idealize.ShloMosaic.TcCoe Idealize.ShloMosaic.ValueIdx
open Idealize.ShloMosaic.Pipeline (Dat)

namespace Cert.KernelIdeal.Region0

theorem hz : (![0, 0] : Fin 2 → Nat) = fun _ => 0 := funext fun a => by fin_cases a <;> rfl

/-- The product's dimension numbers contract one axis, of extent 128. -/
theorem dot_rank : dot_S5000x128_S128x64_S5000x64_1_0_0_1_n_n.contr.rank = 1 := rfl
theorem dot_size : dot_S5000x128_S128x64_S5000x64_1_0_0_1_n_n.contr.size ⟨0, by rw [dot_rank]; omega⟩ = 128 := rfl

theorem lhs_dot_0 (i : S5000x64.Idx) (q : dot_S5000x128_S128x64_S5000x64_1_0_0_1_n_n.contr.Idx) :
    (dot_S5000x128_S128x64_S5000x64_1_0_0_1_n_n.lhsIdx i q 0).val = (i 0).val := by
  unfold DotDims.lhsIdx
  rw [dif_neg (show ¬(0 : Fin S5000x128.rank) ∈ dot_S5000x128_S128x64_S5000x64_1_0_0_1_n_n.lhsBatch by decide),
    dif_pos (show (0 : Fin S5000x128.rank) ∈ dot_S5000x128_S128x64_S5000x64_1_0_0_1_n_n.lhsNonContracting by decide)]
  rfl

theorem lhs_dot_1 (i : S5000x64.Idx) (q : dot_S5000x128_S128x64_S5000x64_1_0_0_1_n_n.contr.Idx) :
    (dot_S5000x128_S128x64_S5000x64_1_0_0_1_n_n.lhsIdx i q 1).val = (q ⟨0, by rw [dot_rank]; omega⟩).val :=
  DotDims.lhsIdx_val_of_single dot_S5000x128_S128x64_S5000x64_1_0_0_1_n_n (cl := 1) rfl i q

theorem rhs_dot_0 (i : S5000x64.Idx) (q : dot_S5000x128_S128x64_S5000x64_1_0_0_1_n_n.contr.Idx) :
    (dot_S5000x128_S128x64_S5000x64_1_0_0_1_n_n.rhsIdx i q 0).val = (q ⟨0, by rw [dot_rank]; omega⟩).val :=
  DotDims.rhsIdx_val_of_single dot_S5000x128_S128x64_S5000x64_1_0_0_1_n_n (cr := 0) rfl i q

theorem rhs_dot_1 (i : S5000x64.Idx) (q : dot_S5000x128_S128x64_S5000x64_1_0_0_1_n_n.contr.Idx) :
    (dot_S5000x128_S128x64_S5000x64_1_0_0_1_n_n.rhsIdx i q 1).val = (i 1).val := by
  unfold DotDims.rhsIdx
  rw [dif_neg (show ¬(1 : Fin S128x64.rank) ∈ dot_S5000x128_S128x64_S5000x64_1_0_0_1_n_n.rhsBatch by decide),
    dif_pos (show (1 : Fin S128x64.rank) ∈ dot_S5000x128_S128x64_S5000x64_1_0_0_1_n_n.rhsNonContracting by decide)]
  rfl

/-- The block's payload at an entry: row `p` of the loaded rows against column `o` of the weights, times the row's factor. -/
theorem pay_apply (x0 : Vec Ideal S5000x128 .f32) (x1 : Vec Ideal S128x64 .f32) (x2 : Vec Ideal S5000x1 .f32)
    (p : Fin 5000) (o : Fin 64) :
    (k0_pay1 (F := Ideal) x0 x1 x2 : S5000x64.Idx → EReal) (ix2 p o)
      = (∑ k : Fin 128, (x0 : S5000x128.Idx → EReal) (ix2 p k) * (x1 : S128x64.Idx → EReal) (ix2 k o))
          * (x2 : S5000x1.Idx → EReal) (ix2 p (0 : Fin 1)) := by
  unfold k0_pay1
  show (FloatOps.matmul dot_S5000x128_S128x64_S5000x64_1_0_0_1_n_n none x0 x1 (constant (F := Ideal) S5000x64 .f32 0x00000000#32) (ix2 p o) : EReal)
      * broadcastTo S5000x64 (shapeCast S5000x1 x2 shapeCasts_S5000x1_S5000x1) broadcasts_S5000x1_S5000x64 (ix2 p o) = _
  rw [shapeCast_self, Cert.LibColumnForms.broadcastTo_a1_ab_apply,
    Cert.LibPlainMatmul.matmul_zero_apply dot_S5000x128_S128x64_S5000x64_1_0_0_1_n_n none dot_rank dot_size
      lhs_dot_0 lhs_dot_1 rhs_dot_0 rhs_dot_1]

variable (V : (c : Dev nD) → (b : Ref sig .tc) → Buf (Elt Ideal) ((c : Thread nD τ).loc b))

/-- The region's three input arrays as it finds them, at their literal shapes: the node features, the weights, the
    column of row factors. -/
abbrev feat (c : Dev nD) : S100000x128.Idx → EReal := V c main_arg0
abbrev wts (c : Dev nD) : S128x64.Idx → EReal := V c main_arg2
abbrev fac (c : Dev nD) : S100000x1.Idx → EReal := V c main_v11

/-- The region's result array as one function of its three input arrays: the scaled dense transform. -/
def G (c : Dev nD) : S100000x64.Idx → EReal := fun y =>
  Cert.Gcn.linScale (fun i k => feat V c (ix2 i k)) (fun k j => wts V c (ix2 k j)) (fun i => fac V c (ix2 i (0 : Fin 1)))
    (y 0) (y 1)

/-- The index maps over the grid: at point `t` the row windows sit at block row `t`, the weights at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row `p` of the feature block at point `t` is row `5000·t + p` of the feature array. -/
theorem rows_block (c : Dev nD) (t : Fin cfg0.N) (p : Fin 5000) (k : Fin 128) (r : Fin 100000)
    (hr : r.val = 5000 * t.val + p.val) :
    (iblk0 V c 0 t : S5000x128.Idx → EReal) (ix2 p k) = feat V c (ix2 r k) := by
  obtain ⟨e0, e1, -⟩ := idx_facts t
  unfold iblk0
  rw [View.read_apply]
  show (V c main_arg0 : S100000x128.Idx → EReal) (((cfg0.win 0).blk t).view.emb (ix2 p k)) = _
  refine congrArg _ (funext fun a => Fin.ext ?_)
  match a with
  | ⟨0, _⟩ => show win0_0.index t (0 : Fin 2) * 5000 + 1 * p.val = r.val; omega
  | ⟨1, _⟩ => show win0_0.index t (1 : Fin 2) * 128 + 1 * k.val = k.val; omega

/-- The weight block at every point is the weight array. -/
theorem weights_block (c : Dev nD) (t : Fin cfg0.N) (k : Fin 128) (o : Fin 64) :
    (iblk0 V c 1 t : S128x64.Idx → EReal) (ix2 k o) = wts V c (ix2 k o) := by
  obtain ⟨-, -, e0, e1, -⟩ := idx_facts t
  unfold iblk0
  rw [View.read_apply]
  show (V c main_arg2 : S128x64.Idx → EReal) (((cfg0.win 1).blk t).view.emb (ix2 k o)) = _
  refine congrArg _ (funext fun a => Fin.ext ?_)
  match a with
  | ⟨0, _⟩ => show win0_1.index t (0 : Fin 2) * 128 + 1 * k.val = k.val; omega
  | ⟨1, _⟩ => show win0_1.index t (1 : Fin 2) * 64 + 1 * o.val = o.val; omega

/-- Entry `p` of the factor block at point `t` is entry `5000·t + p` of the factor column. -/
theorem factor_block (c : Dev nD) (t : Fin cfg0.N) (p : Fin 5000) (r : Fin 100000)
    (hr : r.val = 5000 * t.val + p.val) :
    (iblk0 V c 2 t : S5000x1.Idx → EReal) (ix2 p (0 : Fin 1)) = fac V c (ix2 r (0 : Fin 1)) := by
  obtain ⟨-, -, -, -, e0, e1, -⟩ := idx_facts t
  unfold iblk0
  rw [View.read_apply]
  show (V c main_v11 : S100000x1.Idx → EReal) (((cfg0.win 2).blk t).view.emb (ix2 p (0 : Fin 1))) = _
  refine congrArg _ (funext fun a => Fin.ext ?_)
  match a with
  | ⟨0, _⟩ => show win0_2.index t (0 : Fin 2) * 5000 + 1 * p.val = r.val; omega
  | ⟨1, _⟩ => show win0_2.index t (1 : Fin 2) * 1 + 1 * (0 : Fin 1).val = (0 : Fin 1).val; omega

/-- What point `t` writes back is block `t` of `G`: the payload of the three blocks at `t`, entry by entry, with each
    block entry read where it sits in its array. -/
theorem flushed_eq (c : Dev nD) (t : Fin cfg0.N) :
    (cfg0.win 3).cut (grid0.coords t) ((dat0 (F := Ideal) V c).after 3 t)
      = ((cfg0.win 3).blk t).view.read (Elt Ideal) (G V c) := by
  rw [after0_3]
  unfold out0_3
  rw [View.canon_unit_zero hz]
  simp only [View.ld_unit_zero (S := S5000x128) hz, View.ld_unit_zero (S := S128x64) hz, View.ld_unit_zero (S := S5000x1) hz]
  obtain ⟨-, -, -, -, -, -, e0, e1⟩ := idx_facts t
  have hN : cfg0.N = 20 := N_0
  funext y
  obtain ⟨p, o, rfl⟩ : ∃ (p : Fin 5000) (o : Fin 64), y = ix2 p o := ⟨y 0, y 1, eq_ix2 y⟩
  have ht : t.val < 20 := hN ▸ t.isLt
  let r : Fin 100000 := ⟨5000 * t.val + p.val, by have := p.isLt; omega⟩
  have hemb : ((cfg0.win 3).blk t).view.emb (ix2 p o) = (ix2 r o : S100000x64.Idx) := by
    funext a; apply Fin.ext
    match a with
    | ⟨0, _⟩ => show win0_3.index t (0 : Fin 2) * 5000 + 1 * p.val = 5000 * t.val + p.val; omega
    | ⟨1, _⟩ => show win0_3.index t (1 : Fin 2) * 64 + 1 * o.val = o.val; omega
  rw [View.read_apply, hemb]
  show (k0_pay1 (F := Ideal) (iblk0 V c 0 t) (iblk0 V c 1 t) (iblk0 V c 2 t) : S5000x64.Idx → EReal) (ix2 p o) = G V c (ix2 r o)
  refine (pay_apply (iblk0 V c 0 t) (iblk0 V c 1 t) (iblk0 V c 2 t) p o).trans ?_
  show _ = (∑ k : Fin 128, feat V c (ix2 r k) * wts V c (ix2 k o)) * fac V c (ix2 r (0 : Fin 1))
  refine congrArg₂ (· * ·) (Finset.sum_congr rfl fun k _ => ?_) (factor_block V c t p r rfl)
  exact congrArg₂ (· * ·) (rows_block V c t p k r rfl) (weights_block V c t k o)

/-- An index of the result array lies in point `t`'s block iff each coordinate lies in the block's range on its axis. -/
theorem mem_blk (t : Fin cfg0.N) (y : S100000x64.Idx) :
    y ∈ ((cfg0.win 3).blk t).view.set ↔ ∀ a : Fin 2, win0_3.index t a * S5000x64.size a ≤ (y a).val
      ∧ (y a).val < win0_3.index t a * S5000x64.size a + S5000x64.size a := by
  show y ∈ ((View.whole main_v12).slice (win0_3.rect t)).set ↔ _
  rw [View.set_slice_whole, Rect.mem_set_unit]
  exact Iff.rfl

/-- Every index of the result array is in some point's block: row `r` in the block of point `r / 5000`. -/
theorem cover (y : S100000x64.Idx) :
    ∃ t : Fin cfg0.N, (cfg0.win 3).flush t = true ∧ y ∈ ((cfg0.win 3).blk t).view.set := by
  have h0 : (y 0).val < 100000 := (y 0).isLt
  have h1 : (y 1).val < 64 := (y 1).isLt
  have hN : cfg0.N = 20 := N_0
  have ht : (y 0).val / 5000 < cfg0.N := by rw [hN]; omega
  obtain ⟨-, -, -, -, -, -, e0, e1⟩ := idx_facts ⟨(y 0).val / 5000, ht⟩
  refine ⟨⟨(y 0).val / 5000, ht⟩, flush0_3 _, ?_⟩
  rw [mem_blk]
  intro a
  match a with
  | ⟨0, _⟩ =>
    show win0_3.index ⟨(y 0).val / 5000, ht⟩ (0 : Fin 2) * 5000 ≤ (y 0).val
      ∧ (y 0).val < win0_3.index ⟨(y 0).val / 5000, ht⟩ (0 : Fin 2) * 5000 + 5000
    rw [e0]; show (y 0).val / 5000 * 5000 ≤ (y 0).val ∧ (y 0).val < (y 0).val / 5000 * 5000 + 5000; omega
  | ⟨1, _⟩ =>
    show win0_3.index ⟨(y 0).val / 5000, ht⟩ (1 : Fin 2) * 64 ≤ (y 1).val
      ∧ (y 1).val < win0_3.index ⟨(y 0).val / 5000, ht⟩ (1 : Fin 2) * 64 + 64
    rw [e1]; omega

/-- The result array after the region's twenty points is `G` of the input arrays. -/
theorem final (c : Dev nD) : (dat0 (F := Ideal) V c).arrAt 3 cfg0.N = G V c :=
  (dat0 (F := Ideal) V c).arrAt_eq_of_cover 3 (G V c) (fun t _ => flushed_eq V c t) cover

/-- The region's result at an index: the dense transform of the features by the weights at that row and column, scaled by
    the row's factor. -/
theorem region0_value (c : Dev nD) (i : Fin 100000) (j : Fin 64) :
    ((dat0 (F := Ideal) V c).arrAt 3 cfg0.N : S100000x64.Idx → EReal) (ix2 i j)
      = Cert.Gcn.linScale (fun i k => (V c main_arg0 : S100000x128.Idx → EReal) (ix2 i k))
          (fun k j => (V c main_arg2 : S128x64.Idx → EReal) (ix2 k j))
          (fun i => (V c main_v11 : S100000x1.Idx → EReal) (ix2 i (0 : Fin 1))) i j :=
  congrFun (final V c) (ix2 i j)

end Cert.KernelIdeal.Region0

end
-- ==== Proof.Region1.lean ====
/-
  The middle layer's fused step, read off the array it leaves.

  The step works on 20 blocks of 5000 node rows. On the rows of its block it adds the aggregate `g` and the node's own
  scaled row `h`, scales the sum by the row's factor `d`, adds the bias `b`, clips below at zero, multiplies the
  clipped rows by the weight matrix `W`, and scales by `d` once more:
  `out(i, j) = (∑ₖ max((g(i,k) + h(i,k))·d(i) + b(k), 0) · W(k, j)) · d(i)`.
  Every row of the result depends on its own row of `g`, `h`, `d` only, the blocks tile the rows, and block `t` holds
  rows `5000·t … 5000·t + 4999`; so the array the 20 blocks leave is that one formula at every index.
-/
import proofs.«425015_j48112223650296_3_alg».proof.Proof.Gen.KernelIdeal.Frame
import proofs.«425015_j48112223650296_3_alg».proof.Proof.Spec
import proofs.«425015_j48112223650296_3_alg».proof.Proof.LibPlainMatmul
import proofs.«425015_j48112223650296_3_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx Idealize.ShloMosaic.TcCoe
open Idealize.ShloMosaic.Pipeline (Dat)

namespace Cert.KernelIdeal.Region1

/-! ## The dense transform's index maps

The product of a [5000, 64] block with the [64, 64] weights contracts the block's axis 1 with the weights' axis 0, keeps
the block's rows and the weights' columns: at output index `(i₀, i₁)` and contraction index `q` the left operand is read
at `(i₀, q)` and the right one at `(q, i₁)`. -/

theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs_contr (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
theorem rhs_contr (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-! ## One block's result at an index -/

/-- The block's result at row `p`, column `o`, from the block's operands: the factor column `d` and the bias row `b` are
    each spread over the block (every entry of row `p` of the spread column is `d(p)`, every entry of column `k` of the
    spread row is `b(k)`), the sums and products are entry by entry, the clip is the maximum with zero, and the product
    with the weights into the zero block is the sum over the contracted axis. -/
theorem pay_apply (d : Vec Ideal S5000x1 .f32) (g h : Vec Ideal S5000x64 .f32) (b : Vec Ideal S64 .f32) (W : Vec Ideal S64x64 .f32)
    (p : Fin 5000) (o : Fin 64) :
    (k1_pay1 (F := Ideal) d g h b W : S5000x64.Idx → EReal) (ix2 p o)
      = (∑ k : Fin 64, max ((g (ix2 p k) + h (ix2 p k)) * d (ix2 p (0 : Fin 1)) + b (ix1 k)) 0 * W (ix2 k o)) * d (ix2 p (0 : Fin 1)) := by
  unfold k1_pay1
  have hd : ∀ o' : Fin 64, (broadcastTo S5000x64 (shapeCast S5000x1 d shapeCasts_S5000x1_S5000x1) broadcasts_S5000x1_S5000x64 : S5000x64.Idx → EReal) (ix2 p o') = d (ix2 p (0 : Fin 1)) :=
    fun o' => (Cert.LibColumnForms.broadcastTo_a1_ab_apply _ _ p o').trans (congrFun (shapeCast_self d _) _)
  refine (mulf_apply _ _ (ix2 p o)).trans ?_
  refine congrArg₂ (· * ·) ?_ (hd o)
  simp only [matmul]
  refine (Cert.LibPlainMatmul.matmul_zero_apply dot_S5000x64_S64x64_S5000x64_1_0_0_1_n_n none rfl rfl lhs_row lhs_contr rhs_contr rhs_col _ W p o).trans ?_
  refine Finset.sum_congr rfl fun k _ => congrArg (· * W (ix2 k o)) ?_
  refine (maximumf_apply _ _ (ix2 p k)).trans ?_
  refine congrArg₂ max ?_ Ideal.ofBits_zero_f32
  have hg : (shapeCast S5000x64 g shapeCasts_S5000x64_S5000x64 : S5000x64.Idx → EReal) (ix2 p k) = g (ix2 p k) := congrFun (shapeCast_self g _) _
  have hh : (shapeCast S5000x64 h shapeCasts_S5000x64_S5000x64 : S5000x64.Idx → EReal) (ix2 p k) = h (ix2 p k) := congrFun (shapeCast_self h _) _
  have hb : (broadcastTo S5000x64 (shapeCast S1x64 b shapeCasts_S64_S1x64) broadcasts_S1x64_S5000x64 : S5000x64.Idx → EReal) (ix2 p k) = b (ix1 k) :=
    (broadcastTo_1b_ab_apply _ _ p k).trans (shapeCast_a_1a_apply b _ (0 : Fin 1) k)
  exact congrArg₂ (· + ·) (congrArg₂ (· * ·) (congrArg₂ (· + ·) hg hh) (hd k)) hb

/-! ## The closed form -/

/-- The array the step leaves, as one function of the arrays it reads: the factor column `d`, the aggregate `g`, the
    scaled rows `h`, the bias `b` and the weights `W`; at `(i, j)` the clipped activation of row `i` against column `j` of
    `W`, scaled by `d(i)`. -/
def G (d : S100000x1.Idx → EReal) (g h : S100000x64.Idx → EReal) (b : S64.Idx → EReal) (W : S64x64.Idx → EReal) :
    S100000x64.Idx → EReal := fun y =>
  Cert.Gcn.linScale
    (Cert.Gcn.actK (fun i => d (ix2 i (0 : Fin 1))) (fun i k => g (ix2 i k)) (fun i k => h (ix2 i k)) (fun k => b (ix1 k)))
    (fun k j => W (ix2 k j)) (fun i => d (ix2 i (0 : Fin 1))) ⟨(y 0).val, idx2_lt0 y⟩ ⟨(y 1).val, idx2_lt1 y⟩

/-- Row `p` of a block of 5000 rows that starts at row `r` and ends inside the array is a row of the array. -/
theorem row_lt {r : Nat} (hr : r + 5000 ≤ 100000) (p : Fin 5000) : r + p.val < 100000 :=
  Nat.lt_of_lt_of_le (Nat.add_lt_add_left p.isLt r) hr

/-- A block whose row operands are rows `r … r + 4999` of `g`, `h`, `d` and whose bias and weights are `b` and `W`
    computes rows `r … r + 4999` of the closed form: the formula for row `r + p` reads only row `r + p` of the row operands. -/
theorem point_eq (d : S100000x1.Idx → EReal) (g h : S100000x64.Idx → EReal) (b : S64.Idx → EReal) (W : S64x64.Idx → EReal)
    (x2 : Vec Ideal S5000x1 .f32) (x0 x1 : Vec Ideal S5000x64 .f32) (x3 : Vec Ideal S64 .f32) (x4 : Vec Ideal S64x64 .f32)
    (r : Nat) (hr : r + 5000 ≤ 100000)
    (h0 : ∀ (p : Fin 5000) (k : Fin 64), x0 (ix2 p k) = g (ix2 ⟨r + p.val, row_lt hr p⟩ k))
    (h1 : ∀ (p : Fin 5000) (k : Fin 64), x1 (ix2 p k) = h (ix2 ⟨r + p.val, row_lt hr p⟩ k))
    (h2 : ∀ (p : Fin 5000), x2 (ix2 p (0 : Fin 1)) = d (ix2 ⟨r + p.val, row_lt hr p⟩ (0 : Fin 1)))
    (h3 : ∀ k : Fin 64, x3 (ix1 k) = b (ix1 k)) (h4 : ∀ (k o : Fin 64), x4 (ix2 k o) = W (ix2 k o))
    (p : Fin 5000) (o : Fin 64) :
    (k1_pay1 (F := Ideal) x2 x0 x1 x3 x4 : S5000x64.Idx → EReal) (ix2 p o) = G d g h b W (ix2 ⟨r + p.val, row_lt hr p⟩ o) := by
  refine (pay_apply x2 x0 x1 x3 x4 p o).trans ?_
  unfold G Cert.Gcn.linScale Cert.Gcn.lin Cert.Gcn.actK
  refine congrArg₂ (· * ·) (Finset.sum_congr rfl fun k _ => ?_) (h2 p)
  exact congrArg₂ (· * ·) (congrArg₂ max (congrArg₂ (· + ·) (congrArg₂ (· * ·) (congrArg₂ (· + ·) (h0 p k) (h1 p k)) (h2 p)) (h3 k)) rfl) (h4 k o)

/-! ## From blocks to the array -/

theorem hz2 : (![0, 0] : Fin 2 → Nat) = fun _ => 0 := funext fun a => by
  match a with
  | ⟨0, _⟩ => rfl
  | ⟨1, _⟩ => rfl
theorem hz1 : (![0] : Fin 1 → Nat) = fun _ => 0 := funext fun a => by
  match a with
  | ⟨0, _⟩ => rfl

/-- The block index maps over the 20 points: the three row operands and the result move with the point along the rows
    (block `t` at point `t`, the one block of columns), the bias and the weights stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Block `t` of 5000 rows ends inside the 100000 rows: there are 20 points. -/
theorem blk_rows (t : Fin cfg1.N) : t.val * 5000 + 5000 ≤ 100000 := by
  have ht : t.val < 20 := Nat.lt_of_lt_of_eq t.isLt N_1
  omega

variable (V : (c : Dev nD) → (b : Ref sig .tc) → Buf (Elt Ideal) ((c : Thread nD τ).loc b))

/-! Each operand's block at point `t`, read at a block index, is the array at block index × block size + the index:
row `5000·t + p` for the three row operands, the index itself for the bias and the weights. -/

theorem read_agg (c : Dev nD) (t : Fin cfg1.N) (p : Fin 5000) (k : Fin 64) :
    (iblk1 V c 0 t : S5000x64.Idx → EReal) (ix2 p k)
      = (V c main_v16 : S100000x64.Idx → EReal) (ix2 ⟨t.val * 5000 + p.val, row_lt (blk_rows t) p⟩ k) := by
  obtain ⟨e00, e01, -⟩ := idx_facts t
  show V c main_v16 (((cfg1.win 0).blk t).view.emb (ix2 p k)) = _
  refine congrArg _ (funext fun a => Fin.ext ?_)
  match a with
  | ⟨0, _⟩ => show win1_0.index t (0 : Fin 2) * 5000 + 1 * p.val = t.val * 5000 + p.val; rw [e00]; omega
  | ⟨1, _⟩ => show win1_0.index t (1 : Fin 2) * 64 + 1 * k.val = k.val; rw [e01]; omega

theorem read_rows (c : Dev nD) (t : Fin cfg1.N) (p : Fin 5000) (k : Fin 64) :
    (iblk1 V c 1 t : S5000x64.Idx → EReal) (ix2 p k)
      = (V c main_v12 : S100000x64.Idx → EReal) (ix2 ⟨t.val * 5000 + p.val, row_lt (blk_rows t) p⟩ k) := by
  obtain ⟨-, -, e10, e11, -⟩ := idx_facts t
  show V c main_v12 (((cfg1.win 1).blk t).view.emb (ix2 p k)) = _
  refine congrArg _ (funext fun a => Fin.ext ?_)
  match a with
  | ⟨0, _⟩ => show win1_1.index t (0 : Fin 2) * 5000 + 1 * p.val = t.val * 5000 + p.val; rw [e10]; omega
  | ⟨1, _⟩ => show win1_1.index t (1 : Fin 2) * 64 + 1 * k.val = k.val; rw [e11]; omega

theorem read_factor (c : Dev nD) (t : Fin cfg1.N) (p : Fin 5000) :
    (iblk1 V c 2 t : S5000x1.Idx → EReal) (ix2 p (0 : Fin 1))
      = (V c main_v11 : S100000x1.Idx → EReal) (ix2 ⟨t.val * 5000 + p.val, row_lt (blk_rows t) p⟩ (0 : Fin 1)) := by
  obtain ⟨-, -, -, -, e20, e21, -⟩ := idx_facts t
  show V c main_v11 (((cfg1.win 2).blk t).view.emb (ix2 p (0 : Fin 1))) = _
  refine congrArg _ (funext fun a => Fin.ext ?_)
  match a with
  | ⟨0, _⟩ => show win1_2.index t (0 : Fin 2) * 5000 + 1 * p.val = t.val * 5000 + p.val; rw [e20]; omega
  | ⟨1, _⟩ => show win1_2.index t (1 : Fin 2) * 1 + 1 * 0 = 0; rw [e21]

theorem read_bias (c : Dev nD) (t : Fin cfg1.N) (k : Fin 64) :
    (iblk1 V c 3 t : S64.Idx → EReal) (ix1 k) = (V c main_arg3 : S64.Idx → EReal) (ix1 k) := by
  obtain ⟨-, -, -, -, -, -, e30, -⟩ := idx_facts t
  show V c main_arg3 (((cfg1.win 3).blk t).view.emb (ix1 k)) = _
  refine congrArg _ (funext fun a => Fin.ext ?_)
  match a with
  | ⟨0, _⟩ => show win1_3.index t (0 : Fin 1) * 64 + 1 * k.val = k.val; rw [e30]; omega

theorem read_weights (c : Dev nD) (t : Fin cfg1.N) (k o : Fin 64) :
    (iblk1 V c 4 t : S64x64.Idx → EReal) (ix2 k o) = (V c main_arg4 : S64x64.Idx → EReal) (ix2 k o) := by
  obtain ⟨-, -, -, -, -, -, -, e40, e41, -⟩ := idx_facts t
  show V c main_arg4 (((cfg1.win 4).blk t).view.emb (ix2 k o)) = _
  refine congrArg _ (funext fun a => Fin.ext ?_)
  match a with
  | ⟨0, _⟩ => show win1_4.index t (0 : Fin 2) * 64 + 1 * k.val = k.val; rw [e40]; omega
  | ⟨1, _⟩ => show win1_4.index t (1 : Fin 2) * 64 + 1 * o.val = o.val; rw [e41]; omega

/-- Entry `(p, o)` of the result's block at point `t` sits in the array at `(5000·t + p, o)`. -/
theorem emb_out (t : Fin cfg1.N) (p : Fin 5000) (o : Fin 64) :
    ((cfg1.win 5).blk t).view.emb (ix2 p o) = (ix2 ⟨t.val * 5000 + p.val, row_lt (blk_rows t) p⟩ o : S100000x64.Idx) := by
  obtain ⟨-, -, -, -, -, -, -, -, -, e50, e51⟩ := idx_facts t
  funext a; apply Fin.ext
  match a with
  | ⟨0, _⟩ => show win1_5.index t (0 : Fin 2) * 5000 + 1 * p.val = t.val * 5000 + p.val; rw [e50]; omega
  | ⟨1, _⟩ => show win1_5.index t (1 : Fin 2) * 64 + 1 * o.val = o.val; rw [e51]; omega

/-- What point `t` writes back is block `t` of the closed form of the arrays as the step finds them: the one store of the
    body fills the whole block with the block's result, and the operands' blocks at `t` are rows `5000·t …` of their
    arrays. -/
theorem flushed_eq (c : Dev nD) (t : Fin cfg1.N) :
    (dat1 (F := Ideal) V c).flushed 5 t = ((cfg1.win 5).blk t).view.read (Elt Ideal)
      (G (V c main_v11) (V c main_v16) (V c main_v12) (V c main_arg3) (V c main_arg4)) := by
  show (cfg1.win 5).cut (grid1.coords t) ((dat1 (F := Ideal) V c).after 5 t) = _
  rw [after1_5]
  unfold out1_5
  rw [View.canon_unit_zero hz2]
  simp only [View.ld_unit_zero (S := S5000x64) hz2, View.ld_unit_zero (S := S5000x1) hz2, View.ld_unit_zero (S := S64) hz1, View.ld_unit_zero (S := S64x64) hz2]
  funext y
  obtain ⟨p, o, rfl⟩ : ∃ (p : Fin 5000) (o : Fin 64), y = ix2 p o := ⟨y 0, y 1, eq_ix2 y⟩
  show (k1_pay1 (F := Ideal) (iblk1 V c 2 t) (iblk1 V c 0 t) (iblk1 V c 1 t) (iblk1 V c 3 t) (iblk1 V c 4 t) : S5000x64.Idx → EReal) (ix2 p o)
      = G (V c main_v11) (V c main_v16) (V c main_v12) (V c main_arg3) (V c main_arg4) (((cfg1.win 5).blk t).view.emb (ix2 p o))
  rw [emb_out t p o]
  exact point_eq (V c main_v11) (V c main_v16) (V c main_v12) (V c main_arg3) (V c main_arg4) (iblk1 V c 2 t) (iblk1 V c 0 t) (iblk1 V c 1 t) (iblk1 V c 3 t) (iblk1 V c 4 t) (t.val * 5000) (blk_rows t)
    (read_agg V c t) (read_rows V c t) (read_factor V c t) (read_bias V c t) (read_weights V c t) p o

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v17).slice (win1_5.rect t)).set ↔ _
  rw [View.set_slice_whole, Rect.mem_set_unit]
  exact Iff.rfl

/-- The blocks tile the rows: row `r` is in the block of point `r / 5000`, and every point writes its block back. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : (i 0).val / 5000 < cfg1.N := Nat.lt_of_lt_of_eq (by omega : (i 0).val / 5000 < 20) N_1.symm
  refine ⟨⟨(i 0).val / 5000, hN⟩, flush1_5 _, ?_⟩
  obtain ⟨-, -, -, -, -, -, -, -, -, e50, e51⟩ := idx_facts ⟨(i 0).val / 5000, hN⟩
  rw [mem_blk]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e51]; omega

/-- The array after the 20 points is the closed form of the arrays as the step finds them. -/
theorem final (c : Dev nD) : (dat1 (F := Ideal) V c).arrAt 5 cfg1.N
    = G (V c main_v11) (V c main_v16) (V c main_v12) (V c main_arg3) (V c main_arg4) :=
  (dat1 (F := Ideal) V c).arrAt_eq_of_cover 5 (G (V c main_v11) (V c main_v16) (V c main_v12) (V c main_arg3) (V c main_arg4))
    (fun t _ => flushed_eq V c t) cover

/-- The array the step leaves, at node `i` and column `j`: the clipped activation of row `i` (aggregate plus own scaled
    row, scaled by the row's factor, biased, clipped at zero) against column `j` of the weights, scaled by the row's factor. -/
theorem region1_value (c : Dev nD) (i : Fin 100000) (j : Fin 64) :
    ((dat1 (F := Ideal) V c).arrAt 5 cfg1.N : S100000x64.Idx → EReal) (ix2 i j)
      = Cert.Gcn.linScale
          (Cert.Gcn.actK (fun i => (V c main_v11 : S100000x1.Idx → EReal) (ix2 i (0 : Fin 1)))
            (fun i k => (V c main_v16 : S100000x64.Idx → EReal) (ix2 i k)) (fun i k => (V c main_v12 : S100000x64.Idx → EReal) (ix2 i k))
            (fun k => (V c main_arg3 : S64.Idx → EReal) (ix1 k)))
          (fun k j => (V c main_arg4 : S64x64.Idx → EReal) (ix2 k j))
          (fun i => (V c main_v11 : S100000x1.Idx → EReal) (ix2 i (0 : Fin 1))) i j :=
  congrFun (final V c) (ix2 i j)

end Cert.KernelIdeal.Region1

end
-- ==== Proof.Region2.lean ====
/-
  The last layer's fused step before the log-softmax, read off the array it leaves.

  The step works on 20 blocks of 5000 node rows. On the rows of its block it adds the aggregate `g` and the node's own
  scaled row `h` (64 columns each), scales the sum by the row's factor `d`, adds the bias `b`, clips below at zero,
  multiplies the clipped rows by the sixteen-column weight matrix `W`, and scales by `d` once more:
  `out(i, j) = (∑ₖ max((g(i,k) + h(i,k))·d(i) + b(k), 0) · W(k, j)) · d(i)`, `j` over sixteen columns.
  Every row of the result depends on its own row of `g`, `h`, `d` only, the blocks tile the rows, and block `t` holds
  rows `5000·t … 5000·t + 4999`; so the array the 20 blocks leave is that one formula at every index.
-/
import proofs.«425015_j48112223650296_3_alg».proof.Proof.Gen.KernelIdeal.Frame
import proofs.«425015_j48112223650296_3_alg».proof.Proof.Spec
import proofs.«425015_j48112223650296_3_alg».proof.Proof.LibPlainMatmul
import proofs.«425015_j48112223650296_3_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx Idealize.ShloMosaic.TcCoe
open Idealize.ShloMosaic.Pipeline (Dat)

namespace Cert.KernelIdeal.Region2

/-! ## The dense transform's index maps

The product of a [5000, 64] block with the [64, 16] weights contracts the block's axis 1 with the weights' axis 0, keeps
the block's rows and the weights' columns: at output index `(i₀, i₁)` and contraction index `q` the left operand is read
at `(i₀, q)` and the right one at `(q, i₁)`. -/

theorem lhs_row (i : S5000x16.Idx) (q : dot_S5000x64_S64x16_S5000x16_1_0_0_1_n_n.contr.Idx) :
    (dot_S5000x64_S64x16_S5000x16_1_0_0_1_n_n.lhsIdx i q 0).val = (i 0).val := by
  unfold DotDims.lhsIdx
  rw [dif_neg (show ¬(0 : Fin S5000x64.rank) ∈ dot_S5000x64_S64x16_S5000x16_1_0_0_1_n_n.lhsBatch by decide), dif_pos (show (0 : Fin S5000x64.rank) ∈ dot_S5000x64_S64x16_S5000x16_1_0_0_1_n_n.lhsNonContracting by decide)]
  rfl
theorem lhs_contr (i : S5000x16.Idx) (q : dot_S5000x64_S64x16_S5000x16_1_0_0_1_n_n.contr.Idx) :
    (dot_S5000x64_S64x16_S5000x16_1_0_0_1_n_n.lhsIdx i q 1).val = (q ⟨0, by decide⟩).val :=
  dot_S5000x64_S64x16_S5000x16_1_0_0_1_n_n.lhsIdx_val_of_single rfl i q
theorem rhs_contr (i : S5000x16.Idx) (q : dot_S5000x64_S64x16_S5000x16_1_0_0_1_n_n.contr.Idx) :
    (dot_S5000x64_S64x16_S5000x16_1_0_0_1_n_n.rhsIdx i q 0).val = (q ⟨0, by decide⟩).val :=
  dot_S5000x64_S64x16_S5000x16_1_0_0_1_n_n.rhsIdx_val_of_single rfl i q
theorem rhs_col (i : S5000x16.Idx) (q : dot_S5000x64_S64x16_S5000x16_1_0_0_1_n_n.contr.Idx) :
    (dot_S5000x64_S64x16_S5000x16_1_0_0_1_n_n.rhsIdx i q 1).val = (i 1).val := by
  unfold DotDims.rhsIdx
  rw [dif_neg (show ¬(1 : Fin S64x16.rank) ∈ dot_S5000x64_S64x16_S5000x16_1_0_0_1_n_n.rhsBatch by decide), dif_pos (show (1 : Fin S64x16.rank) ∈ dot_S5000x64_S64x16_S5000x16_1_0_0_1_n_n.rhsNonContracting by decide)]
  rfl

/-! ## One block's result at an index -/

/-- The block's result at row `p`, column `o`, from the block's operands: the factor column `d` is spread over the 64
    columns of the activation and over the 16 columns of the result (every entry of row `p` is `d(p)`), the bias row `b`
    over the rows (every entry of column `k` is `b(k)`), the sums and products are entry by entry, the clip is the maximum
    with zero, and the product with the weights into the zero block is the sum over the contracted axis. -/
theorem pay_apply (d : Vec Ideal S5000x1 .f32) (g h : Vec Ideal S5000x64 .f32) (b : Vec Ideal S64 .f32) (W : Vec Ideal S64x16 .f32)
    (p : Fin 5000) (o : Fin 16) :
    (k2_pay1 (F := Ideal) d g h b W : S5000x16.Idx → EReal) (ix2 p o)
      = (∑ k : Fin 64, max ((g (ix2 p k) + h (ix2 p k)) * d (ix2 p (0 : Fin 1)) + b (ix1 k)) 0 * W (ix2 k o)) * d (ix2 p (0 : Fin 1)) := by
  unfold k2_pay1
  have hd : ∀ k : Fin 64, (broadcastTo S5000x64 (shapeCast S5000x1 d shapeCasts_S5000x1_S5000x1) broadcasts_S5000x1_S5000x64 : S5000x64.Idx → EReal) (ix2 p k) = d (ix2 p (0 : Fin 1)) :=
    fun k => (Cert.LibColumnForms.broadcastTo_a1_ab_apply _ _ p k).trans (congrFun (shapeCast_self d _) _)
  have hd' : (broadcastTo S5000x16 (shapeCast S5000x1 d shapeCasts_S5000x1_S5000x1) broadcasts_S5000x1_S5000x16 : S5000x16.Idx → EReal) (ix2 p o) = d (ix2 p (0 : Fin 1)) :=
    (Cert.LibColumnForms.broadcastTo_a1_ab_apply _ _ p o).trans (congrFun (shapeCast_self d _) _)
  refine (mulf_apply _ _ (ix2 p o)).trans ?_
  refine congrArg₂ (· * ·) ?_ hd'
  simp only [matmul]
  refine (Cert.LibPlainMatmul.matmul_zero_apply dot_S5000x64_S64x16_S5000x16_1_0_0_1_n_n none rfl rfl lhs_row lhs_contr rhs_contr rhs_col _ _ p o).trans ?_
  refine Finset.sum_congr rfl fun k _ => congrArg₂ (· * ·) ?_ (congrFun (shapeCast_self W _) _)
  refine (maximumf_apply _ _ (ix2 p k)).trans ?_
  refine congrArg₂ max ?_ Ideal.ofBits_zero_f32
  have hg : (shapeCast S5000x64 g shapeCasts_S5000x64_S5000x64 : S5000x64.Idx → EReal) (ix2 p k) = g (ix2 p k) := congrFun (shapeCast_self g _) _
  have hh : (shapeCast S5000x64 h shapeCasts_S5000x64_S5000x64 : S5000x64.Idx → EReal) (ix2 p k) = h (ix2 p k) := congrFun (shapeCast_self h _) _
  have hb : (broadcastTo S5000x64 (shapeCast S1x64 b shapeCasts_S64_S1x64) broadcasts_S1x64_S5000x64 : S5000x64.Idx → EReal) (ix2 p k) = b (ix1 k) :=
    (broadcastTo_1b_ab_apply _ _ p k).trans (shapeCast_a_1a_apply b _ (0 : Fin 1) k)
  exact congrArg₂ (· + ·) (congrArg₂ (· * ·) (congrArg₂ (· + ·) hg hh) (hd k)) hb

/-! ## The closed form -/

/-- The array the step leaves, as one function of the arrays it reads: the factor column `d`, the aggregate `g`, the
    scaled rows `h`, the bias `b` and the sixteen-column weights `W`; at `(i, j)` the clipped activation of row `i` against
    column `j` of `W`, scaled by `d(i)`. -/
def G (d : S100000x1.Idx → EReal) (g h : S100000x64.Idx → EReal) (b : S64.Idx → EReal) (W : S64x16.Idx → EReal) :
    S100000x16.Idx → EReal := fun y =>
  Cert.Gcn.linScale
    (Cert.Gcn.actK (fun i => d (ix2 i (0 : Fin 1))) (fun i k => g (ix2 i k)) (fun i k => h (ix2 i k)) (fun k => b (ix1 k)))
    (fun k j => W (ix2 k j)) (fun i => d (ix2 i (0 : Fin 1))) ⟨(y 0).val, idx2_lt0 y⟩ ⟨(y 1).val, idx2_lt1 y⟩

/-- Row `p` of a block of 5000 rows that starts at row `r` and ends inside the array is a row of the array. -/
theorem row_lt {r : Nat} (hr : r + 5000 ≤ 100000) (p : Fin 5000) : r + p.val < 100000 :=
  Nat.lt_of_lt_of_le (Nat.add_lt_add_left p.isLt r) hr

/-- A block whose row operands are rows `r … r + 4999` of `g`, `h`, `d` and whose bias and weights are `b` and `W`
    computes rows `r … r + 4999` of the closed form: the formula for row `r + p` reads only row `r + p` of the row operands. -/
theorem point_eq (d : S100000x1.Idx → EReal) (g h : S100000x64.Idx → EReal) (b : S64.Idx → EReal) (W : S64x16.Idx → EReal)
    (x2 : Vec Ideal S5000x1 .f32) (x0 x1 : Vec Ideal S5000x64 .f32) (x3 : Vec Ideal S64 .f32) (x4 : Vec Ideal S64x16 .f32)
    (r : Nat) (hr : r + 5000 ≤ 100000)
    (h0 : ∀ (p : Fin 5000) (k : Fin 64), x0 (ix2 p k) = g (ix2 ⟨r + p.val, row_lt hr p⟩ k))
    (h1 : ∀ (p : Fin 5000) (k : Fin 64), x1 (ix2 p k) = h (ix2 ⟨r + p.val, row_lt hr p⟩ k))
    (h2 : ∀ (p : Fin 5000), x2 (ix2 p (0 : Fin 1)) = d (ix2 ⟨r + p.val, row_lt hr p⟩ (0 : Fin 1)))
    (h3 : ∀ k : Fin 64, x3 (ix1 k) = b (ix1 k)) (h4 : ∀ (k : Fin 64) (o : Fin 16), x4 (ix2 k o) = W (ix2 k o))
    (p : Fin 5000) (o : Fin 16) :
    (k2_pay1 (F := Ideal) x2 x0 x1 x3 x4 : S5000x16.Idx → EReal) (ix2 p o) = G d g h b W (ix2 ⟨r + p.val, row_lt hr p⟩ o) := by
  refine (pay_apply x2 x0 x1 x3 x4 p o).trans ?_
  unfold G Cert.Gcn.linScale Cert.Gcn.lin Cert.Gcn.actK
  refine congrArg₂ (· * ·) (Finset.sum_congr rfl fun k _ => ?_) (h2 p)
  exact congrArg₂ (· * ·) (congrArg₂ max (congrArg₂ (· + ·) (congrArg₂ (· * ·) (congrArg₂ (· + ·) (h0 p k) (h1 p k)) (h2 p)) (h3 k)) rfl) (h4 k o)

/-! ## From blocks to the array -/

theorem hz2 : (![0, 0] : Fin 2 → Nat) = fun _ => 0 := funext fun a => by
  match a with
  | ⟨0, _⟩ => rfl
  | ⟨1, _⟩ => rfl
theorem hz1 : (![0] : Fin 1 → Nat) = fun _ => 0 := funext fun a => by
  match a with
  | ⟨0, _⟩ => rfl

/-- The block index maps over the 20 points: the three row operands and the result move with the point along the rows
    (block `t` at point `t`, the one block of columns), the bias and the weights stay at their one block. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 1) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- Block `t` of 5000 rows ends inside the 100000 rows: there are 20 points. -/
theorem blk_rows (t : Fin cfg2.N) : t.val * 5000 + 5000 ≤ 100000 := by
  have ht : t.val < 20 := Nat.lt_of_lt_of_eq t.isLt N_2
  omega

variable (V : (c : Dev nD) → (b : Ref sig .tc) → Buf (Elt Ideal) ((c : Thread nD τ).loc b))

/-! Each operand's block at point `t`, read at a block index, is the array at block index × block size + the index:
row `5000·t + p` for the three row operands, the index itself for the bias and the weights. -/

theorem read_agg (c : Dev nD) (t : Fin cfg2.N) (p : Fin 5000) (k : Fin 64) :
    (iblk2 V c 0 t : S5000x64.Idx → EReal) (ix2 p k)
      = (V c main_v21 : S100000x64.Idx → EReal) (ix2 ⟨t.val * 5000 + p.val, row_lt (blk_rows t) p⟩ k) := by
  obtain ⟨e00, e01, -⟩ := idx_facts t
  show V c main_v21 (((cfg2.win 0).blk t).view.emb (ix2 p k)) = _
  refine congrArg _ (funext fun a => Fin.ext ?_)
  match a with
  | ⟨0, _⟩ => show win2_0.index t (0 : Fin 2) * 5000 + 1 * p.val = t.val * 5000 + p.val; rw [e00]; omega
  | ⟨1, _⟩ => show win2_0.index t (1 : Fin 2) * 64 + 1 * k.val = k.val; rw [e01]; omega

theorem read_rows (c : Dev nD) (t : Fin cfg2.N) (p : Fin 5000) (k : Fin 64) :
    (iblk2 V c 1 t : S5000x64.Idx → EReal) (ix2 p k)
      = (V c main_v17 : S100000x64.Idx → EReal) (ix2 ⟨t.val * 5000 + p.val, row_lt (blk_rows t) p⟩ k) := by
  obtain ⟨-, -, e10, e11, -⟩ := idx_facts t
  show V c main_v17 (((cfg2.win 1).blk t).view.emb (ix2 p k)) = _
  refine congrArg _ (funext fun a => Fin.ext ?_)
  match a with
  | ⟨0, _⟩ => show win2_1.index t (0 : Fin 2) * 5000 + 1 * p.val = t.val * 5000 + p.val; rw [e10]; omega
  | ⟨1, _⟩ => show win2_1.index t (1 : Fin 2) * 64 + 1 * k.val = k.val; rw [e11]; omega

theorem read_factor (c : Dev nD) (t : Fin cfg2.N) (p : Fin 5000) :
    (iblk2 V c 2 t : S5000x1.Idx → EReal) (ix2 p (0 : Fin 1))
      = (V c main_v11 : S100000x1.Idx → EReal) (ix2 ⟨t.val * 5000 + p.val, row_lt (blk_rows t) p⟩ (0 : Fin 1)) := by
  obtain ⟨-, -, -, -, e20, e21, -⟩ := idx_facts t
  show V c main_v11 (((cfg2.win 2).blk t).view.emb (ix2 p (0 : Fin 1))) = _
  refine congrArg _ (funext fun a => Fin.ext ?_)
  match a with
  | ⟨0, _⟩ => show win2_2.index t (0 : Fin 2) * 5000 + 1 * p.val = t.val * 5000 + p.val; rw [e20]; omega
  | ⟨1, _⟩ => show win2_2.index t (1 : Fin 2) * 1 + 1 * 0 = 0; rw [e21]

theorem read_bias (c : Dev nD) (t : Fin cfg2.N) (k : Fin 64) :
    (iblk2 V c 3 t : S64.Idx → EReal) (ix1 k) = (V c main_arg5 : S64.Idx → EReal) (ix1 k) := by
  obtain ⟨-, -, -, -, -, -, e30, -⟩ := idx_facts t
  show V c main_arg5 (((cfg2.win 3).blk t).view.emb (ix1 k)) = _
  refine congrArg _ (funext fun a => Fin.ext ?_)
  match a with
  | ⟨0, _⟩ => show win2_3.index t (0 : Fin 1) * 64 + 1 * k.val = k.val; rw [e30]; omega

theorem read_weights (c : Dev nD) (t : Fin cfg2.N) (k : Fin 64) (o : Fin 16) :
    (iblk2 V c 4 t : S64x16.Idx → EReal) (ix2 k o) = (V c main_v24 : S64x16.Idx → EReal) (ix2 k o) := by
  obtain ⟨-, -, -, -, -, -, -, e40, e41, -⟩ := idx_facts t
  show V c main_v24 (((cfg2.win 4).blk t).view.emb (ix2 k o)) = _
  refine congrArg _ (funext fun a => Fin.ext ?_)
  match a with
  | ⟨0, _⟩ => show win2_4.index t (0 : Fin 2) * 64 + 1 * k.val = k.val; rw [e40]; omega
  | ⟨1, _⟩ => show win2_4.index t (1 : Fin 2) * 16 + 1 * o.val = o.val; rw [e41]; omega

/-- Entry `(p, o)` of the result's block at point `t` sits in the array at `(5000·t + p, o)`. -/
theorem emb_out (t : Fin cfg2.N) (p : Fin 5000) (o : Fin 16) :
    ((cfg2.win 5).blk t).view.emb (ix2 p o) = (ix2 ⟨t.val * 5000 + p.val, row_lt (blk_rows t) p⟩ o : S100000x16.Idx) := by
  obtain ⟨-, -, -, -, -, -, -, -, -, e50, e51⟩ := idx_facts t
  funext a; apply Fin.ext
  match a with
  | ⟨0, _⟩ => show win2_5.index t (0 : Fin 2) * 5000 + 1 * p.val = t.val * 5000 + p.val; rw [e50]; omega
  | ⟨1, _⟩ => show win2_5.index t (1 : Fin 2) * 16 + 1 * o.val = o.val; rw [e51]; omega

/-- What point `t` writes back is block `t` of the closed form of the arrays as the step finds them: the one store of the
    body fills the whole block with the block's result, and the operands' blocks at `t` are rows `5000·t …` of their
    arrays. -/
theorem flushed_eq (c : Dev nD) (t : Fin cfg2.N) :
    (dat2 (F := Ideal) V c).flushed 5 t = ((cfg2.win 5).blk t).view.read (Elt Ideal)
      (G (V c main_v11) (V c main_v21) (V c main_v17) (V c main_arg5) (V c main_v24)) := by
  show (cfg2.win 5).cut (grid2.coords t) ((dat2 (F := Ideal) V c).after 5 t) = _
  rw [after2_5]
  unfold out2_5
  rw [View.canon_unit_zero hz2]
  simp only [View.ld_unit_zero (S := S5000x64) hz2, View.ld_unit_zero (S := S5000x1) hz2, View.ld_unit_zero (S := S64) hz1, View.ld_unit_zero (S := S64x16) hz2]
  funext y
  obtain ⟨p, o, rfl⟩ : ∃ (p : Fin 5000) (o : Fin 16), y = ix2 p o := ⟨y 0, y 1, eq_ix2 y⟩
  show (k2_pay1 (F := Ideal) (iblk2 V c 2 t) (iblk2 V c 0 t) (iblk2 V c 1 t) (iblk2 V c 3 t) (iblk2 V c 4 t) : S5000x16.Idx → EReal) (ix2 p o)
      = G (V c main_v11) (V c main_v21) (V c main_v17) (V c main_arg5) (V c main_v24) (((cfg2.win 5).blk t).view.emb (ix2 p o))
  rw [emb_out t p o]
  exact point_eq (V c main_v11) (V c main_v21) (V c main_v17) (V c main_arg5) (V c main_v24) (iblk2 V c 2 t) (iblk2 V c 0 t) (iblk2 V c 1 t) (iblk2 V c 3 t) (iblk2 V c 4 t) (t.val * 5000) (blk_rows t)
    (read_agg V c t) (read_rows V c t) (read_factor V c t) (read_bias V c t) (read_weights V c t) p o

/-- An index of the array is in point `t`'s block iff each coordinate is in the block's range on its axis. -/
theorem mem_blk (t : Fin cfg2.N) (i : S100000x16.Idx) :
    i ∈ ((cfg2.win 5).blk t).view.set ↔ ∀ a : Fin 2, win2_5.index t a * S5000x16.size a ≤ (i a).val ∧ (i a).val < win2_5.index t a * S5000x16.size a + S5000x16.size a := by
  show i ∈ ((View.whole main_v25).slice (win2_5.rect t)).set ↔ _
  rw [View.set_slice_whole, Rect.mem_set_unit]
  exact Iff.rfl

/-- The blocks tile the rows: row `r` is in the block of point `r / 5000`, and every point writes its block back. -/
theorem cover (i : S100000x16.Idx) : ∃ t : Fin cfg2.N, (cfg2.win 5).flush t = true ∧ i ∈ ((cfg2.win 5).blk t).view.set := by
  have hi0 : (i 0).val < 100000 := (i 0).isLt
  have hi1 : (i 1).val < 16 := (i 1).isLt
  have hN : (i 0).val / 5000 < cfg2.N := Nat.lt_of_lt_of_eq (by omega : (i 0).val / 5000 < 20) N_2.symm
  refine ⟨⟨(i 0).val / 5000, hN⟩, flush2_5 _, ?_⟩
  obtain ⟨-, -, -, -, -, -, -, -, -, e50, e51⟩ := idx_facts ⟨(i 0).val / 5000, hN⟩
  rw [mem_blk]
  intro a
  match a with
  | ⟨0, _⟩ =>
    show win2_5.index ⟨(i 0).val / 5000, hN⟩ (0 : Fin 2) * 5000 ≤ (i 0).val ∧ (i 0).val < win2_5.index ⟨(i 0).val / 5000, hN⟩ (0 : Fin 2) * 5000 + 5000
    rw [e50]; show (i 0).val / 5000 * 5000 ≤ (i 0).val ∧ (i 0).val < (i 0).val / 5000 * 5000 + 5000; omega
  | ⟨1, _⟩ =>
    show win2_5.index ⟨(i 0).val / 5000, hN⟩ (1 : Fin 2) * 16 ≤ (i 1).val ∧ (i 1).val < win2_5.index ⟨(i 0).val / 5000, hN⟩ (1 : Fin 2) * 16 + 16
    rw [e51]; omega

/-- The array after the 20 points is the closed form of the arrays as the step finds them. -/
theorem final (c : Dev nD) : (dat2 (F := Ideal) V c).arrAt 5 cfg2.N
    = G (V c main_v11) (V c main_v21) (V c main_v17) (V c main_arg5) (V c main_v24) :=
  (dat2 (F := Ideal) V c).arrAt_eq_of_cover 5 (G (V c main_v11) (V c main_v21) (V c main_v17) (V c main_arg5) (V c main_v24))
    (fun t _ => flushed_eq V c t) cover

/-- The array the step leaves, at node `i` and column `j` of the sixteen: the clipped activation of row `i` (aggregate
    plus own scaled row, scaled by the row's factor, biased, clipped at zero) against column `j` of the weights, scaled by
    the row's factor. -/
theorem region2_value (c : Dev nD) (i : Fin 100000) (j : Fin 16) :
    ((dat2 (F := Ideal) V c).arrAt 5 cfg2.N : S100000x16.Idx → EReal) (ix2 i j)
      = Cert.Gcn.linScale
          (Cert.Gcn.actK (fun i => (V c main_v11 : S100000x1.Idx → EReal) (ix2 i (0 : Fin 1)))
            (fun i k => (V c main_v21 : S100000x64.Idx → EReal) (ix2 i k)) (fun i k => (V c main_v17 : S100000x64.Idx → EReal) (ix2 i k))
            (fun k => (V c main_arg5 : S64.Idx → EReal) (ix1 k)))
          (fun k j => (V c main_v24 : S64x16.Idx → EReal) (ix2 k j))
          (fun i => (V c main_v11 : S100000x1.Idx → EReal) (ix2 i (0 : Fin 1))) i j :=
  congrFun (final V c) (ix2 i j)

end Cert.KernelIdeal.Region2

end
-- ==== Proof.Region3.lean ====
/-
  The last region: the row log-softmax of the last layer's two kept columns.

  The region walks the 100000 rows in twenty blocks of 5000. At a block it reads the same 5000 rows of the aggregate and of
  the scaled rows (sixteen columns each), of the factor column, and the whole two-entry bias, and writes the block
  `z − m − log ∑ exp (z − m)` of the output, where for a row `i` and a kept column `j` (the first two of the sixteen)
  `z(i,j) = (aggregate(i,j) + scaled(i,j)) · factor(i) + bias(j)` and `m(i) = max (z(i,0)) (z(i,1))`. The row maximum is
  taken as a fold of `max` from minus infinity over the row's two entries and then once more against minus infinity;
  minus infinity is the bottom of the extended reals, so both leave `max (z(i,0)) (z(i,1))`. The row sum is the sum of the
  row's two exponentials.

  First the block's arithmetic is read at a row and a column of the block; then each input block is identified with its rows
  of the input array (block row `p` of block `t` is array row `5000 t + p`), so that what block `t` writes is block `t`
  of ONE function of the four input arrays; the twenty blocks cover every row (row `r` lies in block `r / 5000`), so the
  output array ends holding that function.
-/
import proofs.«425015_j48112223650296_3_alg».proof.Proof.Gen.KernelIdeal.Frame
import proofs.«425015_j48112223650296_3_alg».proof.Proof.Spec
import proofs.«425015_j48112223650296_3_alg».proof.Proof.LibColumnForms
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Cert.KernelIdeal Cert.KernelIdeal.Gen Idealize.ShloMosaic Idealize.ShloMosaic.ValueIdx Idealize.ShloMosaic.TcCoe
open Idealize.ShloMosaic.Pipeline (Dat)

namespace Cert.KernelIdeal.Region3

/-- The word of minus infinity is the bottom of the extended reals. -/
theorem ofBits_neg_inf : Ideal.ofBits .f32 0xFF800000#32 = ⊥ := by
  simp [Ideal.ofBits, Ideal.ieee]

/-- A fold of max from the bottom over two entries is the larger of the two. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton, max_bot_right]

/-- A block row of the last layer before the log-softmax: of the sixteen columns the first two of (aggregate + scaled row),
    times the row's factor, plus the bias. -/
def zrow (v0 : Vec Ideal S5000x1 .f32) (v2 v4 : Vec Ideal S5000x16 .f32) (v10 : Vec Ideal S2 .f32) (p : Fin 5000) (q : Fin 2) : EReal :=
  (v2 (ix2 p ⟨q.val, by omega⟩) + v4 (ix2 p ⟨q.val, by omega⟩)) * v0 (ix2 p (0 : Fin 1)) + v10 (ix1 q)

/-- The block's biased rows as the arithmetic builds them: the two operands added, times the factor column broadcast along the
    lanes, the first two of the sixteen columns, plus the bias broadcast down the rows. -/
def pre (v0 : Vec Ideal S5000x1 .f32) (v2 v4 : Vec Ideal S5000x16 .f32) (v10 : Vec Ideal S2 .f32) : FVec Ideal S5000x2 .f32 :=
  addf (extractStridedSlice S5000x2 ![0, 0] (mulf (addf (shapeCast S5000x16 v2 shapeCasts_S5000x16_S5000x16) (shapeCast S5000x16 v4 shapeCasts_S5000x16_S5000x16)) (broadcastTo S5000x16 (shapeCast S5000x1 v0 shapeCasts_S5000x1_S5000x1) broadcasts_S5000x1_S5000x16)) slices_S5000x16_o0_0_S5000x2)
    (broadcastTo S5000x2 (shapeCast S1x2 v10 shapeCasts_S2_S1x2) broadcasts_S1x2_S5000x2)

/-- The biased rows at a row and a column of the block. -/
theorem pre_apply (v0 : Vec Ideal S5000x1 .f32) (v2 v4 : Vec Ideal S5000x16 .f32) (v10 : Vec Ideal S2 .f32) (p : Fin 5000) (q : Fin 2) :
    pre v0 v2 v4 v10 (ix2 p q) = zrow v0 v2 v4 v10 p q := by
  unfold pre zrow
  rw [addf_apply, slice2_axis1_apply 0 _ slices_S5000x16_o0_0_S5000x2 p q ⟨q.val, by omega⟩ (by simp), mulf_apply, addf_apply,
    shapeCast_self, shapeCast_self, shapeCast_self, Cert.LibColumnForms.broadcastTo_a1_ab_apply,
    broadcastTo_1b_ab_apply, shapeCast_a_1a_apply]

/-- The row log-softmax as the block's arithmetic takes it, of any two-column block. -/
def post (z : FVec Ideal S5000x2 .f32) : FVec Ideal S5000x2 .f32 :=
  have v14 : FVec Ideal S5000 .f32 := multiReduction .maximumf [1] S5000 z 0xFF800000#32 reduces_S5000x2_S5000 (.inl rfl) rfl
  have v16 : FVec Ideal S5000 .f32 := maximumf (broadcast S5000 (Scalar.ofBits .f32 0xFF800000#32)) v14
  have v18 : FVec Ideal S5000x2 .f32 := broadcastTo S5000x2 (shapeCast S5000x1 v16 shapeCasts_S5000_S5000x1) broadcasts_S5000x1_S5000x2
  have v19 : FVec Ideal S5000x2 .f32 := subf z v18
  have v21 : FVec Ideal S5000 .f32 := multiReduction .add [1] S5000 (exp v19) 0x00000000#32 reduces_S5000x2_S5000 (.inl rfl) rfl
  have v24 : FVec Ideal S5000x2 .f32 := broadcastTo S5000x2 (log (shapeCast S5000x1 v21 shapeCasts_S5000_S5000x1)) broadcasts_S5000x1_S5000x2
  subf v19 v24

/-- The block's arithmetic is the log-softmax part applied to its biased rows. -/
theorem pay_eq (v0 : Vec Ideal S5000x1 .f32) (v2 v4 : Vec Ideal S5000x16 .f32) (v10 : Vec Ideal S2 .f32) :
    k3_pay1 (F := Ideal) v0 v2 v4 v10 = post (pre v0 v2 v4 v10) := rfl

/-- A row index with a lane put back on the reduced axis is the block index of that row and lane. -/
theorem lift_eq (p : Fin 5000) (k : Fin 2) : reduces_S5000x2_S5000.lift (ix1 p) k = ix2 p k := by
  funext a; apply Fin.ext
  match a with
  | ⟨0, _⟩ => rfl
  | ⟨1, _⟩ => rfl

/-- The row maximum that is subtracted: the fold of max from minus infinity over the row's two entries, then max with
    minus infinity once more. -/
theorem rowMax_apply (z : FVec Ideal S5000x2 .f32) (p : Fin 5000) :
    maximumf (broadcast S5000 (Scalar.ofBits (F := Ideal) .f32 0xFF800000#32))
        (multiReduction .maximumf [1] S5000 z 0xFF800000#32 reduces_S5000x2_S5000 (.inl rfl) rfl) (ix1 p)
      = max (z (ix2 p 0)) (z (ix2 p 1)) := by
  have h := Ideal.multiReduction_maximumf_single z 0xFF800000#32 reduces_S5000x2_S5000 (.inl rfl) rfl (ix1 p)
  have h2 : (Finset.univ : Finset (Fin 2)).fold max (Ideal.ofBits .f32 0xFF800000#32) (fun k => z (reduces_S5000x2_S5000.lift (ix1 p) k))
      = max (z (ix2 p 0)) (z (ix2 p 1)) := by
    rw [ofBits_neg_inf]
    refine (fold_max_two (fun k : Fin 2 => z (reduces_S5000x2_S5000.lift (ix1 p) k))).trans ?_
    show max (z (reduces_S5000x2_S5000.lift (ix1 p) (0 : Fin 2))) (z (reduces_S5000x2_S5000.lift (ix1 p) (1 : Fin 2))) = _
    rw [lift_eq, lift_eq]
  rw [maximumf_apply, broadcast_apply, h.trans h2]
  show max (Ideal.ofBits .f32 0xFF800000#32) _ = _
  rw [ofBits_neg_inf, max_bot_left]

/-- The row sum whose logarithm is taken: the sum over the row's two entries. -/
theorem rowSum_apply (y : FVec Ideal S5000x2 .f32) (p : Fin 5000) :
    multiReduction .add [1] S5000 y 0x00000000#32 reduces_S5000x2_S5000 (.inl rfl) rfl (ix1 p)
      = ∑ k : Fin 2, y (ix2 p k) := by
  refine (Ideal.multiReduction_add_single y 0x00000000#32 reduces_S5000x2_S5000 (.inl rfl) rfl (ix1 p)).trans ?_
  exact Finset.sum_congr rfl fun k _ => congrArg y (lift_eq p k)

/-- The log-softmax part at a row and a column: the entry less the row maximum, less the logarithm of the row's sum of
    exponentials of such differences. -/
theorem post_apply (z : FVec Ideal S5000x2 .f32) (p : Fin 5000) (q : Fin 2) :
    post z (ix2 p q) = (z (ix2 p q) - max (z (ix2 p 0)) (z (ix2 p 1)))
      - Ideal.log (∑ k : Fin 2, Ideal.exp (z (ix2 p k) - max (z (ix2 p 0)) (z (ix2 p 1)))) := by
  have hm : ∀ k : Fin 2, subf z (broadcastTo S5000x2 (shapeCast S5000x1 (maximumf (broadcast S5000 (Scalar.ofBits (F := Ideal) .f32 0xFF800000#32))
        (multiReduction .maximumf [1] S5000 z 0xFF800000#32 reduces_S5000x2_S5000 (.inl rfl) rfl)) shapeCasts_S5000_S5000x1) broadcasts_S5000x1_S5000x2) (ix2 p k)
      = z (ix2 p k) - max (z (ix2 p 0)) (z (ix2 p 1)) := fun k => by
    rw [subf_apply, Cert.LibColumnForms.broadcastTo_a1_ab_apply, Cert.LibColumnForms.shapeCast_a_a1_apply, rowMax_apply]
  unfold post
  dsimp only
  rw [subf_apply, hm q, Cert.LibColumnForms.broadcastTo_a1_ab_apply]
  show _ - Ideal.log (shapeCast S5000x1 _ shapeCasts_S5000_S5000x1 (ix2 p (0 : Fin 1))) = _
  rw [Cert.LibColumnForms.shapeCast_a_a1_apply, rowSum_apply]
  refine congrArg (fun s => _ - Ideal.log s) (Finset.sum_congr rfl fun k _ => ?_)
  show Ideal.exp _ = _
  rw [hm k]

/-- The block's arithmetic at a row and a column of the block. -/
theorem pay_apply (v0 : Vec Ideal S5000x1 .f32) (v2 v4 : Vec Ideal S5000x16 .f32) (v10 : Vec Ideal S2 .f32) (p : Fin 5000) (q : Fin 2) :
    k3_pay1 (F := Ideal) v0 v2 v4 v10 (ix2 p q)
      = (zrow v0 v2 v4 v10 p q - max (zrow v0 v2 v4 v10 p 0) (zrow v0 v2 v4 v10 p 1))
        - Ideal.log (∑ k : Fin 2, Ideal.exp (zrow v0 v2 v4 v10 p k - max (zrow v0 v2 v4 v10 p 0) (zrow v0 v2 v4 v10 p 1))) := by
  rw [pay_eq, post_apply]
  simp only [pre_apply]

/-! ## From the blocks to the array -/

/-- One block's arithmetic, read at a row and a column of the block, is the log-softmax row of the last layer at the array row the
    block row sits on, when the loaded blocks are those rows of the four inputs. -/
theorem point_eq (x0 x1 : Vec Ideal S5000x16 .f32) (x2 : Vec Ideal S5000x1 .f32) (x3 : Vec Ideal S2 .f32)
    (conv hp : Fin 100000 → Fin 16 → EReal) (d : Fin 100000 → EReal) (b : Fin 2 → EReal)
    (p : Fin 5000) (q : Fin 2) (r : Fin 100000)
    (h0 : ∀ k : Fin 16, x0 (ix2 p k) = conv r k) (h1 : ∀ k : Fin 16, x1 (ix2 p k) = hp r k)
    (h2 : x2 (ix2 p (0 : Fin 1)) = d r) (h3 : ∀ k : Fin 2, x3 (ix1 k) = b k) :
    k3_pay1 (F := Ideal) x2 x0 x1 x3 (ix2 p q) = Cert.Gcn.lsm (Cert.Gcn.zFin d conv hp b) r q := by
  have hz : ∀ k : Fin 2, zrow x2 x0 x1 x3 p k = Cert.Gcn.zFin d conv hp b r k := fun k => by
    unfold zrow Cert.Gcn.zFin
    rw [h0, h1, h2, h3]
  rw [pay_apply]
  unfold Cert.Gcn.lsm
  simp only [hz]

variable (V : (c : Dev nD) → (b : Ref sig .tc) → Buf (Elt Ideal) ((c : Thread nD τ).loc b))

/-- The zero offsets of a whole-block access, however they are spelt. -/
theorem hz2 : (![0, 0] : Fin 2 → Nat) = fun _ => 0 := funext fun a => by fin_cases a <;> rfl
theorem hz1 : (![0] : Fin 1 → Nat) = fun _ => 0 := funext fun a => by fin_cases a; rfl

/-- The windows' index maps over the twenty grid points: every row-blocked window sits at block row `t`, column block 0,
    and the bias window at its one block. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 1) = 0
    ∧ win3_4.index t (0 : Fin 2) = t.val ∧ win3_4.index t (1 : Fin 2) = 0 :=
  (by decide +kernel : ∀ t : Fin grid3.N, _)

/-- The aggregate's block at point `t` is rows `5000 t … 5000 t + 4999` of the aggregate. -/
theorem blk0_apply (c : Dev nD) (t : Fin cfg3.N) (p : Fin 5000) (k : Fin 16) (r : Fin 100000) (hr : r.val = 5000 * t.val + p.val) :
    (iblk3 V c 0 t : Vec Ideal S5000x16 .f32) (ix2 p k) = (V c main_v29 : S100000x16.Idx → EReal) (ix2 r k) := by
  obtain ⟨e0, e1, -⟩ := idx_facts t
  unfold iblk3
  rw [View.read_apply]
  show V c main_v29 _ = V c main_v29 _
  refine congrArg _ (funext fun a => Fin.ext ?_)
  match a with
  | ⟨0, _⟩ => show win3_0.index t (0 : Fin 2) * 5000 + 1 * p.val = r.val; rw [e0, hr]; omega
  | ⟨1, _⟩ => show win3_0.index t (1 : Fin 2) * 16 + 1 * k.val = k.val; rw [e1]; omega

/-- The scaled rows' block at point `t` is the same rows of the scaled rows. -/
theorem blk1_apply (c : Dev nD) (t : Fin cfg3.N) (p : Fin 5000) (k : Fin 16) (r : Fin 100000) (hr : r.val = 5000 * t.val + p.val) :
    (iblk3 V c 1 t : Vec Ideal S5000x16 .f32) (ix2 p k) = (V c main_v25 : S100000x16.Idx → EReal) (ix2 r k) := by
  obtain ⟨-, -, e0, e1, -⟩ := idx_facts t
  unfold iblk3
  rw [View.read_apply]
  show V c main_v25 _ = V c main_v25 _
  refine congrArg _ (funext fun a => Fin.ext ?_)
  match a with
  | ⟨0, _⟩ => show win3_1.index t (0 : Fin 2) * 5000 + 1 * p.val = r.val; rw [e0, hr]; omega
  | ⟨1, _⟩ => show win3_1.index t (1 : Fin 2) * 16 + 1 * k.val = k.val; rw [e1]; omega

/-- The factor column's block at point `t` is the same rows of the column. -/
theorem blk2_apply (c : Dev nD) (t : Fin cfg3.N) (p : Fin 5000) (u : Fin 1) (r : Fin 100000) (hr : r.val = 5000 * t.val + p.val) :
    (iblk3 V c 2 t : Vec Ideal S5000x1 .f32) (ix2 p u) = (V c main_v11 : S100000x1.Idx → EReal) (ix2 r u) := by
  obtain ⟨-, -, -, -, e0, e1, -⟩ := idx_facts t
  unfold iblk3
  rw [View.read_apply]
  show V c main_v11 _ = V c main_v11 _
  refine congrArg _ (funext fun a => Fin.ext ?_)
  match a with
  | ⟨0, _⟩ => show win3_2.index t (0 : Fin 2) * 5000 + 1 * p.val = r.val; rw [e0, hr]; omega
  | ⟨1, _⟩ => show win3_2.index t (1 : Fin 2) * 1 + 1 * u.val = u.val; rw [e1]; omega

/-- The bias window's one block is the bias. -/
theorem blk3_apply (c : Dev nD) (t : Fin cfg3.N) (k : Fin 2) :
    (iblk3 V c 3 t : Vec Ideal S2 .f32) (ix1 k) = (V c main_arg7 : S2.Idx → EReal) (ix1 k) := by
  obtain ⟨-, -, -, -, -, -, e0, -⟩ := idx_facts t
  unfold iblk3
  rw [View.read_apply]
  show V c main_arg7 _ = V c main_arg7 _
  refine congrArg _ (funext fun a => Fin.ext ?_)
  match a with
  | ⟨0, _⟩ => show win3_3.index t (0 : Fin 1) * 2 + 1 * k.val = k.val; rw [e0]; omega

/-- What the output array ends holding: the row log-softmax of the last layer's two kept columns, as one function of the
    region's four input arrays. -/
def G (c : Dev nD) : S100000x2.Idx → EReal := fun idx =>
  Cert.Gcn.lsm (Cert.Gcn.zFin (fun i => (V c main_v11 : S100000x1.Idx → EReal) (ix2 i (0 : Fin 1)))
      (fun i k => (V c main_v29 : S100000x16.Idx → EReal) (ix2 i k)) (fun i k => (V c main_v25 : S100000x16.Idx → EReal) (ix2 i k))
      (fun k => (V c main_arg7 : S2.Idx → EReal) (ix1 k))) (idx 0) (idx 1)

/-- What point `t` writes back is block `t` of `G`. -/
theorem flushed_eq (c : Dev nD) (t : Fin cfg3.N) :
    (cfg3.win 4).cut (grid3.coords t) ((dat3 (F := Ideal) V c).after 4 t) = ((cfg3.win 4).blk t).view.read (Elt Ideal) (G V c) := by
  rw [after3_4]
  unfold out3_4
  rw [View.canon_unit_zero hz2]
  simp only [View.ld_unit_zero (S := S5000x16) hz2, View.ld_unit_zero (S := S5000x1) hz2, View.ld_unit_zero (S := S2) hz1]
  obtain ⟨-, -, -, -, -, -, -, e0, e1⟩ := idx_facts t
  have hN : cfg3.N = 20 := N_3
  have ht : t.val < 20 := by have := t.isLt; omega
  funext j
  obtain ⟨p, q, rfl⟩ : ∃ (p : Fin 5000) (q : Fin 2), j = ix2 p q := ⟨j 0, j 1, eq_ix2 j⟩
  have hp : p.val < 5000 := p.isLt
  have hr : ((cfg3.win 4).blk t).view.emb (ix2 p q) = ix2 (⟨5000 * t.val + p.val, by omega⟩ : Fin 100000) q :=
    funext fun a => Fin.ext (by
      match a with
      | ⟨0, _⟩ => show win3_4.index t (0 : Fin 2) * 5000 + 1 * p.val = 5000 * t.val + p.val; rw [e0]; omega
      | ⟨1, _⟩ => show win3_4.index t (1 : Fin 2) * 2 + 1 * q.val = q.val; rw [e1]; omega)
  show k3_pay1 (F := Ideal) (iblk3 V c 2 t) (iblk3 V c 0 t) (iblk3 V c 1 t) (iblk3 V c 3 t) (ix2 p q) = G V c (((cfg3.win 4).blk t).view.emb (ix2 p q))
  rw [hr]
  exact point_eq (iblk3 V c 0 t) (iblk3 V c 1 t) (iblk3 V c 2 t) (iblk3 V c 3 t) _ _ _ _ p q ⟨5000 * t.val + p.val, by omega⟩
    (fun k => blk0_apply V c t p k _ rfl) (fun k => blk1_apply V c t p k _ rfl) (blk2_apply V c t p 0 _ rfl) (fun k => blk3_apply V c t k)

/-- An index of the output array is in point `t`'s block iff each coordinate is in the block's range on its axis. -/
theorem mem_blk (t : Fin cfg3.N) (i : S100000x2.Idx) :
    i ∈ ((cfg3.win 4).blk t).view.set ↔ ∀ a : Fin 2, win3_4.index t a * S5000x2.size a ≤ (i a).val ∧ (i a).val < win3_4.index t a * S5000x2.size a + S5000x2.size a := by
  show i ∈ ((View.whole main_v30).slice (win3_4.rect t)).set ↔ _
  rw [View.set_slice_whole, Rect.mem_set_unit]
  exact Iff.rfl

/-- Row `r` of the output is covered by point `r / 5000`. -/
theorem cover (i : S100000x2.Idx) : ∃ t : Fin cfg3.N, (cfg3.win 4).flush t = true ∧ i ∈ ((cfg3.win 4).blk t).view.set := by
  have hi0 : (i 0).val < 100000 := (i 0).isLt
  have hi1 : (i 1).val < 2 := (i 1).isLt
  have hN : cfg3.N = 20 := N_3
  obtain ⟨t, htv⟩ : ∃ t : Fin cfg3.N, t.val = (i 0).val / 5000 := ⟨⟨(i 0).val / 5000, by omega⟩, rfl⟩
  obtain ⟨-, -, -, -, -, -, -, e0, e1⟩ := idx_facts t
  refine ⟨t, flush3_4 t, ?_⟩
  rw [mem_blk]
  intro a
  match a with
  | ⟨0, _⟩ => show win3_4.index t (0 : Fin 2) * 5000 ≤ (i 0).val ∧ (i 0).val < win3_4.index t (0 : Fin 2) * 5000 + 5000; rw [e0, htv]; omega
  | ⟨1, _⟩ => show win3_4.index t (1 : Fin 2) * 2 ≤ (i 1).val ∧ (i 1).val < win3_4.index t (1 : Fin 2) * 2 + 2; rw [e1]; omega

/-- The output array after the region's twenty points is `G`. -/
theorem final (c : Dev nD) : (dat3 (F := Ideal) V c).arrAt 4 cfg3.N = G V c :=
  (dat3 (F := Ideal) V c).arrAt_eq_of_cover 4 (G V c) (fun t _ => flushed_eq V c t) cover

/-- The region's output array read at an index: the row log-softmax of the last layer's two kept columns, of the region's
    input arrays. -/
theorem region3_value (c : Dev nD) (i : Fin 100000) (j : Fin 2) :
    ((dat3 (F := Ideal) V c).arrAt 4 cfg3.N : S100000x2.Idx → EReal) (ix2 i j)
      = Cert.Gcn.lsm (Cert.Gcn.zFin (fun i => (V c main_v11 : S100000x1.Idx → EReal) (ix2 i (0 : Fin 1)))
          (fun i k => (V c main_v29 : S100000x16.Idx → EReal) (ix2 i k)) (fun i k => (V c main_v25 : S100000x16.Idx → EReal) (ix2 i k))
          (fun k => (V c main_arg7 : S2.Idx → EReal) (ix1 k))) i j := by
  rw [final]
  rfl

end Cert.KernelIdeal.Region3

end
-- ==== Proof.KChain.lean ====
/-
  The kernel program's result as one function of its launch arguments.

  The program is seven stretches of host operations around four row-blocked regions. Its buffers at each boundary are
  named by the run (the contents when a region is entered or left); read boundary by boundary:
  the first stretch cuts the edge array into its source and destination words and forms the factor column
  `d(i) = (c(i) + 1)^(-1/2)`; region 0 leaves the first layer's scaled rows `(x·W1)(i,j)·d(i)`; between two regions the rows
  are gathered at the source words and summed into the destination rows (with every source word in the node range the
  gather's fill value is never taken); regions 1 and 2 add the node's own scaled row, scale, bias, clip and transform
  again; region 3 does the same without the transform on the first two of sixteen columns and takes the row log-softmax.
  Buffers that a later stretch or region reads are carried unchanged across the segments in between. Composed, the
  result buffer holds the first arrangement `outK` of the network.
-/
import proofs.«425015_j48112223650296_3_alg».proof.Proof.Gen.KernelIdeal.Frame
import proofs.«425015_j48112223650296_3_alg».proof.Proof.Spec
import proofs.«425015_j48112223650296_3_alg».proof.Proof.ReadBack
import proofs.«425015_j48112223650296_3_alg».proof.Proof.KHost0
import proofs.«425015_j48112223650296_3_alg».proof.Proof.KHost1
import proofs.«425015_j48112223650296_3_alg».proof.Proof.KHostW
import proofs.«425015_j48112223650296_3_alg».proof.Proof.Region0
import proofs.«425015_j48112223650296_3_alg».proof.Proof.Region1
import proofs.«425015_j48112223650296_3_alg».proof.Proof.Region2
import proofs.«425015_j48112223650296_3_alg».proof.Proof.Region3

noncomputable section

open Cert.KernelIdeal Cert.KernelIdeal.Gen Idealize.ShloMosaic Idealize.ShloMosaic.TcCoe Idealize.SL.Sem Idealize.ShloMosaic.ValueIdx

namespace Cert.KernelIdeal.KChain

open Cert.Gcn Cert.KernelIdeal.ReadBack

variable (m : (ℓ : Loc nD τ sig) → Buf (Elt Ideal) ℓ) (ρ : Dev nD → PrngReg) (c : Dev nD)

/-! ## The arguments as tables over node, edge and feature coordinates -/

/-- The node features. -/
def xA : Fin 100000 → Fin 128 → EReal := fun i k => (m ((c.tc : Thread nD τ).loc main_arg0) : S100000x128.Idx → EReal) (ix2 i k)
/-- The edges' source words and destination words: the two rows of the edge array. -/
def srcA : Fin 1600000 → BitVec 32 := fun e => (m ((c.tc : Thread nD τ).loc main_arg1) : S2x1600000.Idx → BitVec 32) (ix2 (0 : Fin 2) e)
def dstA : Fin 1600000 → BitVec 32 := fun e => (m ((c.tc : Thread nD τ).loc main_arg1) : S2x1600000.Idx → BitVec 32) (ix2 (1 : Fin 2) e)
/-- The three layers' weights and biases. -/
def W1A : Fin 128 → Fin 64 → EReal := fun k j => (m ((c.tc : Thread nD τ).loc main_arg2) : S128x64.Idx → EReal) (ix2 k j)
def b1A : Fin 64 → EReal := fun k => (m ((c.tc : Thread nD τ).loc main_arg3) : S64.Idx → EReal) (ix1 k)
def W2A : Fin 64 → Fin 64 → EReal := fun k j => (m ((c.tc : Thread nD τ).loc main_arg4) : S64x64.Idx → EReal) (ix2 k j)
def b2A : Fin 64 → EReal := fun k => (m ((c.tc : Thread nD τ).loc main_arg5) : S64.Idx → EReal) (ix1 k)
def W3A : Fin 64 → Fin 2 → EReal := fun k j => (m ((c.tc : Thread nD τ).loc main_arg6) : S64x2.Idx → EReal) (ix2 k j)
def b3A : Fin 2 → EReal := fun k => (m ((c.tc : Thread nD τ).loc main_arg7) : S2.Idx → EReal) (ix1 k)

/-! ## The edge words and the factor column, at every boundary where they are read -/

/-- After the first host stretch the source words are row 0 of the edge array. -/
theorem src_W1 : (fun e => (W1 m ρ c (Proc.devRef .tc main_v1) : S1600000.Idx → BitVec 32) (ix1 e)) = srcA m c := by
  funext e
  exact (KHost0.host0_src (W0 m ρ c) e).trans (by rw [arg1_W0 m ρ c]; rfl)
theorem dst_W1 : (fun e => (W1 m ρ c (Proc.devRef .tc main_v3) : S1600000.Idx → BitVec 32) (ix1 e)) = dstA m c := by
  funext e
  exact (KHost0.host0_dst (W0 m ρ c) e).trans (by rw [arg1_W0 m ρ c]; rfl)
/-- The factor column after the first host stretch is the factor of the destination words. -/
theorem d_W1 : (fun i => (W1 m ρ c (Proc.devRef .tc main_v11) : S100000x1.Idx → EReal) (ix2 i (0 : Fin 1))) = dK (dstA m c) := by
  funext i
  refine (KHost0.host0_dinv (W0 m ρ c) i).trans ?_
  rw [arg1_W0 m ρ c]; rfl

theorem src_W2 : (fun e => (W2 m ρ c (Proc.devRef .tc main_v1) : S1600000.Idx → BitVec 32) (ix1 e)) = srcA m c := by
  rw [v1_W2 m ρ c]; exact src_W1 m ρ c
theorem src_W5 : (fun e => (W5 m ρ c (Proc.devRef .tc main_v1) : S1600000.Idx → BitVec 32) (ix1 e)) = srcA m c := by
  rw [v1_W5 m ρ c]; exact src_W1 m ρ c
theorem src_W8 : (fun e => (W8 m ρ c (Proc.devRef .tc main_v1) : S1600000.Idx → BitVec 32) (ix1 e)) = srcA m c := by
  rw [v1_W8 m ρ c]; exact src_W1 m ρ c
theorem dst_W2 : (fun e => (W2 m ρ c (Proc.devRef .tc main_v3) : S1600000.Idx → BitVec 32) (ix1 e)) = dstA m c := by
  rw [v3_W2 m ρ c]; exact dst_W1 m ρ c
theorem dst_W5 : (fun e => (W5 m ρ c (Proc.devRef .tc main_v3) : S1600000.Idx → BitVec 32) (ix1 e)) = dstA m c := by
  rw [v3_W5 m ρ c]; exact dst_W1 m ρ c
theorem dst_W8 : (fun e => (W8 m ρ c (Proc.devRef .tc main_v3) : S1600000.Idx → BitVec 32) (ix1 e)) = dstA m c := by
  rw [v3_W8 m ρ c]; exact dst_W1 m ρ c
theorem d_W4 : (fun i => (W4 m ρ c (Proc.devRef .tc main_v11) : S100000x1.Idx → EReal) (ix2 i (0 : Fin 1))) = dK (dstA m c) := by
  rw [v11_W4 m ρ c]; exact d_W1 m ρ c
theorem d_W7 : (fun i => (W7 m ρ c (Proc.devRef .tc main_v11) : S100000x1.Idx → EReal) (ix2 i (0 : Fin 1))) = dK (dstA m c) := by
  rw [v11_W7 m ρ c]; exact d_W1 m ρ c
theorem d_W10 : (fun i => (W10 m ρ c (Proc.devRef .tc main_v11) : S100000x1.Idx → EReal) (ix2 i (0 : Fin 1))) = dK (dstA m c) := by
  rw [v11_W10 m ρ c]; exact d_W1 m ρ c

/-- The range hypothesis on the source words, at a boundary's copy of them. -/
theorem hsrc_at {W : Valuation τ sig (Elt Ideal)}
    (hW : (fun e => (W (Proc.devRef .tc main_v1) : S1600000.Idx → BitVec 32) (ix1 e)) = srcA m c)
    (hsrc : ∀ e, 0 ≤ (srcA m c e).toInt ∧ (srcA m c e).toInt < 100000) (e : Fin 1600000) :
    0 ≤ ((W (Proc.devRef .tc main_v1) : S1600000.Idx → BitVec 32) (ix1 e)).toInt
      ∧ ((W (Proc.devRef .tc main_v1) : S1600000.Idx → BitVec 32) (ix1 e)).toInt < 100000 := by
  have h : (W (Proc.devRef .tc main_v1) : S1600000.Idx → BitVec 32) (ix1 e) = srcA m c e := congrFun hW e
  rw [h]; exact hsrc e

/-! ## Layer by layer -/

section Layers

/-- Region 0 leaves the first layer's scaled rows. -/
theorem hp1_W2 : (fun i j => (W2 m ρ c (Proc.devRef .tc main_v12) : S100000x64.Idx → EReal) (ix2 i j)) = hp1 (xA m c) (dstA m c) (W1A m c) := by
  funext i j
  have h := Region0.region0_value (V1 m ρ) c i j
  rw [show W2 m ρ c (Proc.devRef .tc main_v12) = (dat0 (F := Ideal) (V1 m ρ) c).arrAt 3 cfg0.N from W2_arr m ρ c 3]
  refine h.trans ?_
  show linScale _ _ _ i j = linScale (xA m c) (W1A m c) (dK (dstA m c)) i j
  rw [show (fun i => (V1 m ρ c main_v11 : S100000x1.Idx → EReal) (ix2 i (0 : Fin 1))) = dK (dstA m c) from d_W1 m ρ c]
  rw [show (V1 m ρ c main_arg0) = m ((c : Thread nD τ).loc main_arg0) from arg0_W1 m ρ c,
      show (V1 m ρ c main_arg2) = m ((c : Thread nD τ).loc main_arg2) from arg2_W1 m ρ c]
  rfl
theorem hp1_W4 : (fun i j => (W4 m ρ c (Proc.devRef .tc main_v12) : S100000x64.Idx → EReal) (ix2 i j)) = hp1 (xA m c) (dstA m c) (W1A m c) := by
  rw [v12_W4 m ρ c]; exact hp1_W2 m ρ c

/-- The first aggregation. -/
theorem conv1_W4 (hsrc : ∀ e, 0 ≤ (srcA m c e).toInt ∧ (srcA m c e).toInt < 100000) :
    (fun i j => (W4 m ρ c (Proc.devRef .tc main_v16) : S100000x64.Idx → EReal) (ix2 i j)) = conv1 (xA m c) (srcA m c) (dstA m c) (W1A m c) := by
  funext i j
  refine (KHost1.host1_conv (W2 m ρ c) (hsrc_at m c (src_W2 m ρ c) hsrc) i j).trans ?_
  rw [src_W2 m ρ c, dst_W2 m ρ c, hp1_W2 m ρ c]; rfl

/-- Region 1 leaves the second layer's scaled rows. -/
theorem hp2_W5 (hsrc : ∀ e, 0 ≤ (srcA m c e).toInt ∧ (srcA m c e).toInt < 100000) :
    (fun i j => (W5 m ρ c (Proc.devRef .tc main_v17) : S100000x64.Idx → EReal) (ix2 i j)) = hp2 (xA m c) (srcA m c) (dstA m c) (W1A m c) (b1A m c) (W2A m c) := by
  funext i j
  rw [show W5 m ρ c (Proc.devRef .tc main_v17) = (dat1 (F := Ideal) (V4 m ρ) c).arrAt 5 cfg1.N from W5_arr m ρ c 5]
  refine (Region1.region1_value (V4 m ρ) c i j).trans ?_
  rw [show (fun i => (V4 m ρ c main_v11 : S100000x1.Idx → EReal) (ix2 i (0 : Fin 1))) = dK (dstA m c) from d_W4 m ρ c,
      show (fun i k => (V4 m ρ c main_v16 : S100000x64.Idx → EReal) (ix2 i k)) = _ from conv1_W4 m ρ c hsrc,
      show (fun i k => (V4 m ρ c main_v12 : S100000x64.Idx → EReal) (ix2 i k)) = _ from hp1_W4 m ρ c]
  rw [show (V4 m ρ c main_arg3) = m ((c : Thread nD τ).loc main_arg3) from arg3_W4 m ρ c,
      show (V4 m ρ c main_arg4) = m ((c : Thread nD τ).loc main_arg4) from arg4_W4 m ρ c]
  rfl
theorem hp2_W7 (hsrc : ∀ e, 0 ≤ (srcA m c e).toInt ∧ (srcA m c e).toInt < 100000) :
    (fun i j => (W7 m ρ c (Proc.devRef .tc main_v17) : S100000x64.Idx → EReal) (ix2 i j)) = hp2 (xA m c) (srcA m c) (dstA m c) (W1A m c) (b1A m c) (W2A m c) := by
  rw [v17_W7 m ρ c]; exact hp2_W5 m ρ c hsrc

/-- The second aggregation, and the last weight matrix filled to sixteen columns. -/
theorem conv2_W7 (hsrc : ∀ e, 0 ≤ (srcA m c e).toInt ∧ (srcA m c e).toInt < 100000) :
    (fun i j => (W7 m ρ c (Proc.devRef .tc main_v21) : S100000x64.Idx → EReal) (ix2 i j)) = conv2 (xA m c) (srcA m c) (dstA m c) (W1A m c) (b1A m c) (W2A m c) := by
  funext i j
  refine (KHost1.host2_conv (W5 m ρ c) (hsrc_at m c (src_W5 m ρ c) hsrc) i j).trans ?_
  rw [src_W5 m ρ c, dst_W5 m ρ c, hp2_W5 m ρ c hsrc]; rfl
theorem w3p_W7 : (fun k j => (W7 m ρ c (Proc.devRef .tc main_v24) : S64x16.Idx → EReal) (ix2 k j)) = W3p (W3A m c) := by
  funext k j
  refine (KHostW.host2_w3p (W5 m ρ c) k j).trans ?_
  rw [arg6_W5 m ρ c]; rfl

/-- Region 2 leaves the third layer's scaled rows, sixteen columns wide. -/
theorem hp3_W8 (hsrc : ∀ e, 0 ≤ (srcA m c e).toInt ∧ (srcA m c e).toInt < 100000) :
    (fun i j => (W8 m ρ c (Proc.devRef .tc main_v25) : S100000x16.Idx → EReal) (ix2 i j)) = hp3 (xA m c) (srcA m c) (dstA m c) (W1A m c) (b1A m c) (W2A m c) (b2A m c) (W3A m c) := by
  funext i j
  rw [show W8 m ρ c (Proc.devRef .tc main_v25) = (dat2 (F := Ideal) (V7 m ρ) c).arrAt 5 cfg2.N from W8_arr m ρ c 5]
  refine (Region2.region2_value (V7 m ρ) c i j).trans ?_
  rw [show (fun i => (V7 m ρ c main_v11 : S100000x1.Idx → EReal) (ix2 i (0 : Fin 1))) = dK (dstA m c) from d_W7 m ρ c,
      show (fun i k => (V7 m ρ c main_v21 : S100000x64.Idx → EReal) (ix2 i k)) = _ from conv2_W7 m ρ c hsrc,
      show (fun i k => (V7 m ρ c main_v17 : S100000x64.Idx → EReal) (ix2 i k)) = _ from hp2_W7 m ρ c hsrc,
      show (fun k j => (V7 m ρ c main_v24 : S64x16.Idx → EReal) (ix2 k j)) = _ from w3p_W7 m ρ c]
  rw [show (V7 m ρ c main_arg5) = m ((c : Thread nD τ).loc main_arg5) from arg5_W7 m ρ c]
  rfl
theorem hp3_W10 (hsrc : ∀ e, 0 ≤ (srcA m c e).toInt ∧ (srcA m c e).toInt < 100000) :
    (fun i j => (W10 m ρ c (Proc.devRef .tc main_v25) : S100000x16.Idx → EReal) (ix2 i j)) = hp3 (xA m c) (srcA m c) (dstA m c) (W1A m c) (b1A m c) (W2A m c) (b2A m c) (W3A m c) := by
  rw [v25_W10 m ρ c]; exact hp3_W8 m ρ c hsrc

/-- The third aggregation. -/
theorem conv3_W10 (hsrc : ∀ e, 0 ≤ (srcA m c e).toInt ∧ (srcA m c e).toInt < 100000) :
    (fun i j => (W10 m ρ c (Proc.devRef .tc main_v29) : S100000x16.Idx → EReal) (ix2 i j)) = conv3 (xA m c) (srcA m c) (dstA m c) (W1A m c) (b1A m c) (W2A m c) (b2A m c) (W3A m c) := by
  funext i j
  refine (KHost1.host3_conv (W8 m ρ c) (hsrc_at m c (src_W8 m ρ c) hsrc) i j).trans ?_
  rw [src_W8 m ρ c, dst_W8 m ρ c, hp3_W8 m ρ c hsrc]; rfl

/-- THE KERNEL PROGRAM'S RESULT: at the run's last boundary the result buffer holds, index by index, the first
    arrangement of the network over the launch arguments. -/
theorem kernel_value (hsrc : ∀ e, 0 ≤ (srcA m c e).toInt ∧ (srcA m c e).toInt < 100000) (i : Fin 100000) (j : Fin 2) :
    (W11 m ρ c (Proc.devRef .tc main_v30) : S100000x2.Idx → EReal) (ix2 i j)
      = outK (xA m c) (srcA m c) (dstA m c) (W1A m c) (b1A m c) (W2A m c) (b2A m c) (W3A m c) (b3A m c) i j := by
  rw [show W11 m ρ c (Proc.devRef .tc main_v30) = (dat3 (F := Ideal) (V10 m ρ) c).arrAt 4 cfg3.N from W11_arr m ρ c 4]
  refine (Region3.region3_value (V10 m ρ) c i j).trans ?_
  rw [show (fun i => (V10 m ρ c main_v11 : S100000x1.Idx → EReal) (ix2 i (0 : Fin 1))) = dK (dstA m c) from d_W10 m ρ c,
      show (fun i k => (V10 m ρ c main_v29 : S100000x16.Idx → EReal) (ix2 i k)) = _ from conv3_W10 m ρ c hsrc,
      show (fun i k => (V10 m ρ c main_v25 : S100000x16.Idx → EReal) (ix2 i k)) = _ from hp3_W10 m ρ c hsrc]
  rw [show (V10 m ρ c main_arg7) = m ((c : Thread nD τ).loc main_arg7) from arg7_W10 m ρ c]
  rfl

end Layers

end Cert.KernelIdeal.KChain

end
-- ==== Proof.RefNorm.lean ====
/-
  THE EDGE-LIST PART OF THE SECOND ARRANGEMENT, read index by index. Every value here is a function of the edge table
  alone: row 0 holds the source words, row 1 the destination words.

  The two extended lists are the source (destination) words followed by the node numbers `0, …, 99999`
  (`ref_srcF`, `ref_dstF`). A word with a negative reading is counted from the end before it is used as a row number
  (`ref_srcRow` and its three repetitions, `ref_dstRow`). The count at node `i` is the number of entries of the
  extended destination list whose word reads `i` (`ref_count`): an accumulating scatter of ones into a zero table adds
  one for every such entry and drops the entries whose word names no node. The factor is the reciprocal square root of
  the count where the count is positive and zero elsewhere (`ref_dinv`): a select on the comparison with zero. An
  entry's weight is the product of the factor read at its wrapped source word and at its wrapped destination word, each
  clamped into the node range as a take clamps its start index (`ref_norm`).
-/
import proofs.«425015_j48112223650296_3_alg».proof.Proof.RefRead
import proofs.«425015_j48112223650296_3_alg».proof.Proof.Spec
import proofs.«425015_j48112223650296_3_alg».proof.Proof.LibScatterRows
import Idealize.ShloMosaic.Lib.Pipeline.Value
import Idealize.ShloMosaic.Lib.ValueIdx
import Idealize.ShloMosaic.Lib.IdealHost
import Idealize.ShloMosaic.Lib.StableHlo.Predicate
import Idealize.ShloMosaic.PureOps.Ideal.Laws

noncomputable section

open scoped BigOperators

namespace Cert.ReferenceIdeal.RefNorm

open Cert.ReferenceIdeal Cert.ReferenceIdeal.Read Cert.ReferenceIdeal.Gen Idealize.ShloMosaic Idealize.ShloMosaic.ValueIdx

/-! ## The two extended word lists -/

/-- The first concatenation is the source words followed by the node numbers. -/
theorem ref_srcF (x1 : (⟨S2x1600000, .i32⟩ : BufTy).Contents (Elt Ideal)) (e' : Fin 1700000) :
    val_main_v5 (F := Ideal) x1 (ix1 e') = Cert.Gcn.ext (fun e => x1 (ix2 (0 : Fin 2) e)) e' := by
  unfold val_main_v5 Cert.Gcn.ext
  by_cases h : e'.val < 1600000
  · rw [dif_pos h,
      concatenate_pair_apply_left (t := S1700000) (s₁ := S1600000) (s₂ := S100000) (0 : Fin 1) _ _
        concatenates_S1600000_S100000_S1700000_d0 (ix1 e') rfl (ix1 ⟨e'.val, h⟩)
        (fun b => by match b with | ⟨0, _⟩ => rfl),
      val_main_v1_apply, val_main_v0_apply]
    congr 1
    funext a
    match a with
    | ⟨0, _⟩ => rfl
    | ⟨1, _⟩ => exact Fin.ext (Nat.mod_eq_of_lt h)
  · rw [dif_neg h,
      concatenate_pair_apply_right (t := S1700000) (s₁ := S1600000) (s₂ := S100000) (0 : Fin 1) _ _
        concatenates_S1600000_S100000_S1700000_d0 (ix1 e') rfl rfl (ix1 ⟨e'.val - 1600000, by omega⟩)
        (fun b hb => absurd (Subsingleton.elim _ _) hb)
        (by show (e'.val - 1600000) + 1600000 = e'.val; omega)]
    rfl

/-- The second concatenation is the destination words followed by the node numbers. -/
theorem ref_dstF (x1 : (⟨S2x1600000, .i32⟩ : BufTy).Contents (Elt Ideal)) (e' : Fin 1700000) :
    val_main_v6 (F := Ideal) x1 (ix1 e') = Cert.Gcn.ext (fun e => x1 (ix2 (1 : Fin 2) e)) e' := by
  unfold val_main_v6 Cert.Gcn.ext
  by_cases h : e'.val < 1600000
  · rw [dif_pos h,
      concatenate_pair_apply_left (t := S1700000) (s₁ := S1600000) (s₂ := S100000) (0 : Fin 1) _ _
        concatenates_S1600000_S100000_S1700000_d0 (ix1 e') rfl (ix1 ⟨e'.val, h⟩)
        (fun b => by match b with | ⟨0, _⟩ => rfl),
      val_main_v3_apply, val_main_v2_apply]
    congr 1
    funext a
    match a with
    | ⟨0, _⟩ => rfl
    | ⟨1, _⟩ => exact Fin.ext (Nat.mod_eq_of_lt h)
  · rw [dif_neg h,
      concatenate_pair_apply_right (t := S1700000) (s₁ := S1600000) (s₂ := S100000) (0 : Fin 1) _ _
        concatenates_S1600000_S100000_S1700000_d0 (ix1 e') rfl rfl (ix1 ⟨e'.val - 1600000, by omega⟩)
        (fun b hb => absurd (Subsingleton.elim _ _) hb)
        (by show (e'.val - 1600000) + 1600000 = e'.val; omega)]
    rfl

/-! ## The wrapped words -/

/-- A source word with a negative reading counted from the end: the select on "below zero" of the word plus the node
    count and the word itself. The same term is computed once for the factors and once for each layer's gather. -/
theorem ref_srcRow (x1 : (⟨S2x1600000, .i32⟩ : BufTy).Contents (Elt Ideal)) (e' : Fin 1700000) :
    val_main_v19 (F := Ideal) x1 (ix1 e') = Cert.Gcn.wrapW (Cert.Gcn.ext (fun e => x1 (ix2 (0 : Fin 2) e)) e') := by
  rw [val_main_v19_apply, val_main_v16_apply, val_main_v18_apply, val_main_v15_apply, val_main_v17_apply,
    val_main_c_apply, val_main_c_3_apply, ref_srcF]
  rfl

theorem ref_srcRow_v35 (x1 : (⟨S2x1600000, .i32⟩ : BufTy).Contents (Elt Ideal)) (e' : Fin 1700000) :
    val_main_v35 (F := Ideal) x1 (ix1 e') = Cert.Gcn.wrapW (Cert.Gcn.ext (fun e => x1 (ix2 (0 : Fin 2) e)) e') := by
  rw [val_main_v35_apply, val_main_v32_apply, val_main_v34_apply, val_main_v31_apply, val_main_v33_apply,
    val_main_c_6_apply, val_main_c_7_apply, ref_srcF]
  rfl

theorem ref_srcRow_v53 (x1 : (⟨S2x1600000, .i32⟩ : BufTy).Contents (Elt Ideal)) (e' : Fin 1700000) :
    val_main_v53 (F := Ideal) x1 (ix1 e') = Cert.Gcn.wrapW (Cert.Gcn.ext (fun e => x1 (ix2 (0 : Fin 2) e)) e') := by
  rw [val_main_v53_apply, val_main_v50_apply, val_main_v52_apply, val_main_v49_apply, val_main_v51_apply,
    val_main_c_9_apply, val_main_c_10_apply, ref_srcF]
  rfl

theorem ref_srcRow_v71 (x1 : (⟨S2x1600000, .i32⟩ : BufTy).Contents (Elt Ideal)) (e' : Fin 1700000) :
    val_main_v71 (F := Ideal) x1 (ix1 e') = Cert.Gcn.wrapW (Cert.Gcn.ext (fun e => x1 (ix2 (0 : Fin 2) e)) e') := by
  rw [val_main_v71_apply, val_main_v68_apply, val_main_v70_apply, val_main_v67_apply, val_main_v69_apply,
    val_main_c_12_apply, val_main_c_13_apply, ref_srcF]
  rfl

/-- The destination word wrapped the same way. -/
theorem ref_dstRow (x1 : (⟨S2x1600000, .i32⟩ : BufTy).Contents (Elt Ideal)) (e' : Fin 1700000) :
    val_main_v26 (F := Ideal) x1 (ix1 e') = Cert.Gcn.wrapW (Cert.Gcn.ext (fun e => x1 (ix2 (1 : Fin 2) e)) e') := by
  rw [val_main_v26_apply, val_main_v23_apply, val_main_v25_apply, val_main_v22_apply, val_main_v24_apply,
    val_main_c_4_apply, val_main_c_5_apply, ref_dstF]
  rfl

/-! ## The count of entries into a node, and the factor -/

/-- Row `e'` of a list laid out as a one-column table is entry `e'` of the list. -/
theorem col_row (e' : Fin 1700000) : idx_main_v9 (ix2 e' (0 : Fin 1)) = ix1 e' := by
  funext a; match a with | ⟨0, _⟩ => rfl

/-- The scatter of ones over the extended destination list into a zero table counts, at node `i`, the entries whose
    destination word reads `i`. -/
theorem ref_count (x1 : (⟨S2x1600000, .i32⟩ : BufTy).Contents (Elt Ideal)) (i : Fin 100000) :
    val_main_v10 (F := Ideal) x1 (ix1 i) = Cert.Gcn.degR (fun e => x1 (ix2 (1 : Fin 2) e)) i := by
  have h9 : ∀ e' : Fin 1700000, val_main_v9 (F := Ideal) x1 (ix2 e' (0 : Fin 1))
      = Cert.Gcn.ext (fun e => x1 (ix2 (1 : Fin 2) e)) e' := fun e' => by
    rw [val_main_v9_apply, col_row, ref_dstF]
  have h7 : ∀ e' : Fin 1700000, val_main_v7 (F := Ideal) (ix1 e') = 1 := fun e' => by
    rw [val_main_v7_apply, val_main_cst_apply, Ideal.ofBits_def, Ideal.ofBits_one_f32]
  have h8 : val_main_v8 (F := Ideal) (ix1 i) = 0 := by
    rw [val_main_v8_apply, val_main_cst_0_apply, Ideal.ofBits_def, Ideal.ofBits_zero_f32]
  unfold val_main_v10
  refine (scatterAdd_flat_apply (N := 100000) (E := 1700000)
    Facts₀.scatter_S100000_S1700000x1_S1700000_n_0_0_1_wf (val_main_v8 (F := Ideal)) (val_main_v9 (F := Ideal) x1)
    (val_main_v7 (F := Ideal)) i).trans ?_
  rw [h8, zero_add]
  simp only [h9, h7]
  unfold Cert.Gcn.degR Cert.Gcn.intoF
  rfl

/-- The factor: the reciprocal square root of the count where the count is positive, else zero. -/
theorem ref_dinv (x1 : (⟨S2x1600000, .i32⟩ : BufTy).Contents (Elt Ideal)) (i : Fin 100000) :
    val_main_v14 (F := Ideal) x1 (ix1 i) = Cert.Gcn.dR (fun e => x1 (ix2 (1 : Fin 2) e)) i := by
  rw [val_main_v14_apply, val_main_v12_apply, val_main_v13_apply, val_main_call0_v1_apply, val_main_call0_v0_apply,
    val_main_cst_2_apply, val_main_v11_apply, val_main_cst_1_apply, ref_count, Ideal.cmpf_def,
    Ideal.hostUnary_rsqrt_def, Ideal.ofBits_def, Ideal.ofBits_zero_f32]
  unfold Cert.Gcn.dR Ideal.cmp
  by_cases h : (0 : EReal) < Cert.Gcn.degR (fun e => x1 (ix2 (1 : Fin 2) e)) i
  · rw [if_pos h, decide_eq_true h]; exact select_one _ _
  · rw [if_neg h, decide_eq_false h]; exact select_zero _ _

/-! ## An entry's weight -/

/-- The rank-1 index at a coordinate, in its two spellings. -/
theorem ofFin_eq_ix1 {n : Nat} (k : Fin n) : Shape.Idx.ofFin k = ix1 k := by
  funext a; match a with | ⟨0, _⟩ => rfl

/-- Row `p` of a one-column table, in its two spellings. -/
theorem ixP_eq_ix2 {n : Nat} (p : Fin n) : StableHlo.Predicate.ixP p = ix2 p (0 : Fin 1) := by
  funext a; match a with | ⟨0, _⟩ => rfl | ⟨1, _⟩ => rfl

/-- The take of a table of 100000 entries at a one-column table of start indices reads, at entry `e'`, the table at
    the start word read signed and clamped into the node range. -/
theorem ref_take {α : Type} (x : S100000.Idx → α) (idx : IVec S1700000x1 32) (e' : Fin 1700000) :
    Host.gather gather_S100000_S1700000x1_S1700000_n_0_n_n_0_1_1 x idx (ix1 e')
      = x (ix1 (Cert.Gcn.rowOf (idx (ix2 e' (0 : Fin 1))))) := by
  have h := StableHlo.Predicate.gather_take gather_S100000_S1700000x1_S1700000_n_0_n_n_0_1_1 rfl rfl rfl rfl x idx e'
    (by omega)
  rw [ofFin_eq_ix1, ofFin_eq_ix1] at h
  refine h.trans (congrArg (fun k : Fin 100000 => x (ix1 k)) (Fin.ext ?_))
  show min (idx (StableHlo.Predicate.ixP e')).toInt.toNat (100000 - 1)
    = min (idx (ix2 e' (0 : Fin 1))).toInt.toNat 99999
  rw [ixP_eq_ix2]

/-- An entry's weight is the factor at its wrapped, clamped source row times the factor at its wrapped, clamped
    destination row. -/
theorem ref_norm (x1 : (⟨S2x1600000, .i32⟩ : BufTy).Contents (Elt Ideal)) (e' : Fin 1700000) :
    val_main_v29 (F := Ideal) x1 (ix1 e')
      = Cert.Gcn.normR (fun e => x1 (ix2 (0 : Fin 2) e)) (fun e => x1 (ix2 (1 : Fin 2) e)) e' := by
  have c20 : idx_main_v20 (ix2 e' (0 : Fin 1)) = ix1 e' := by funext a; match a with | ⟨0, _⟩ => rfl
  have c27 : idx_main_v27 (ix2 e' (0 : Fin 1)) = ix1 e' := by funext a; match a with | ⟨0, _⟩ => rfl
  rw [val_main_v29_apply, Ideal.mulf_def]
  unfold val_main_v21 val_main_v28 Cert.Gcn.normR
  rw [ref_take, ref_take, val_main_v20_apply, val_main_v27_apply, c20, c27, ref_srcRow, ref_dstRow, ref_dinv, ref_dinv]

end Cert.ReferenceIdeal.RefNorm

end
-- ==== Proof.RefValue.lean ====
/-
  THE REFERENCE'S RESULT IS THE SECOND ARRANGEMENT. The reference's last buffer, read at node `i` and column `j`, is the
  row log-softmax of the third of three layers, each layer the second arrangement's: the rows of the dense transform
  `a · W` are gathered at the wrapped source words of the extended edge list, each gathered row is weighted by its
  entry's factor `d(src) · d(dst)`, the weighted rows are accumulated at the destination words into zeros, and the
  bias is added; between layers the clip below at zero.

  One lemma reads a layer over its tables as variables: a gathered row is the row its word selects (read signed,
  clamped into the node range), an accumulated row lands on the node its destination word reads as (unclamped), so the
  layer at `(i, j)` is the sum over the entries into `i` of the selected row's column `j` times the entry's weight, plus
  the bias. It is used three times, with the layer's dense transform read as the sum over the contracted index. The
  row maximum is the fold of `max` from negative infinity over the two columns, so the larger of the two entries; the
  program takes the larger of that and negative infinity once more, which changes nothing; the sum of exponentials
  starts from zero, which adds nothing.
-/
import proofs.«425015_j48112223650296_3_alg».proof.Proof.RefNorm
import proofs.«425015_j48112223650296_3_alg».proof.Proof.RefRead
import proofs.«425015_j48112223650296_3_alg».proof.Proof.Spec
import proofs.«425015_j48112223650296_3_alg».proof.Proof.LibScatterRows
import proofs.«425015_j48112223650296_3_alg».proof.Proof.LibGatherRows
import Idealize.ShloMosaic.Lib.ValueIdx
import Idealize.ShloMosaic.PureOps.Ideal.Laws
import Idealize.ShloMosaic.PureOps.Reduce

noncomputable section

open scoped BigOperators

namespace Cert.ReferenceIdeal.RefValue

open Cert.ReferenceIdeal Cert.ReferenceIdeal.Gen Cert.ReferenceIdeal.Read Cert.ReferenceIdeal.RefNorm
open Idealize.ShloMosaic Idealize.ShloMosaic.ValueIdx Cert.Gcn

/-! ## One layer before its clip, over the layer's tables as variables -/

/-- ONE LAYER BEFORE ITS CLIP, read at `(i, j)`. The transformed rows `t` are gathered at a column of row words, each
    gathered row is weighted entry by entry, the weighted rows are accumulated at a column of destination words into
    a table of zeros, and a bias row is added. A gathered row is the one its word selects, read signed and clamped into
    the node range; an accumulated row lands on the node its destination word reads as, unclamped. So the result is
    the sum, over the entries whose destination word is `i`, of the selected row's column `j` times the entry's
    weight, plus the bias: the second arrangement's layer. -/
theorem layer_apply {K C : Nat}
    (wfG : GatherDims.WF ⟨2, ![100000, C]⟩ ⟨2, ![1700000, 1]⟩ ⟨2, ![1700000, C]⟩ [1] [0] [] [0] [] 1 ![1, C])
    (wfS : ScatterDims.WF ⟨2, ![100000, C]⟩ ⟨2, ![1700000, 1]⟩ ⟨2, ![1700000, C]⟩ [1] [0] [0] 1)
    (src dst : Fin NE → BitVec 32) (a : Fin NN → Fin K → EReal) (W : Fin K → Fin C → EReal) (b : Fin C → EReal)
    (t : FVec Ideal ⟨2, ![100000, C]⟩ .f32) (srcCol dstCol : IVec ⟨2, ![1700000, 1]⟩ 32)
    (nb : FVec Ideal ⟨2, ![1700000, C]⟩ .f32) (z bb : FVec Ideal ⟨2, ![100000, C]⟩ .f32)
    (ht : ∀ (r : Fin 100000) (j : Fin C), t (ix2 r j) = lin a W r j)
    (hs : ∀ e : Fin 1700000, srcCol (ix2 e (0 : Fin 1)) = wrapW (ext src e))
    (hd : ∀ e : Fin 1700000, dstCol (ix2 e (0 : Fin 1)) = ext dst e)
    (hn : ∀ (e : Fin 1700000) (j : Fin C), nb (ix2 e j) = normR src dst e)
    (hz : ∀ (i : Fin 100000) (j : Fin C), z (ix2 i j) = 0)
    (hb : ∀ (i : Fin 100000) (j : Fin C), bb (ix2 i j) = b j)
    (i : Fin 100000) (j : Fin C) :
    addf (Host.scatterAdd (F := Ideal) (rowsScatterDims 100000 1700000 C wfS) z dstCol
        (mulf (Host.gather (rowsDims 100000 1700000 C wfG) t srcCol) nb)) bb (ix2 i j)
      = convR src dst a W b i j := by
  rw [addf_apply]
  rw [scatterAdd_rows_apply wfS z dstCol _ i j]
  rw [hz]
  rw [hb]
  unfold convR intoF
  refine congrArg (· + b j) ((zero_add _).trans ?_)
  refine Finset.sum_congr ?_ ?_
  · simp only [hd]
  · intro e _
    rw [mulf_apply, gather_rows_apply (by decide), hn, ht]
    refine congrArg (fun r => lin a W r j * normR src dst e) (Fin.ext ?_)
    show min (srcCol (ix2 e (0 : Fin 1))).toInt.toNat (100000 - 1) = min (wrapW (ext src e)).toInt.toNat 99999
    rw [hs]

/-! ## The row maximum of a two-column table -/

/-- The word of f32's negative infinity is the bottom of the extended reals. -/
theorem ofBits_neg_inf_f32 : Ideal.ofBits .f32 0xFF800000#32 = ⊥ := by simp [Ideal.ofBits, Ideal.ieee]

/-- The fold of `max` from the bottom over two entries is the larger of the two. -/
theorem fold_max_two (f : Fin 2 → EReal) : (Finset.univ : Finset (Fin 2)).fold max ⊥ f = max (f 0) (f 1) := by
  rw [show (Finset.univ : Finset (Fin 2)) = {0, 1} from rfl, Finset.fold_insert (by decide), Finset.fold_singleton,
    max_bot_right]

/-- The maximum over the two columns of row `i`, taken from the bottom: the larger of the row's two entries. -/
theorem rowMax_apply (h' : (⟨2, ![100000, 2]⟩ : Shape).ReducesTo [1] ⟨1, ![100000]⟩)
    (hu : 0 < (⟨0, ![]⟩ : Shape).numel)
    (z : FVec Ideal ⟨2, ![100000, 2]⟩ .f32) (init : FVec Ideal ⟨0, ![]⟩ .f32) (hinit : ∀ q, init q = ⊥) (i : Fin 100000) :
    Host.reduce (FloatOps.maximumf (F := Ideal) (φ := .f32)) z init h' hu (ix1 i) = max (z (ix2 i 0)) (z (ix2 i 1)) := by
  have h : (⟨2, ![100000, 2]⟩ : Shape).Reduces [(1 : Fin 2)] ⟨1, ![100000]⟩ := by decide
  rw [Host.reduce_eq_fold_single FloatOps.maximumf z init h' h hu, hinit]
  refine (fold_max_two _).trans ?_
  have e : ∀ k : Fin 2, h.lift (ix1 i) k = ix2 i k := fun k => funext fun c => Fin.ext (by
    match c with
    | ⟨0, _⟩ => rfl
    | ⟨1, _⟩ => rfl)
  show max (z (h.lift (ix1 i) (0 : Fin 2))) (z (h.lift (ix1 i) (1 : Fin 2))) = _
  rw [e, e]

/-! ## Three scalar steps: the literals' values -/

/-- The larger of negative infinity's word and `a` is `a`. -/
theorem max_neg_inf (a : EReal) :
    FloatOps.maximumf (F := Ideal) (φ := .f32) (FloatOps.ofBits .f32 0xFF800000#32) a = a := by
  show max (Ideal.ofBits .f32 0xFF800000#32) a = a
  rw [ofBits_neg_inf_f32]
  exact max_bot_left a

/-- The clip below at the zero word is the clip below at zero. -/
theorem max_zero_word (a : EReal) :
    FloatOps.maximumf (F := Ideal) (φ := .f32) a (FloatOps.ofBits .f32 0x00000000#32) = max a 0 :=
  congrArg (max a) Ideal.ofBits_zero_f32

/-- Less the logarithm of a sum taken from the zero word: less the logarithm of the sum. -/
theorem sub_log_zero_add (a s : EReal) :
    FloatOps.subf (F := Ideal) (φ := .f32) a
        (FloatOps.hostUnary .log (FloatOps.ofBits (F := Ideal) .f32 0x00000000#32 + s))
      = a - Ideal.log s := by
  show a - Ideal.log (Ideal.ofBits .f32 0x00000000#32 + s) = _
  rw [Ideal.ofBits_zero_f32, zero_add]

/-! ## The program's arguments as the specification's tables -/

section Program

variable (x0 : (⟨S100000x128, .f32⟩ : BufTy).Contents (Elt Ideal)) (x1 : (⟨S2x1600000, .i32⟩ : BufTy).Contents (Elt Ideal))
  (x2 : (⟨S128x64, .f32⟩ : BufTy).Contents (Elt Ideal)) (x3 : (⟨S64, .f32⟩ : BufTy).Contents (Elt Ideal))
  (x4 : (⟨S64x64, .f32⟩ : BufTy).Contents (Elt Ideal)) (x5 : (⟨S64, .f32⟩ : BufTy).Contents (Elt Ideal))
  (x6 : (⟨S64x2, .f32⟩ : BufTy).Contents (Elt Ideal)) (x7 : (⟨S2, .f32⟩ : BufTy).Contents (Elt Ideal))

/-- The node features, the two rows of the edge list, and the three layers' weights and biases. -/
abbrev tX : Fin NN → Fin 128 → EReal := fun i k => x0 (ix2 i k)
abbrev tSrc : Fin NE → BitVec 32 := fun e => x1 (ix2 (0 : Fin 2) e)
abbrev tDst : Fin NE → BitVec 32 := fun e => x1 (ix2 (1 : Fin 2) e)
abbrev tW1 : Fin 128 → Fin 64 → EReal := fun k j => x2 (ix2 k j)
abbrev tb1 : Fin 64 → EReal := fun k => x3 (ix1 k)
abbrev tW2 : Fin 64 → Fin 64 → EReal := fun k j => x4 (ix2 k j)
abbrev tb2 : Fin 64 → EReal := fun k => x5 (ix1 k)
abbrev tW3 : Fin 64 → Fin 2 → EReal := fun k j => x6 (ix2 k j)
abbrev tb3 : Fin 2 → EReal := fun k => x7 (ix1 k)

/-! ## What the three layers share: the destination column, the weights, the zeros -/

/-- Layer one's destination column is the extended destination list. -/
theorem dstCol42 (e : Fin 1700000) : val_main_v42 (F := Ideal) x1 (ix2 e (0 : Fin 1)) = ext (tDst x1) e := by
  rw [val_main_v42_apply, show idx_main_v42 (ix2 e (0 : Fin 1)) = ix1 e from
    funext fun a => Fin.ext (by match a with | ⟨0, _⟩ => rfl)]
  exact ref_dstF x1 e
/-- Layer two's. -/
theorem dstCol60 (e : Fin 1700000) : val_main_v60 (F := Ideal) x1 (ix2 e (0 : Fin 1)) = ext (tDst x1) e := by
  rw [val_main_v60_apply, show idx_main_v60 (ix2 e (0 : Fin 1)) = ix1 e from
    funext fun a => Fin.ext (by match a with | ⟨0, _⟩ => rfl)]
  exact ref_dstF x1 e
/-- Layer three's. -/
theorem dstCol78 (e : Fin 1700000) : val_main_v78 (F := Ideal) x1 (ix2 e (0 : Fin 1)) = ext (tDst x1) e := by
  rw [val_main_v78_apply, show idx_main_v78 (ix2 e (0 : Fin 1)) = ix1 e from
    funext fun a => Fin.ext (by match a with | ⟨0, _⟩ => rfl)]
  exact ref_dstF x1 e

/-- Layer one's column of row words is the extended source list, each word wrapped. -/
theorem srcCol36 (e : Fin 1700000) :
    val_main_v36 (F := Ideal) x1 (ix2 e (0 : Fin 1)) = wrapW (ext (tSrc x1) e) := by
  rw [val_main_v36_apply, show idx_main_v36 (ix2 e (0 : Fin 1)) = ix1 e from
    funext fun a => Fin.ext (by match a with | ⟨0, _⟩ => rfl)]
  exact ref_srcRow_v35 x1 e
/-- Layer two's. -/
theorem srcCol54 (e : Fin 1700000) :
    val_main_v54 (F := Ideal) x1 (ix2 e (0 : Fin 1)) = wrapW (ext (tSrc x1) e) := by
  rw [val_main_v54_apply, show idx_main_v54 (ix2 e (0 : Fin 1)) = ix1 e from
    funext fun a => Fin.ext (by match a with | ⟨0, _⟩ => rfl)]
  exact ref_srcRow_v53 x1 e
/-- Layer three's. -/
theorem srcCol72 (e : Fin 1700000) :
    val_main_v72 (F := Ideal) x1 (ix2 e (0 : Fin 1)) = wrapW (ext (tSrc x1) e) := by
  rw [val_main_v72_apply, show idx_main_v72 (ix2 e (0 : Fin 1)) = ix1 e from
    funext fun a => Fin.ext (by match a with | ⟨0, _⟩ => rfl)]
  exact ref_srcRow_v71 x1 e

/-- Layer one's weights, broadcast along the row: entry `(e, j)` is entry `e`'s weight. -/
theorem norm39 (e : Fin 1700000) (j : Fin 64) :
    val_main_v39 (F := Ideal) x1 (ix2 e j) = normR (tSrc x1) (tDst x1) e := by
  rw [val_main_v39_apply, val_main_v38_apply, show idx_main_v38 (idx_main_v39 (ix2 e j)) = ix1 e from
    funext fun a => Fin.ext (by match a with | ⟨0, _⟩ => rfl)]
  exact ref_norm x1 e
/-- Layer two's. -/
theorem norm57 (e : Fin 1700000) (j : Fin 64) :
    val_main_v57 (F := Ideal) x1 (ix2 e j) = normR (tSrc x1) (tDst x1) e := by
  rw [val_main_v57_apply, val_main_v56_apply, show idx_main_v56 (idx_main_v57 (ix2 e j)) = ix1 e from
    funext fun a => Fin.ext (by match a with | ⟨0, _⟩ => rfl)]
  exact ref_norm x1 e
/-- Layer three's. -/
theorem norm75 (e : Fin 1700000) (j : Fin 2) :
    val_main_v75 (F := Ideal) x1 (ix2 e j) = normR (tSrc x1) (tDst x1) e := by
  rw [val_main_v75_apply, val_main_v74_apply, show idx_main_v74 (idx_main_v75 (ix2 e j)) = ix1 e from
    funext fun a => Fin.ext (by match a with | ⟨0, _⟩ => rfl)]
  exact ref_norm x1 e

/-- The tables the rows are accumulated into are zero. -/
theorem zeros41 (i : Fin 100000) (j : Fin 64) : val_main_v41 (F := Ideal) (ix2 i j) = 0 := by
  rw [val_main_v41_apply, val_main_cst_8_apply]; exact Ideal.ofBits_zero_f32
theorem zeros59 (i : Fin 100000) (j : Fin 64) : val_main_v59 (F := Ideal) (ix2 i j) = 0 := by
  rw [val_main_v59_apply, val_main_cst_11_apply]; exact Ideal.ofBits_zero_f32
theorem zeros77 (i : Fin 100000) (j : Fin 2) : val_main_v77 (F := Ideal) (ix2 i j) = 0 := by
  rw [val_main_v77_apply, val_main_cst_14_apply]; exact Ideal.ofBits_zero_f32

/-- The bias rows, broadcast down the nodes: entry `(i, j)` is the bias's entry `j`. -/
theorem bias45 (i : Fin 100000) (j : Fin 64) : val_main_v45 (F := Ideal) x3 (ix2 i j) = tb1 x3 j := by
  rw [val_main_v45_apply, val_main_v44_apply, show idx_main_v44 (idx_main_v45 (ix2 i j)) = ix1 j from
    funext fun a => Fin.ext (by match a with | ⟨0, _⟩ => rfl)]
theorem bias63 (i : Fin 100000) (j : Fin 64) : val_main_v63 (F := Ideal) x5 (ix2 i j) = tb2 x5 j := by
  rw [val_main_v63_apply, val_main_v62_apply, show idx_main_v62 (idx_main_v63 (ix2 i j)) = ix1 j from
    funext fun a => Fin.ext (by match a with | ⟨0, _⟩ => rfl)]
theorem bias81 (i : Fin 100000) (j : Fin 2) : val_main_v81 (F := Ideal) x7 (ix2 i j) = tb3 x7 j := by
  rw [val_main_v81_apply, val_main_v80_apply, show idx_main_v80 (idx_main_v81 (ix2 i j)) = ix1 j from
    funext fun a => Fin.ext (by match a with | ⟨0, _⟩ => rfl)]

/-! ## The first layer -/

/-- The first dense transform: row `r` of the features against column `j` of the first weights. -/
theorem dense30 (r : Fin 100000) (j : Fin 64) :
    val_main_v30 (F := Ideal) x0 x2 (ix2 r j) = lin (tX x0) (tW1 x2) r j := by
  rw [val_main_v30_apply]
  refine Finset.sum_congr rfl fun k _ => ?_
  rw [show lidx_main_v30 (ix2 r j) k = ix2 r k from
      funext fun a => Fin.ext (by match a with | ⟨0, _⟩ => rfl | ⟨1, _⟩ => rfl),
    show ridx_main_v30 (ix2 r j) k = ix2 k j from
      funext fun a => Fin.ext (by match a with | ⟨0, _⟩ => rfl | ⟨1, _⟩ => rfl)]

/-- The first layer before its clip. -/
theorem ref_h1 (i : Fin 100000) (k : Fin 64) :
    val_main_v46 (F := Ideal) x0 x1 x2 x3 (ix2 i k)
      = h1 (tX x0) (tSrc x1) (tDst x1) (tW1 x2) (tb1 x3) i k := by
  unfold val_main_v46 val_main_v43 val_main_v40 val_main_v37
  exact layer_apply (K := 128) (C := 64)
    Cert.ReferenceIdeal.Gen.gather_S100000x64_S1700000x1_S1700000x64_1_0_n_n_0_1_164_wf
    Cert.ReferenceIdeal.Gen.scatter_S100000x64_S1700000x1_S1700000x64_1_0_0_1_wf
    (tSrc x1) (tDst x1) (tX x0) (tW1 x2) (tb1 x3)
    (val_main_v30 (F := Ideal) x0 x2) (val_main_v36 (F := Ideal) x1) (val_main_v42 (F := Ideal) x1)
    (val_main_v39 (F := Ideal) x1) (val_main_v41 (F := Ideal)) (val_main_v45 (F := Ideal) x3)
    (dense30 x0 x2) (srcCol36 x1) (dstCol42 x1) (norm39 x1) zeros41 (bias45 x3) i k

/-- The first layer's activation. -/
theorem ref_a1 (i : Fin 100000) (k : Fin 64) :
    val_main_v47 (F := Ideal) x0 x1 x2 x3 (ix2 i k)
      = relu (h1 (tX x0) (tSrc x1) (tDst x1) (tW1 x2) (tb1 x3)) i k := by
  rw [val_main_v47_apply, val_main_call1_v0_apply, val_main_call1_cst_apply, ref_h1]
  exact max_zero_word _

/-! ## The second layer -/

/-- The second dense transform: row `r` of the first activation against column `j` of the second weights. -/
theorem dense48 (r : Fin 100000) (j : Fin 64) :
    val_main_v48 (F := Ideal) x0 x1 x2 x3 x4 (ix2 r j)
      = lin (relu (h1 (tX x0) (tSrc x1) (tDst x1) (tW1 x2) (tb1 x3))) (tW2 x4) r j := by
  rw [val_main_v48_apply]
  refine Finset.sum_congr rfl fun k _ => ?_
  rw [show lidx_main_v48 (ix2 r j) k = ix2 r k from
      funext fun a => Fin.ext (by match a with | ⟨0, _⟩ => rfl | ⟨1, _⟩ => rfl),
    show ridx_main_v48 (ix2 r j) k = ix2 k j from
      funext fun a => Fin.ext (by match a with | ⟨0, _⟩ => rfl | ⟨1, _⟩ => rfl), ref_a1]

/-- The second layer before its clip. -/
theorem ref_h2 (i : Fin 100000) (k : Fin 64) :
    val_main_v64 (F := Ideal) x0 x1 x2 x3 x4 x5 (ix2 i k)
      = h2 (tX x0) (tSrc x1) (tDst x1) (tW1 x2) (tb1 x3) (tW2 x4) (tb2 x5) i k := by
  unfold val_main_v64 val_main_v61 val_main_v58 val_main_v55
  exact layer_apply (K := 64) (C := 64)
    Cert.ReferenceIdeal.Gen.gather_S100000x64_S1700000x1_S1700000x64_1_0_n_n_0_1_164_wf
    Cert.ReferenceIdeal.Gen.scatter_S100000x64_S1700000x1_S1700000x64_1_0_0_1_wf
    (tSrc x1) (tDst x1) (relu (h1 (tX x0) (tSrc x1) (tDst x1) (tW1 x2) (tb1 x3))) (tW2 x4) (tb2 x5)
    (val_main_v48 (F := Ideal) x0 x1 x2 x3 x4) (val_main_v54 (F := Ideal) x1) (val_main_v60 (F := Ideal) x1)
    (val_main_v57 (F := Ideal) x1) (val_main_v59 (F := Ideal)) (val_main_v63 (F := Ideal) x5)
    (dense48 x0 x1 x2 x3 x4) (srcCol54 x1) (dstCol60 x1) (norm57 x1) zeros59 (bias63 x5) i k

/-- The second layer's activation. -/
theorem ref_a2 (i : Fin 100000) (k : Fin 64) :
    val_main_v65 (F := Ideal) x0 x1 x2 x3 x4 x5 (ix2 i k)
      = relu (h2 (tX x0) (tSrc x1) (tDst x1) (tW1 x2) (tb1 x3) (tW2 x4) (tb2 x5)) i k := by
  rw [val_main_v65_apply, val_main_call2_v0_apply, val_main_call2_cst_apply, ref_h2]
  exact max_zero_word _

/-! ## The third layer -/

/-- The third dense transform: row `r` of the second activation against column `j` of the third weights. -/
theorem dense66 (r : Fin 100000) (j : Fin 2) :
    val_main_v66 (F := Ideal) x0 x1 x2 x3 x4 x5 x6 (ix2 r j)
      = lin (relu (h2 (tX x0) (tSrc x1) (tDst x1) (tW1 x2) (tb1 x3) (tW2 x4) (tb2 x5))) (tW3 x6) r j := by
  rw [val_main_v66_apply]
  refine Finset.sum_congr rfl fun k _ => ?_
  rw [show lidx_main_v66 (ix2 r j) k = ix2 r k from
      funext fun a => Fin.ext (by match a with | ⟨0, _⟩ => rfl | ⟨1, _⟩ => rfl),
    show ridx_main_v66 (ix2 r j) k = ix2 k j from
      funext fun a => Fin.ext (by match a with | ⟨0, _⟩ => rfl | ⟨1, _⟩ => rfl), ref_a2]

/-- The third layer: the two columns the log-softmax is taken of. -/
theorem ref_h3 (i : Fin 100000) (j : Fin 2) :
    val_main_v82 (F := Ideal) x0 x1 x2 x3 x4 x5 x6 x7 (ix2 i j)
      = h3 (tX x0) (tSrc x1) (tDst x1) (tW1 x2) (tb1 x3) (tW2 x4) (tb2 x5) (tW3 x6) (tb3 x7) i j := by
  unfold val_main_v82 val_main_v79 val_main_v76 val_main_v73
  exact layer_apply (K := 64) (C := 2)
    Cert.ReferenceIdeal.Gen.gather_S100000x2_S1700000x1_S1700000x2_1_0_n_n_0_1_12_wf
    Cert.ReferenceIdeal.Gen.scatter_S100000x2_S1700000x1_S1700000x2_1_0_0_1_wf
    (tSrc x1) (tDst x1) (relu (h2 (tX x0) (tSrc x1) (tDst x1) (tW1 x2) (tb1 x3) (tW2 x4) (tb2 x5))) (tW3 x6) (tb3 x7)
    (val_main_v66 (F := Ideal) x0 x1 x2 x3 x4 x5 x6) (val_main_v72 (F := Ideal) x1) (val_main_v78 (F := Ideal) x1)
    (val_main_v75 (F := Ideal) x1) (val_main_v77 (F := Ideal)) (val_main_v81 (F := Ideal) x7)
    (dense66 x0 x1 x2 x3 x4 x5 x6) (srcCol72 x1) (dstCol78 x1) (norm75 x1) zeros77 (bias81 x7) i j

/-! ## The row log-softmax -/

/-- The row's maximum, as the program takes it: the larger of the bottom and the maximum over the row from the bottom. -/
theorem ref_rowMax (i : Fin 100000) :
    val_main_call3_v2 (F := Ideal) x0 x1 x2 x3 x4 x5 x6 x7 (ix1 i)
      = max (h3 (tX x0) (tSrc x1) (tDst x1) (tW1 x2) (tb1 x3) (tW2 x4) (tb2 x5) (tW3 x6) (tb3 x7) i 0)
          (h3 (tX x0) (tSrc x1) (tDst x1) (tW1 x2) (tb1 x3) (tW2 x4) (tb2 x5) (tW3 x6) (tb3 x7) i 1) := by
  rw [val_main_call3_v2_apply, val_main_call3_v1_apply, val_main_call3_cst_0_apply]
  unfold val_main_call3_v0
  rw [rowMax_apply _ _ (val_main_v82 (F := Ideal) x0 x1 x2 x3 x4 x5 x6 x7) (val_main_call3_cst (F := Ideal))
    (fun _ => ofBits_neg_inf_f32) i, ref_h3, ref_h3]
  exact max_neg_inf _

/-- A row's entry less the row's maximum. -/
theorem ref_shift (i : Fin 100000) (j : Fin 2) :
    val_main_call3_v5 (F := Ideal) x0 x1 x2 x3 x4 x5 x6 x7 (ix2 i j)
      = h3 (tX x0) (tSrc x1) (tDst x1) (tW1 x2) (tb1 x3) (tW2 x4) (tb2 x5) (tW3 x6) (tb3 x7) i j
        - max (h3 (tX x0) (tSrc x1) (tDst x1) (tW1 x2) (tb1 x3) (tW2 x4) (tb2 x5) (tW3 x6) (tb3 x7) i 0)
            (h3 (tX x0) (tSrc x1) (tDst x1) (tW1 x2) (tb1 x3) (tW2 x4) (tb2 x5) (tW3 x6) (tb3 x7) i 1) := by
  rw [val_main_call3_v5_apply, val_main_call3_v4_apply, val_main_call3_v3_apply,
    show idx_main_call3_v3 (idx_main_call3_v4 (ix2 i j)) = ix1 i from
      funext fun a => Fin.ext (by match a with | ⟨0, _⟩ => rfl),
    ref_rowMax, ref_h3]
  exact Ideal.subf_def _ _

/-- THE REFERENCE'S RESULT at `(i, j)` is the second arrangement's. -/
theorem ref_value (i : Fin 100000) (j : Fin 2) :
    val_main_v83 (F := Ideal) x0 x1 x2 x3 x4 x5 x6 x7 (ix2 i j)
      = Cert.Gcn.outR (fun i k => x0 (ix2 i k)) (fun e => x1 (ix2 (0 : Fin 2) e)) (fun e => x1 (ix2 (1 : Fin 2) e))
          (fun k j => x2 (ix2 k j)) (fun k => x3 (ix1 k)) (fun k j => x4 (ix2 k j)) (fun k => x5 (ix1 k))
          (fun k j => x6 (ix2 k j)) (fun k => x7 (ix1 k)) i j := by
  rw [val_main_v83_apply, val_main_call3_v10_apply, val_main_call3_v9_apply, val_main_call3_v8_apply,
    show idx_main_call3_v8 (idx_main_call3_v10 (ix2 i j)) = ix1 i from
      funext fun a => Fin.ext (by match a with | ⟨0, _⟩ => rfl),
    val_main_call3_v7_apply, val_main_call3_cst_1_apply, ref_shift]
  have hs : ∑ k : Fin 2, val_main_call3_v6 (F := Ideal) x0 x1 x2 x3 x4 x5 x6 x7 (idx_main_call3_v7 (ix1 i) k)
      = ∑ j' : Fin 2, Ideal.exp
          (h3 (tX x0) (tSrc x1) (tDst x1) (tW1 x2) (tb1 x3) (tW2 x4) (tb2 x5) (tW3 x6) (tb3 x7) i j'
            - max (h3 (tX x0) (tSrc x1) (tDst x1) (tW1 x2) (tb1 x3) (tW2 x4) (tb2 x5) (tW3 x6) (tb3 x7) i 0)
                (h3 (tX x0) (tSrc x1) (tDst x1) (tW1 x2) (tb1 x3) (tW2 x4) (tb2 x5) (tW3 x6) (tb3 x7) i 1)) :=
    Finset.sum_congr rfl fun k _ => by
      rw [show idx_main_call3_v7 (ix1 i) k = ix2 i k from
          funext fun a => Fin.ext (by match a with | ⟨0, _⟩ => rfl | ⟨1, _⟩ => rfl),
        val_main_call3_v6_apply, ref_shift]
      exact Ideal.hostUnary_exp_def _
  rw [hs]
  unfold Cert.Gcn.outR Cert.Gcn.lsm
  exact sub_log_zero_add _ _

end Program

end Cert.ReferenceIdeal.RefValue

end
-- ==== Proof.EdgeList.lean ====
/-
  The word lists of the graph: the extended list read at an entry, the sum over the entries of the extended
  destination list into a node, and the row a node-numbered word selects.

  The extended list has the edge list's own words at the entries below 1600000 and the node number `i` at entry
  `1600000 + i`. A sum over all 1700000 entries therefore falls into the sum over the edges and the sum over the
  nodes; among the nodes, the entry whose word reads `i` is the one entry `1600000 + i`.
-/
import proofs.«425015_j48112223650296_3_alg».proof.Proof.Spec
import Idealize.ShloMosaic.Lib.StableHlo.Predicate
import Mathlib.Algebra.BigOperators.Fin
import Mathlib.Algebra.BigOperators.Group.Finset.Piecewise

noncomputable section

open scoped BigOperators

namespace Cert.Gcn

open Idealize.ShloMosaic

/-! ## Positions in the extended list -/

/-- An edge's position is a position of the extended list: 1600000 ≤ 1700000. -/
theorem lt_NF_of_lt_NE {n : ℕ} (h : n < NE) : n < NF := by
  unfold NE at h; unfold NF; omega

/-- Node `n`'s loop sits at position 1600000 + n of the extended list: 1600000 + 100000 = 1700000. -/
theorem add_lt_NF_of_lt_NN {n : ℕ} (h : n < NN) : NE + n < NF := by
  unfold NN at h; unfold NE NF; omega

/-! ## The extended list read at an entry -/

/-- an entry of the extended list below NE is the list's own word -/
theorem ext_lt (ws : Fin NE → BitVec 32) (e : Fin NE) : ext ws ⟨e.val, lt_NF_of_lt_NE e.isLt⟩ = ws e := by
  unfold ext
  rw [dif_pos e.isLt]

/-- entry NE + i is the node number i -/
theorem ext_loop (ws : Fin NE → BitVec 32) (i : Fin NN) :
    ext ws ⟨NE + i.val, add_lt_NF_of_lt_NN i.isLt⟩ = BitVec.ofNat 32 i.val := by
  unfold ext
  rw [dif_neg (show ¬ (NE + i.val < NE) from Nat.not_lt.mpr (Nat.le_add_right _ _))]
  show BitVec.ofNat 32 (NE + i.val - NE) = BitVec.ofNat 32 i.val
  rw [Nat.add_sub_cancel_left]

/-- A node number is below 2³¹, so the word that holds it reads it back as a signed integer. -/
theorem toInt_ofNat_node (i : Fin NN) : (BitVec.ofNat 32 i.val).toInt = (i.val : ℤ) :=
  StableHlo.Predicate.toInt_ofNat_small i.val (by have := i.isLt; unfold NN at this; omega)

/-! ## A sum over `A + B` entries is the sum over the first `A` plus the sum over the last `B` -/

theorem sum_fin_split {M : Type} [AddCommMonoid M] {A B N : ℕ} (h : A + B = N) (g : Fin N → M) :
    ∑ e : Fin N, g e
      = (∑ a : Fin A, g ⟨a.val, by have := a.isLt; omega⟩) + ∑ b : Fin B, g ⟨A + b.val, by have := b.isLt; omega⟩ := by
  subst h
  rw [Fin.sum_univ_add]
  rfl

/-- THE SPLIT: a sum over the entries of the extended destination list into node i is the sum over the edges into i
    plus the one loop entry NE + i -/
theorem sum_intoF (dst : Fin NE → BitVec 32) (i : Fin NN) (f : Fin NF → EReal) :
    ∑ e' ∈ intoF dst i, f e'
      = (∑ e ∈ into dst i, f ⟨e.val, lt_NF_of_lt_NE e.isLt⟩) + f ⟨NE + i.val, add_lt_NF_of_lt_NN i.isLt⟩ := by
  -- below NE the entry's word is the edge's own destination word
  have hE : (∑ a : Fin NE, (if (ext dst ⟨a.val, lt_NF_of_lt_NE a.isLt⟩).toInt = (i.val : ℤ)
                then f ⟨a.val, lt_NF_of_lt_NE a.isLt⟩ else 0))
      = ∑ e : Fin NE, (if (dst e).toInt = (i.val : ℤ) then f ⟨e.val, lt_NF_of_lt_NE e.isLt⟩ else 0) :=
    Finset.sum_congr rfl fun e _ => by rw [ext_lt]
  -- from NE on the entry's word is the node number, which reads i at exactly the node i
  have hcond : ∀ b : Fin NN,
      (if (ext dst ⟨NE + b.val, add_lt_NF_of_lt_NN b.isLt⟩).toInt = (i.val : ℤ)
          then f ⟨NE + b.val, add_lt_NF_of_lt_NN b.isLt⟩ else 0)
        = if b = i then f ⟨NE + b.val, add_lt_NF_of_lt_NN b.isLt⟩ else 0 := by
    intro b
    rw [ext_loop, toInt_ofNat_node]
    by_cases hb : b = i
    · rw [if_pos hb, if_pos (by rw [hb])]
    · rw [if_neg hb, if_neg (fun hv => hb (Fin.ext (Int.ofNat_inj.mp hv)))]
  have hN : (∑ b : Fin NN, (if (ext dst ⟨NE + b.val, add_lt_NF_of_lt_NN b.isLt⟩).toInt = (i.val : ℤ)
                then f ⟨NE + b.val, add_lt_NF_of_lt_NN b.isLt⟩ else 0))
      = f ⟨NE + i.val, add_lt_NF_of_lt_NN i.isLt⟩ := by
    rw [Finset.sum_congr rfl fun b _ => hcond b]
    rw [Finset.sum_ite_eq' Finset.univ i (fun b => f ⟨NE + b.val, add_lt_NF_of_lt_NN b.isLt⟩)]
    rw [if_pos (Finset.mem_univ i)]
  unfold intoF into
  rw [Finset.sum_filter, Finset.sum_filter]
  -- the filtered sum over all entries, split at entry NE
  rw [sum_fin_split (A := NE) (B := NN) (N := NF) (by norm_num)
    (fun e' => if (ext dst e').toInt = (i.val : ℤ) then f e' else 0)]
  exact (congrArg₂ (· + ·) hE hN)

/-! ## The row a word selects -/

/-- The zero word reads zero. -/
theorem toInt_zero32 : (0#32 : BitVec 32).toInt = 0 := by decide

/-- a word in the node range is not changed by the wrap -/
theorem wrapW_of_nonneg {w : BitVec 32} (h : 0 ≤ w.toInt) : wrapW w = w := by
  have hs : w.slt 0#32 = false := by
    rw [BitVec.slt, toInt_zero32]
    exact decide_eq_false (by omega)
  show (if BitVec.ofBool (w.slt 0#32) = 1 then IntOp.addi w 100000#32 else w) = w
  rw [hs]
  exact if_neg (by decide)

/-- A word that reads a node number selects that node's row: the clamp does nothing inside the node range. -/
theorem rowOf_of_toInt_eq {w : BitVec 32} {i : Fin NN} (h : w.toInt = (i.val : ℤ)) : rowOf w = i := by
  apply Fin.ext
  show min w.toInt.toNat 99999 = i.val
  have hi : i.val < 100000 := i.isLt
  rw [h, Int.toNat_natCast]
  omega

/-- a word that reads a node number, wrapped and clamped as a gather's start index, selects that node -/
theorem rowOf_wrapW_of_toInt_eq {w : BitVec 32} {i : Fin NN} (h : w.toInt = (i.val : ℤ)) : rowOf (wrapW w) = i := by
  rw [wrapW_of_nonneg (by rw [h]; exact Int.natCast_nonneg _)]
  exact rowOf_of_toInt_eq h

/-- in the node range the wrapped-and-clamped row is the clamped row -/
theorem rowOf_wrapW_of_range {w : BitVec 32} (h0 : 0 ≤ w.toInt) (h1 : w.toInt < 100000) :
    rowOf (wrapW w) = rowOf w := by
  have _ := h1
  rw [wrapW_of_nonneg h0]

end Cert.Gcn

end
-- ==== Proof.Algebra.lean ====
/-
  The two arrangements of the three-layer graph convolution agree on real inputs.

  Splitting the loop entry off the extended edge list, the count of entries into a node is the number of edges into it
  plus one, a positive real; so both arrangements use the same factor d(i) = (c(i) + 1)^(-1/2), a real number. Every
  intermediate table is then real (finite sums, products and the larger of a real and zero stay real), and over the reals
  one layer's identity is distributivity:
    (∑_{e into i} h(src e)·d(src e) + h(i)·d(i))·d(i) + b = ∑_{e into i} h(src e)·(d(src e)·d(i)) + h(i)·(d(i)·d(i)) + b,
  the right side being the sum over the extended list with the loop entry written apart. The last layer's zero-filled
  weight matrix agrees with the two-column one on the two kept columns.
-/
import proofs.«425015_j48112223650296_3_alg».proof.Proof.Spec
import proofs.«425015_j48112223650296_3_alg».proof.Proof.EdgeList
import Mathlib.Tactic.Ring
import Mathlib.Tactic.Positivity
import Mathlib.Algebra.BigOperators.Ring.Finset
import Mathlib.Data.EReal.Basic
import Mathlib.Data.EReal.Operations

noncomputable section

open scoped BigOperators

namespace Cert.Gcn

open Idealize.ShloMosaic

/-! ### Reals inside the extended reals -/

/-- The embedding of the reals commutes with finite sums. -/
theorem coe_sum {ι : Type} (s : Finset ι) (f : ι → ℝ) :
    ∑ e ∈ s, ((f e : ℝ) : EReal) = ((∑ e ∈ s, f e : ℝ) : EReal) := by
  classical
  induction s using Finset.induction_on with
  | empty => simp
  | insert a s ha ih => rw [Finset.sum_insert ha, Finset.sum_insert ha, EReal.coe_add, ih]

/-- A finite sum of reals is real. -/
theorem real_sum {ι : Type} (s : Finset ι) (f : ι → EReal) (hf : ∀ e, ∃ r : ℝ, f e = (r : EReal)) :
    ∃ r : ℝ, ∑ e ∈ s, f e = (r : EReal) := by
  choose g hg using hf
  exact ⟨∑ e ∈ s, g e, by rw [← coe_sum]; exact Finset.sum_congr rfl (fun e _ => hg e)⟩

/-- A product of two reals is real. -/
theorem real_mul {u v : EReal} (hu : ∃ r : ℝ, u = (r : EReal)) (hv : ∃ r : ℝ, v = (r : EReal)) :
    ∃ r : ℝ, u * v = (r : EReal) := by
  obtain ⟨p, rfl⟩ := hu
  obtain ⟨q, rfl⟩ := hv
  exact ⟨p * q, (EReal.coe_mul p q).symm⟩

/-- The larger of a real and zero is real. -/
theorem real_max_zero {u : EReal} (hu : ∃ r : ℝ, u = (r : EReal)) : ∃ r : ℝ, max u 0 = (r : EReal) := by
  obtain ⟨r, rfl⟩ := hu
  rcases le_total r 0 with h | h
  · exact ⟨0, by rw [max_eq_right (EReal.coe_nonpos.mpr h)]; rfl⟩
  · exact ⟨r, max_eq_left (EReal.coe_nonneg.mpr h)⟩

/-! ### The degree and the factor -/

/-- Splitting off the loop entry, the count of the extended list is the first arrangement's count plus one. -/
theorem degR_eq_degK (dst : Fin NE → BitVec 32) (i : Fin NN) : degR dst i = degK dst i := by
  unfold degR degK
  exact sum_intoF dst i (fun _ => (1 : EReal))

/-- The degree is the real number "edges into i, plus one". -/
theorem degK_real (dst : Fin NE → BitVec 32) (i : Fin NN) :
    degK dst i = ((((into dst i).card : ℝ) + 1 : ℝ) : EReal) := by
  unfold degK
  rw [Finset.sum_const, EReal.nsmul_eq_mul, mul_one, EReal.coe_add, EReal.coe_one, EReal.coe_natCast]

/-- The factor is the real number (edges into i, plus one)^(-1/2): the degree is positive. -/
theorem dK_real (dst : Fin NE → BitVec 32) (i : Fin NN) :
    dK dst i = (((Real.sqrt (((into dst i).card : ℝ) + 1))⁻¹ : ℝ) : EReal) := by
  have h : (0 : ℝ) < ((into dst i).card : ℝ) + 1 := by positivity
  unfold dK
  rw [degK_real, Ideal.rsqrt_coe, if_neg (not_lt.mpr h.le), if_neg h.ne']

/-- The guard of the second arrangement's factor always holds, and the two factors agree. -/
theorem dR_eq_dK (dst : Fin NE → BitVec 32) (i : Fin NN) : dR dst i = dK dst i := by
  have h : (0 : ℝ) < ((into dst i).card : ℝ) + 1 := by positivity
  have hpos : 0 < degK dst i := by rw [degK_real]; exact EReal.coe_pos.mpr h
  unfold dR
  rw [degR_eq_degK, if_pos hpos]
  rfl

/-! ### Real tables through a layer -/

/-- A dense transform of real tables is real. -/
theorem lin_real {K C : Nat} (a : Fin NN → Fin K → EReal) (W : Fin K → Fin C → EReal)
    (ha : ∀ i k, ∃ r : ℝ, a i k = (r : EReal)) (hW : ∀ k j, ∃ r : ℝ, W k j = (r : EReal))
    (i : Fin NN) (j : Fin C) : ∃ r : ℝ, lin a W i j = (r : EReal) := by
  unfold lin
  exact real_sum _ _ (fun k => real_mul (ha i k) (hW k j))

/-- The second arrangement's layer of real tables is real. -/
theorem convR_real {K C : Nat} (src dst : Fin NE → BitVec 32)
    (a : Fin NN → Fin K → EReal) (W : Fin K → Fin C → EReal) (b : Fin C → EReal)
    (ha : ∀ i k, ∃ r : ℝ, a i k = (r : EReal)) (hW : ∀ k j, ∃ r : ℝ, W k j = (r : EReal))
    (hb : ∀ j, ∃ r : ℝ, b j = (r : EReal)) (i : Fin NN) (j : Fin C) :
    ∃ r : ℝ, convR src dst a W b i j = (r : EReal) := by
  have hd : ∀ i', ∃ r : ℝ, dR dst i' = (r : EReal) := fun i' => ⟨_, (dR_eq_dK dst i').trans (dK_real dst i')⟩
  unfold convR
  obtain ⟨s, hs⟩ := real_sum (intoF dst i)
    (fun e' => lin a W (rowOf (wrapW (ext src e'))) j * normR src dst e')
    (fun e' => real_mul (lin_real a W ha hW _ j) (real_mul (hd _) (hd _)))
  obtain ⟨q, hq⟩ := hb j
  exact ⟨s + q, by rw [hs, hq, EReal.coe_add]⟩

/-- The clip of a real table is real. -/
theorem relu_real {K : Nat} (t : Fin NN → Fin K → EReal) (ht : ∀ i k, ∃ r : ℝ, t i k = (r : EReal))
    (i : Fin NN) (k : Fin K) : ∃ r : ℝ, relu t i k = (r : EReal) := by
  unfold relu
  exact real_max_zero (ht i k)

/-! ### One layer: the two arrangements agree -/

/-- Over the reals: scaling each summand and the node's own row by its factor and then the whole by the
    destination's factor is the same as weighting each summand by the product of the two factors. -/
theorem layer_real {ι : Type} (s : Finset ι) (h d : ι → ℝ) (hi di b : ℝ) :
    (∑ e ∈ s, h e * d e + hi * di) * di + b = (∑ e ∈ s, h e * (d e * di) + hi * (di * di)) + b := by
  have : ∑ e ∈ s, h e * (d e * di) = (∑ e ∈ s, h e * d e) * di := by
    rw [Finset.sum_mul]; exact Finset.sum_congr rfl (fun _ _ => by ring)
  rw [this]; ring

/-- One layer on real tables: the first arrangement's scaled aggregate equals the second arrangement's
    weighted sum over the extended list. -/
theorem layer_eq {K C : Nat} (src dst : Fin NE → BitVec 32)
    (a : Fin NN → Fin K → EReal) (W : Fin K → Fin C → EReal) (b : Fin C → EReal)
    (ha : ∀ i k, ∃ r : ℝ, a i k = (r : EReal)) (hW : ∀ k j, ∃ r : ℝ, W k j = (r : EReal))
    (hb : ∀ j, ∃ r : ℝ, b j = (r : EReal))
    (hsrc : ∀ e, 0 ≤ (src e).toInt ∧ (src e).toInt < 100000) (i : Fin NN) (j : Fin C) :
    (aggK src dst (linScale a W (dK dst)) i j + linScale a W (dK dst) i j) * dK dst i + b j
      = convR src dst a W b i j := by
  choose H hH using lin_real a W ha hW
  have hD := dK_real dst
  obtain ⟨B, hB⟩ := hb j
  -- the extended list's sum: the edges into i, then the loop at i
  have key : ∑ e' ∈ intoF dst i, lin a W (rowOf (wrapW (ext src e'))) j * normR src dst e'
      = (∑ e ∈ into dst i, lin a W (rowOf (src e)) j * (dK dst (rowOf (src e)) * dK dst i))
        + lin a W i j * (dK dst i * dK dst i) := by
    rw [sum_intoF]
    refine congrArg₂ (fun u v : EReal => u + v) (Finset.sum_congr rfl (fun e he => ?_)) ?_
    · have hd : (dst e).toInt = (i.val : ℤ) := (Finset.mem_filter.mp he).2
      unfold normR
      rw [ext_lt, ext_lt, rowOf_wrapW_of_range (hsrc e).1 (hsrc e).2, rowOf_wrapW_of_toInt_eq hd,
        dR_eq_dK, dR_eq_dK]
    · unfold normR
      rw [ext_loop, ext_loop, rowOf_wrapW_of_toInt_eq (toInt_ofNat_node i), dR_eq_dK]
  unfold convR
  rw [key]
  unfold aggK linScale
  simp only [hH, hD, hB, ← EReal.coe_mul, coe_sum, ← EReal.coe_add]
  rw [layer_real]

/-! ### The last layer's zero columns -/

/-- In the first two columns the zero-filled weight matrix is the weight matrix. -/
theorem lin_W3p (W3 : Fin 64 → Fin 2 → EReal) (a : Fin NN → Fin 64 → EReal) (i : Fin NN) (j : Fin 2) :
    lin a (W3p W3) i ⟨j.val, by omega⟩ = lin a W3 i j := by
  unfold lin
  refine Finset.sum_congr rfl (fun k _ => ?_)
  unfold W3p
  rw [dif_pos j.isLt]

/-- The same for the scaled transform. -/
theorem linScale_W3p (W3 : Fin 64 → Fin 2 → EReal) (a : Fin NN → Fin 64 → EReal) (d : Fin NN → EReal)
    (i : Fin NN) (j : Fin 2) :
    linScale a (W3p W3) d i ⟨j.val, by omega⟩ = linScale a W3 d i j := by
  unfold linScale
  rw [lin_W3p]

/-- The same for the sum of scaled rows over the edges into a node. -/
theorem aggK_W3p (src dst : Fin NE → BitVec 32) (W3 : Fin 64 → Fin 2 → EReal) (a : Fin NN → Fin 64 → EReal)
    (d : Fin NN → EReal) (i : Fin NN) (j : Fin 2) :
    aggK src dst (linScale a (W3p W3) d) i ⟨j.val, by omega⟩ = aggK src dst (linScale a W3 d) i j := by
  unfold aggK
  exact Finset.sum_congr rfl (fun e _ => linScale_W3p W3 a d _ j)

/-! ### The three layers -/

/-- The two arrangements give the same table: layer by layer the clipped activations agree and stay real, the last
    layer's two kept columns are the two-column layer, and the row log-softmax is applied to equal tables. -/
theorem outK_eq_outR
    (x : Fin NN → Fin 128 → EReal) (src dst : Fin NE → BitVec 32)
    (W1 : Fin 128 → Fin 64 → EReal) (b1 : Fin 64 → EReal) (W2 : Fin 64 → Fin 64 → EReal) (b2 : Fin 64 → EReal)
    (W3 : Fin 64 → Fin 2 → EReal) (b3 : Fin 2 → EReal)
    (hx : ∀ i k, ∃ r : ℝ, x i k = (r : EReal)) (hW1 : ∀ k j, ∃ r : ℝ, W1 k j = (r : EReal)) (hb1 : ∀ k, ∃ r : ℝ, b1 k = (r : EReal))
    (hW2 : ∀ k j, ∃ r : ℝ, W2 k j = (r : EReal)) (hb2 : ∀ k, ∃ r : ℝ, b2 k = (r : EReal))
    (hW3 : ∀ k j, ∃ r : ℝ, W3 k j = (r : EReal)) (hb3 : ∀ k, ∃ r : ℝ, b3 k = (r : EReal))
    (hsrc : ∀ e, 0 ≤ (src e).toInt ∧ (src e).toInt < 100000) :
    outK x src dst W1 b1 W2 b2 W3 b3 = outR x src dst W1 b1 W2 b2 W3 b3 := by
  -- first layer: the clipped activations agree, and are real
  have hA1 : actK (dK dst) (conv1 x src dst W1) (hp1 x dst W1) b1 = relu (h1 x src dst W1 b1) := by
    funext i k
    unfold actK relu h1 conv1 hp1
    rw [layer_eq src dst x W1 b1 hx hW1 hb1 hsrc]
  have hR1 : ∀ i k, ∃ r : ℝ, relu (h1 x src dst W1 b1) i k = (r : EReal) :=
    relu_real _ (fun i k => convR_real src dst x W1 b1 hx hW1 hb1 i k)
  -- second layer
  have hA2 : actK (dK dst) (conv2 x src dst W1 b1 W2) (hp2 x src dst W1 b1 W2) b2
      = relu (h2 x src dst W1 b1 W2 b2) := by
    funext i k
    unfold actK relu h2 conv2 hp2
    rw [hA1, layer_eq src dst _ W2 b2 hR1 hW2 hb2 hsrc]
  have hR2 : ∀ i k, ∃ r : ℝ, relu (h2 x src dst W1 b1 W2 b2) i k = (r : EReal) :=
    relu_real _ (fun i k => convR_real src dst _ W2 b2 hR1 hW2 hb2 i k)
  -- third layer: the two kept columns
  have hz : zK x src dst W1 b1 W2 b2 W3 b3 = h3 x src dst W1 b1 W2 b2 W3 b3 := by
    funext i j
    unfold zK zFin conv3 hp3 h3
    rw [hA2, aggK_W3p, linScale_W3p, layer_eq src dst _ W3 b3 hR2 hW3 hb3 hsrc]
  unfold outK outR
  rw [hz]

end Cert.Gcn

end
-- ==== Proof.PreFacts.lean ====
/-
  The precondition, read back into facts about the eight arguments.

  The precondition is one bit: the conjunction, by bitwise "and", of eight tests. Seven of them say of a float array
  that every entry x has |x| < +∞, where |x| = max x (−x) and +∞ is the word 0x7F800000; each is the "and" of its
  entrywise bits over the whole array. The eighth says of the first row of the edge list (the source node of every
  edge) that every word w has 0 ≤ w and w < 100000, read signed.

  A conjunction of bits is 1 exactly when both bits are 1; an "and" over a whole array that is 1 had a 1 at every index;
  an extended real with max x (−x) < ⊤ is neither ⊤ nor ⊥, hence a real; and a signed comparison of two words that is 1 is the
  order of their signed readings. Row 0 of the [2, 1600000] edge list, taken as a [1, 1600000] slice and reshaped to
  [1600000], reads at e the entry (0, e).
-/
import proofs.«425015_j48112223650296_3_alg».proof.Pre_finite_inputs
import proofs.«425015_j48112223650296_3_alg».proof.Proof.Gen.Pre_finite_inputs
import Idealize.ShloMosaic.Lib.ReduceAll
import Idealize.ShloMosaic.Lib.ValueIdx
import Idealize.ShloMosaic.Lib.Pipeline.Value
import Idealize.ShloMosaic.Lib.StableHlo.Predicate

noncomputable section

namespace Cert.PreFacts

open Cert.Pre_finite_inputs Idealize.ShloMosaic Idealize.ShloMosaic.ValueIdx

/-- The scalar shape has one index. -/
instance : Subsingleton S_.Idx := ⟨fun a b => funext fun d => d.elim0⟩

/-! ## One entry -/

/-- The word 0x7F800000 is +∞. -/
theorem inf_word : Ideal.ofBits .f32 0x7F800000#32 = ⊤ := by simp [Ideal.ofBits, Ideal.ieee]

/-- An extended real whose absolute value max x (−x) is below +∞ is a real: ⊤ has absolute value ⊤, and so has ⊥. -/
theorem real_of_abs_lt_inf (x : EReal)
    (h : Ideal.cmp .olt (max x (-x)) (Ideal.ofBits .f32 0x7F800000#32) = 1#1) : ∃ r : ℝ, x = (r : EReal) := by
  rw [inf_word] at h
  unfold Ideal.cmp at h
  rw [StableHlo.Predicate.ofBool_eq_one_iff] at h
  have hlt : max x (-x) < ⊤ := of_decide_eq_true h
  induction x using EReal.rec with
  | bot => simp at hlt
  | coe r => exact ⟨r, rfl⟩
  | top => simp at hlt

/-- A word w with (w ≥ 0) = 1 and (w < 100000) = 1, both signed, reads as an integer in [0, 100000). -/
theorem range_of_cmp (w : BitVec 32) (h0 : IntOp.cmpi .sge w 0#32 = 1#1) (h1 : IntOp.cmpi .slt w 100000#32 = 1#1) :
    0 ≤ w.toInt ∧ w.toInt < 100000 := by
  unfold IntOp.cmpi at h0 h1
  rw [StableHlo.Predicate.ofBool_eq_one_iff] at h0 h1
  simp only [BitVec.slt, BitVec.sle, decide_eq_true_eq] at h0 h1
  have z : (0#32 : BitVec 32).toInt = 0 := by decide
  have c : (100000#32 : BitVec 32).toInt = 100000 := by decide
  rw [z] at h0
  rw [c] at h1
  exact ⟨h0, h1⟩

/-! ## One array -/

/-- "Every entry has absolute value below +∞", as the and of the entrywise bits over all axes, gives a real at every index. -/
theorem all_real {s : Shape} {axes : List (Fin s.rank)} (x : FVec Ideal s .f32)
    (hb : S_.BroadcastsInDim s (![] : Fin 0 → Fin s.rank)) (hr : s.ReducesTo axes S_) (h0 : 0 < S_.numel)
    (h : Host.reduce IntOp.andi
        (cmpf .olt (Host.absf x) (broadcastInDim s ![] hb (constant (F := Ideal) S_ .f32 0x7F800000#32)))
        (constantI S_ 1 1#1) hr h0 ix0 = 1#1) :
    ∀ i, ∃ r : ℝ, x i = (r : EReal) := by
  intro i
  have hi := Host.reduce_andi_all _ _ hr h0 ix0 h i
  exact real_of_abs_lt_inf (x i) hi

/-- Row 0 of the edge list, sliced out and flattened, reads at e the entry (0, e): the slice starts at (0, 0), and
    position e of the flat row is position 0 · 1600000 + e of the [1, 1600000] slice. -/
theorem src_read (x1 : IVec S2x1600000 32) (hs : S2x1600000.Slices ![0, 0] S1x1600000)
    (hc : S1x1600000.ShapeCasts S1600000) (e : Fin 1600000) :
    shapeCast S1600000 (extractStridedSlice S1x1600000 ![0, 0] x1 hs) hc (ix1 e) = x1 (ix2 (0 : Fin 2) e) := by
  refine (shapeCast_apply _ hc (ix1 e) (ix2 (0 : Fin 1) e) ?_).trans ?_
  · rw [Shape.rowMajor_val_two, Shape.rowMajor_val_one]
    show (0 : ℕ) * 1600000 + e.val = e.val
    omega
  · refine extractStridedSlice_apply _ x1 hs (ix2 (0 : Fin 1) e) (ix2 (0 : Fin 2) e) fun a => ?_
    match a with
    | ⟨0, _⟩ => rfl
    | ⟨1, _⟩ =>
      show e.val = 0 + e.val
      omega

/-- "Every source word is in [0, 100000)", as the and over all edges of the two signed comparisons, gives the range at
    every edge. -/
theorem src_range (x1 : IVec S2x1600000 32) (hs : S2x1600000.Slices ![0, 0] S1x1600000)
    (hc : S1x1600000.ShapeCasts S1600000) (hb : S_.BroadcastsInDim S1600000 (![] : Fin 0 → Fin S1600000.rank))
    (hr : S1600000.ReducesTo [0] S_) (h0 : 0 < S_.numel)
    (h : Host.reduce IntOp.andi
        (andi
          (cmpi .sge (shapeCast S1600000 (extractStridedSlice S1x1600000 ![0, 0] x1 hs) hc)
            (broadcastInDim S1600000 ![] hb (constantI S_ 32 0#32)))
          (cmpi .slt (shapeCast S1600000 (extractStridedSlice S1x1600000 ![0, 0] x1 hs) hc)
            (broadcastInDim S1600000 ![] hb (constantI S_ 32 100000#32))))
        (constantI S_ 1 1#1) hr h0 ix0 = 1#1) :
    ∀ e : Fin 1600000, 0 ≤ (x1 (ix2 (0 : Fin 2) e)).toInt ∧ (x1 (ix2 (0 : Fin 2) e)).toInt < 100000 := by
  intro e
  have he := Host.reduce_andi_all _ _ hr h0 ix0 h (ix1 e)
  obtain ⟨hge, hlt⟩ := IntOp.andi_eq_one.1 he
  rw [← src_read x1 hs hc e]
  exact range_of_cmp _ hge hlt

/-! ## The whole precondition -/

/-- A conjunction of two scalar bits that is 1 has both bits 1. -/
theorem and_ix0 (a b : IVec S_ 1) (h : andi a b ix0 = 1#1) : a ix0 = 1#1 ∧ b ix0 = 1#1 := IntOp.andi_eq_one.1 h

/-- THE PRECONDITION DECODED: every entry of the seven float arguments is a real, and every source word of the edge list
    reads signed as a node, in [0, 100000). -/
theorem of_pre [Cert.Pre_finite_inputs.Facts]
    (x0 : FVec Ideal S100000x128 .f32) (x1 : IVec S2x1600000 32) (x2 : FVec Ideal S128x64 .f32) (x3 : FVec Ideal S64 .f32)
    (x4 : FVec Ideal S64x64 .f32) (x5 : FVec Ideal S64 .f32) (x6 : FVec Ideal S64x2 .f32) (x7 : FVec Ideal S2 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x2 i = (r : EReal)) ∧ (∀ i, ∃ r : ℝ, x3 i = (r : EReal))
    ∧ (∀ i, ∃ r : ℝ, x4 i = (r : EReal)) ∧ (∀ i, ∃ r : ℝ, x5 i = (r : EReal)) ∧ (∀ i, ∃ r : ℝ, x6 i = (r : EReal))
    ∧ (∀ i, ∃ r : ℝ, x7 i = (r : EReal))
    ∧ (∀ e : Fin 1600000, 0 ≤ (x1 (ix2 (0 : Fin 2) e)).toInt ∧ (x1 (ix2 (0 : Fin 2) e)).toInt < 100000) := by
  have e := congrFun h ix0
  dsimp only [Cert.Pre_finite_inputs.fn, Cert.Pre_finite_inputs.fn_part1, Cert.Pre_finite_inputs.fn_part2] at e
  -- the eight conjuncts, the last joined first
  obtain ⟨e, hsrc⟩ := and_ix0 _ _ e
  obtain ⟨e, h7⟩ := and_ix0 _ _ e
  obtain ⟨e, h6⟩ := and_ix0 _ _ e
  obtain ⟨e, h5⟩ := and_ix0 _ _ e
  obtain ⟨e, h4⟩ := and_ix0 _ _ e
  obtain ⟨e, h3⟩ := and_ix0 _ _ e
  obtain ⟨h0, h2⟩ := and_ix0 _ _ e
  exact ⟨all_real x0 _ _ _ h0, all_real x2 _ _ _ h2, all_real x3 _ _ _ h3, all_real x4 _ _ _ h4, all_real x5 _ _ _ h5,
    all_real x6 _ _ _ h6, all_real x7 _ _ _ h7, src_range x1 _ _ _ _ _ hsrc⟩

end Cert.PreFacts

end
-- ==== Proof.lean ====
/-
  A three-layer graph convolution with a row log-softmax: the row-blocked kernel program against the plain reference.

  Both programs run, fault-free, with their argument arrays unchanged (the kernel programs' frames; the reference's run
  with its result dropped). The idealized kernel is the kernel's own text read over the extended reals (no rewrite was
  applied), so there is nothing to preserve. For the values: the kernel program's result buffer holds, index by index,
  the arrangement `outK` of the network (each layer scales the dense transform by the row's factor `d(i)`, sums the scaled
  rows over the edges into `i`, adds the node's own scaled row and scales once more); the reference's result holds the
  arrangement `outR` (one loop entry per node appended to the edge list, every entry weighted `d(src)·d(dst)`). With every
  float input a real and every source word a node number the two are one function: the factors are reals, so the sums
  distribute. The precondition supplies exactly those two facts.
-/
import proofs.«425015_j48112223650296_3_alg».proof.Defs
import proofs.«425015_j48112223650296_3_alg».proof.Proof.Gen.Kernel
import proofs.«425015_j48112223650296_3_alg».proof.Proof.Gen.Kernel.Frame
import proofs.«425015_j48112223650296_3_alg».proof.Proof.Gen.KernelIdeal
import proofs.«425015_j48112223650296_3_alg».proof.Proof.Gen.KernelIdeal.Frame
import proofs.«425015_j48112223650296_3_alg».proof.Proof.Gen.ReferenceIdeal
import proofs.«425015_j48112223650296_3_alg».proof.Proof.Gen.Pre_finite_inputs
import proofs.«425015_j48112223650296_3_alg».proof.Proof.RunValue
import proofs.«425015_j48112223650296_3_alg».proof.Proof.KChain
import proofs.«425015_j48112223650296_3_alg».proof.Proof.RefRun
import proofs.«425015_j48112223650296_3_alg».proof.Proof.RefRead
import proofs.«425015_j48112223650296_3_alg».proof.Proof.RefValue
import proofs.«425015_j48112223650296_3_alg».proof.Proof.Algebra
import proofs.«425015_j48112223650296_3_alg».proof.Proof.PreFacts
import Idealize.ShloMosaic.Adequacy
import Idealize.ShloMosaic.Init

noncomputable section

namespace Cert.Proof

open Idealize.ShloMosaic Idealize.ShloMosaic.TcCoe Idealize.SL.Sem Idealize.ShloMosaic.ValueIdx

/-- The kernel program runs and leaves its arguments as launched. -/
theorem frame_k : Cert.frame_Kernel := fun m ρ _ => Cert.Kernel.Gen.frame m ρ
/-- So does its reading over the extended reals. -/
theorem frame_ki : Cert.frame_KernelIdeal := fun m ρ _ => Cert.KernelIdeal.Gen.frame m ρ
/-- The reference runs and leaves its arguments as launched: its run with the result dropped. -/
theorem frame_ri : Cert.frame_ReferenceIdeal := fun m ρ _ =>
  (θ_run Cert.ReferenceIdeal.defs _ _).mono (fun _ h c => (h c).2) (Cert.ReferenceIdeal.Value.run (F := Ideal) m ρ)
/-- No operation was rewritten on the way to the extended reals. -/
theorem preserves : Cert.preserves_Kernel_KernelIdeal := trivial

open Cert.KernelIdeal.KChain in
/-- From memories agreeing on the arguments both programs end with one result: the kernel program's buffer is `outK` of
    the arguments, the reference's is `outR` of the same arguments, and under the precondition (real float inputs,
    source words in the node range) the two arrangements are equal. -/
theorem algebraic : Cert.algebraic_KernelIdeal_ReferenceIdeal := by
  intro m ρ m' ρ' hpre hagree
  refine ⟨fun c => Cert.KernelIdeal.Gen.W11 m ρ c (Proc.devRef .tc Cert.KernelIdeal.main_v30),
    Cert.KernelIdeal.RunValue.run_value (F := Ideal) m ρ, ?_⟩
  refine (θ_run Cert.ReferenceIdeal.defs _ _).mono (fun _ h c => ⟨(h c).1.trans ?_, (h c).2⟩)
    (Cert.ReferenceIdeal.Value.run (F := Ideal) m' ρ')
  -- what the precondition says of the kernel's arguments on this device
  obtain ⟨hx, hW1, hb1, hW2, hb2, hW3, hb3, hsrc⟩ := Cert.PreFacts.of_pre _ _ _ _ _ _ _ _ (hpre c)
  -- the reference's result term is the staged value of its arguments, which are the kernel's
  rw [Cert.ReferenceIdeal.Read.val_main_v83_eq, (hagree c).1, (hagree c).2.1, (hagree c).2.2.1, (hagree c).2.2.2.1,
    (hagree c).2.2.2.2.1, (hagree c).2.2.2.2.2.1, (hagree c).2.2.2.2.2.2.1, (hagree c).2.2.2.2.2.2.2]
  show (_ : Cert.KernelIdeal.S100000x2.Idx → EReal) = (Cert.KernelIdeal.Gen.W11 m ρ c (Proc.devRef .tc Cert.KernelIdeal.main_v30) : Cert.KernelIdeal.S100000x2.Idx → EReal)
  funext idx
  obtain ⟨i, j, rfl⟩ : ∃ (i : Fin 100000) (j : Fin 2), idx = ix2 i j := ⟨idx 0, idx 1, eq_ix2 idx⟩
  rw [Cert.ReferenceIdeal.RefValue.ref_value]
  refine Eq.trans ?_ (kernel_value m ρ c hsrc i j).symm
  exact (congrFun (congrFun (Cert.Gcn.outK_eq_outR (xA m c) (srcA m c) (dstA m c) (W1A m c) (b1A m c) (W2A m c) (b2A m c) (W3A m c) (b3A m c)
    (fun i k => hx (ix2 i k)) (fun k j => hW1 (ix2 k j)) (fun k => hb1 (ix1 k)) (fun k j => hW2 (ix2 k j)) (fun k => hb2 (ix1 k))
    (fun k j => hW3 (ix2 k j)) (fun k => hb3 (ix1 k)) hsrc) i) j).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
